-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S640000 : S_.BroadcastsInDim S640000 (![] : Fin 0 → Fin S640000.rank)
  reducesTo_S640000_S_d0 : S640000.ReducesTo [0] S_

variable [Facts]

def fn_part3 {F : FTy → Type} [FloatOps F] (main_arg2 : IVec S640000 32) (main_arg13 : FVec F S128 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 4294917296#32
  let main_v59 : IVec S640000 32 := broadcastInDim S640000 ![] bcast_S_S640000 main_c_22
  let main_v60 : IVec S640000 1 := cmpi .sge main_arg2 main_v59
  let main_c_23 : IVec S_ 1 := constantI S_ 1 1#1
  let main_v61 : IVec S_ 1 := (fun x v => Host.reduce IntOp.andi x v reducesTo_S640000_S_d0 h_S_) main_v60 main_c_23
  let main_v62 : IVec S_ 1 := andi main_v58 main_v61
  let main_c_24 : IVec S_ 32 := constantI S_ 32 50000#32
  let main_v63 : IVec S640000 32 := broadcastInDim S640000 ![] bcast_S_S640000 main_c_24
  let main_v64 : IVec S640000 1 := cmpi .slt main_arg2 main_v63
  let main_c_25 : IVec S_ 1 := constantI S_ 1 1#1
  let main_v65 : IVec S_ 1 := (fun x v => Host.reduce IntOp.andi x v reducesTo_S640000_S_d0 h_S_) main_v64 main_c_25
  let main_v66 : IVec S_ 1 := andi main_v62 main_v65
  main_v66

def fn_part2 {F : FTy → Type} [FloatOps F] (main_arg2 : IVec S640000 32) (main_arg9 : FVec F S128 .f32) (main_arg10 : FVec F S128x128 .f32) (main_arg11 : FVec F S128 .f32) (main_arg12 : FVec F S384x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x128 .f32 := Host.absf main_arg12
  let main_cst_18 : FVec F S_ .f32 := constant S_ .f32 0x7F800000#32
  let main_v50 : FVec F S384x128 .f32 := broadcastInDim S384x128 ![] bcast_S_S384x128 main_cst_18
  fn_part3 (F := F) main_arg2 main_arg13 main_v48 main_v49 main_v50

def fn_part1 {F : FTy → Type} [FloatOps F] (main_arg2 : IVec S640000 32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S384x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg9 main_arg10 main_arg11 main_arg12 main_arg13 main_v33

def fn {F : FTy → Type} [FloatOps F] (main_arg0 : FVec F S50000x128 .f32) (main_arg1 : FVec F S640000x128 .f32) (main_arg2 : IVec S640000 32) (main_arg3 : IVec S640000 32) (main_arg4 : FVec F S256x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S384x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_arg12 main_arg13 main_v13 main_v16
-- ==== Kernel.lean ====
abbrev S50000x128 : Shape := ⟨2, ![50000, 128]⟩
abbrev S640000x128 : Shape := ⟨2, ![640000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S50000 : Shape := ⟨1, ![50000]⟩
abbrev S640000x1 : Shape := ⟨2, ![640000, 1]⟩
abbrev S5000x128 : Shape := ⟨2, ![5000, 128]⟩
abbrev S1 : Shape := ⟨1, ![1]⟩
abbrev S1x1 : Shape := ⟨2, ![1, 1]⟩
abbrev S1x128 : Shape := ⟨2, ![1, 128]⟩
abbrev S50000x1 : Shape := ⟨2, ![50000, 1]⟩
abbrev S5000x1 : Shape := ⟨2, ![5000, 1]⟩

abbrev nBuf : Space → Nat
  | .hbm => 107
  | .vmem => 58
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S384x128, .f32⟩
  | .hbm, ⟨13, _⟩ => ⟨S128, .f32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S50000, .f32⟩
  | .hbm, ⟨18, _⟩ => ⟨S640000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000x128, .f32⟩
  | .hbm, ⟨28, _⟩ => ⟨S640000x1, .i32⟩
  | .hbm, ⟨29, _⟩ => ⟨S50000x128, .f32⟩
  | .hbm, ⟨30, _⟩ => ⟨S128x128, .f32⟩
  | .hbm, ⟨31, _⟩ => ⟨S128x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S1, .i32⟩
  | .hbm, ⟨43, _⟩ => ⟨S_, .i32⟩
  | .hbm, ⟨44, _⟩ => ⟨S640000x1, .i32⟩
  | .hbm, ⟨45, _⟩ => ⟨S640000x1, .i1⟩
  | .hbm, ⟨46, _⟩ => ⟨S1x1, .i32⟩
  | .hbm, ⟨47, _⟩ => ⟨S640000x1, .i32⟩
  | .hbm, ⟨48, _⟩ => ⟨S640000x1, .i1⟩
  | .hbm, ⟨49, _⟩ => ⟨S640000x1, .i1⟩
  | .hbm, ⟨50, _⟩ => ⟨S_, .i1⟩
  | .hbm, ⟨51, _⟩ => ⟨S640000, .i1⟩
  | .hbm, ⟨52, _⟩ => ⟨S640000x128, .f32⟩
  | .hbm, ⟨53, _⟩ => ⟨S640000x128, .i1⟩
  | .hbm, ⟨54, _⟩ => ⟨S_, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S50000x128, .f32⟩
  | .hbm, ⟨59, _⟩ => ⟨S640000x1, .i32⟩
  | .hbm, ⟨60, _⟩ => ⟨S50000x128, .f32⟩
  | .hbm, ⟨61, _⟩ => ⟨S1x128, .f32⟩
  | .hbm, ⟨62, _⟩ => ⟨S1x128, .f32⟩
  | .hbm, ⟨63, _⟩ => ⟨S50000x1, .f32⟩
  | .hbm, ⟨64, _⟩ => ⟨S50000x1, .f32⟩
  | .hbm, ⟨65, _⟩ => ⟨S50000x128, .f32⟩
  | .hbm, ⟨66, _⟩ => ⟨S128x128, .f32⟩
  | .hbm, ⟨67, _⟩ => ⟨S128x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S640000, .i32⟩
  | .hbm, ⟨72, _⟩ => ⟨S640000, .i1⟩
  | .hbm, ⟨73, _⟩ => ⟨S_, .i32⟩
  | .hbm, ⟨74, _⟩ => ⟨S640000, .i32⟩
  | .hbm, ⟨75, _⟩ => ⟨S640000, .i32⟩
  | .hbm, ⟨76, _⟩ => ⟨S640000, .i32⟩
  | .hbm, ⟨77, _⟩ => ⟨S640000x1, .i32⟩
  | .hbm, ⟨78, _⟩ => ⟨S1, .i32⟩
  | .hbm, ⟨79, _⟩ => ⟨S_, .i32⟩
  | .hbm, ⟨80, _⟩ => ⟨S640000x1, .i32⟩
  | .hbm, ⟨81, _⟩ => ⟨S640000x1, .i1⟩
  | .hbm, ⟨82, _⟩ => ⟨S1x1, .i32⟩
  | .hbm, ⟨83, _⟩ => ⟨S640000x1, .i32⟩
  | .hbm, ⟨84, _⟩ => ⟨S640000x1, .i1⟩
  | .hbm, ⟨85, _⟩ => ⟨S640000x1, .i1⟩
  | .hbm, ⟨86, _⟩ => ⟨S_, .i1⟩
  | .hbm, ⟨87, _⟩ => ⟨S640000, .i1⟩
  | .hbm, ⟨88, _⟩ => ⟨S640000x128, .f32⟩
  | .hbm, ⟨89, _⟩ => ⟨S640000x128, .i1⟩
  | .hbm, ⟨90, _⟩ => ⟨S_, .f32⟩
  | .hbm, ⟨91, _⟩ => ⟨S640000x128, .f32⟩
  | .hbm, ⟨92, _⟩ => ⟨S640000x128, .f32⟩
  | .hbm, ⟨93, _⟩ => ⟨S_, .f32⟩
  | .hbm, ⟨94, _⟩ => ⟨S50000x128, .f32⟩
  | .hbm, ⟨95, _⟩ => ⟨S640000x1, .i32⟩
  | .hbm, ⟨96, _⟩ => ⟨S50000x128, .f32⟩
  | .hbm, ⟨97, _⟩ => ⟨S1x128, .f32⟩
  | .hbm, ⟨98, _⟩ => ⟨S1x128, .f32⟩
  | .hbm, ⟨99, _⟩ => ⟨S50000x1, .f32⟩
  | .hbm, ⟨100, _⟩ => ⟨S50000x1, .f32⟩
  | .hbm, ⟨101, _⟩ => ⟨S50000x128, .f32⟩
  | .hbm, ⟨102, _⟩ => ⟨S128x128, .f32⟩
  | .hbm, ⟨103, _⟩ => ⟨S128x128, .f32⟩
  | .hbm, ⟨104, _⟩ => ⟨S128x128, .f32⟩
  | .hbm, ⟨105, _⟩ => ⟨S1x128, .f32⟩
  | .hbm, ⟨106, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S5000x1, .f32⟩
  | .local _ .vmem, ⟨40, _⟩ => ⟨S5000x1, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S128x128, .f32⟩
  | .local _ .vmem, ⟨54, _⟩ => ⟨S128x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v14 : Ref sig .tc := ⟨.hbm, 56, rfl⟩
abbrev main_cst_4 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25_0 : Ref sig .tc := ⟨.hbm, 68, rfl⟩
abbrev main_v25_1 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v26 : Ref sig .tc := ⟨.hbm, 92, rfl⟩
abbrev main_cst_5 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg7_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg7_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem4_1 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem7_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem7_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S5000x128_S5000x128 : S5000x128.ShapeCasts S5000x128
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S128_S1x128 : S128.ShapeCasts S1x128
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  slices_S384x128_S128x128_0_0 : S384x128.Slices ![0, 0] S128x128
  slices_S384x128_S128x128_128_0 : S384x128.Slices ![128, 0] S128x128
  slices_S384x128_S128x128_256_0 : S384x128.Slices ![256, 0] S128x128
  scatter_S50000_S640000x1_S640000_n_0_0_1_wf : ScatterDims.WF S50000 S640000x1 S640000 [] [0] [0] 1
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v22) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v25_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v29) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v33) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v30) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v31) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v34) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v34) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v35) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v36) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v37) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v38) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v39) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S50000 : Shape := ⟨1, ![50000]⟩
abbrev S640000x1 : Shape := ⟨2, ![640000, 1]⟩
abbrev S640000x256 : Shape := ⟨2, ![640000, 256]⟩
abbrev S1x128 : Shape := ⟨2, ![1, 128]⟩
abbrev S50000x1 : Shape := ⟨2, ![50000, 1]⟩
abbrev S50000x384 : Shape := ⟨2, ![50000, 384]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S384x128, .f32⟩
  | .hbm, ⟨13, _⟩ => ⟨S128, .f32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S50000, .f32⟩
  | .hbm, ⟨18, _⟩ => ⟨S640000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S640000x256, .f32⟩
  | .hbm, ⟨33, _⟩ => ⟨S640000x128, .f32⟩
  | .hbm, ⟨34, _⟩ => ⟨S1x128, .f32⟩
  | .hbm, ⟨35, _⟩ => ⟨S640000x128, .f32⟩
  | .hbm, ⟨36, _⟩ => ⟨S640000x128, .f32⟩
  | .hbm, ⟨37, _⟩ => ⟨S_, .f32⟩
  | .hbm, ⟨38, _⟩ => ⟨S50000x128, .f32⟩
  | .hbm, ⟨39, _⟩ => ⟨S640000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .i1⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x128, .f32⟩
  | .hbm, ⟨65, _⟩ => ⟨S640000x256, .f32⟩
  | .hbm, ⟨66, _⟩ => ⟨S640000x128, .f32⟩
  | .hbm, ⟨67, _⟩ => ⟨S1x128, .f32⟩
  | .hbm, ⟨68, _⟩ => ⟨S640000x128, .f32⟩
  | .hbm, ⟨69, _⟩ => ⟨S640000x128, .f32⟩
  | .hbm, ⟨70, _⟩ => ⟨S_, .f32⟩
  | .hbm, ⟨71, _⟩ => ⟨S50000x128, .f32⟩
  | .hbm, ⟨72, _⟩ => ⟨S640000x1, .i32⟩
  | .hbm, ⟨73, _⟩ => ⟨S50000x128, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .i1⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x384, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  concatenates_S50000x128_S50000x128_S50000x128_S50000x384_d1 : Shape.Concatenates [S50000x128, S50000x128, S50000x128] S50000x384 1
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  dot_S640000x256_S256x128_S640000x128_1_0_0_1_n_n_wf : DotDims.WF S640000x256 S256x128 S640000x128 [1] [0] [0] [1] [] []
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  dot_S50000x384_S384x128_S50000x128_1_0_0_1_n_n_wf : DotDims.WF S50000x384 S384x128 S50000x128 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.Spec.lean ====
/-
  The two programs' results as functions of the argument arrays, index by index, over the extended reals.

  A graph layer sends to node i the mean over its incoming edges e (those whose destination word, read signed,
  is i; words outside [0, 50000) are dropped) of   cat(h[s e], ef[e]) · W1 + b1,   s e the edge's source row.
  The reference computes that per edge and sums; the kernel projects the node table first (h · W1[0:128]),
  gathers the projected rows, sums them, and adds (Σ_e ef[e]) · W1[128:256] and (number of edges) · b1.
  Both then apply the same self-loop tail  a + (a · W2 + b2)  and the leaky rectifier, twice, and a final
  projection of the three node tables side by side.
-/
import Idealize.ShloMosaic.PureOps.Ideal
import Idealize.ShloMosaic.Lib.ValueIdx

noncomputable section

namespace GraphConv

open Idealize.ShloMosaic Idealize.ShloMosaic.ValueIdx

/-- A node table [50000, 128], an edge table [640000, 128], a vector of edge words [640000]. -/
abbrev NodeT := (⟨2, ![50000, 128]⟩ : Shape).Idx → EReal
abbrev EdgeT := (⟨2, ![640000, 128]⟩ : Shape).Idx → EReal
abbrev EdgeW := (⟨1, ![640000]⟩ : Shape).Idx → BitVec 32
abbrev W1T := (⟨2, ![256, 128]⟩ : Shape).Idx → EReal
abbrev W2T := (⟨2, ![128, 128]⟩ : Shape).Idx → EReal
abbrev WfT := (⟨2, ![384, 128]⟩ : Shape).Idx → EReal
abbrev BiasT := (⟨1, ![128]⟩ : Shape).Idx → EReal

/-! ## Where an edge lands, and where it reads -/

/-- The node an edge's update is added to: its destination word read signed, when that is a row of the table;
    an edge whose word is outside [0, 50000) adds to no node. -/
def tgt (dst : EdgeW) (e : Fin 640000) : Option (Fin 50000) :=
  if h : 0 ≤ (dst (ix1 e)).toInt ∧ (dst (ix1 e)).toInt < 50000 then
    some ⟨(dst (ix1 e)).toInt.toNat, by omega⟩
  else none

/-- The sum, over the edges landing on node i, of a per-edge quantity. -/
def seg (dst : EdgeW) (u : Fin 640000 → EReal) (i : Fin 50000) : EReal :=
  ∑ e ∈ Finset.univ.filter (fun e => tgt dst e = some i), u e

/-- The number of edges landing on node i, and that number raised to at least one. -/
def deg (dst : EdgeW) (i : Fin 50000) : EReal := seg dst (fun _ => 1) i
def degc (dst : EdgeW) (i : Fin 50000) : EReal := max (deg dst i) 1

/-- A source word with a negative value moved up by the table's height. -/
def wrapw (s : BitVec 32) : BitVec 32 := Scalar.select (IntOp.cmpi .slt s 0#32) (IntOp.addi s 50000#32) s

/-- The row of the node table an edge reads: its wrapped source word read signed and clamped into the table. -/
def srow (src : EdgeW) (e : Fin 640000) : Fin 50000 :=
  ⟨min (wrapw (src (ix1 e))).toInt.toNat 49999, by omega⟩

/-- The bit "the wrapped source word is a row of the table". -/
def inb (s : BitVec 32) : BitVec 1 :=
  IntOp.andi (IntOp.cmpi .sge (wrapw s) 0#32) (IntOp.cmpi .sle (wrapw s) 49999#32)

/-! ## The tail every layer shares -/

/-- x when x ≥ 0, else the f32 nearest 11/48 times x. -/
def lrelu (x : EReal) : EReal :=
  Scalar.select (Ideal.cmp .oge x 0) x (Ideal.ofBits .f32 0x3E6AAAAB#32 * x)

/-- a + (a · W2 + b2), rectified. -/
def layerOut (agg : Fin 50000 → Fin 128 → EReal) (W2 : W2T) (b2 : BiasT) : NodeT := fun i =>
  lrelu (agg (i 0) (i 1) + ((∑ k : Fin 128, agg (i 0) k * W2 (ix2 k (i 1))) + b2 (ix1 (i 1))))

/-! ## What one pallas_call computes, as a function of whole tables

A row-blocked call whose body is "rows times a square matrix" leaves, row by row, the product of its table with the
matrix; the self-loop call and the final call are the same kind of row-by-row function. -/

/-- A column [50000, 1] and a row [1, 128]. -/
abbrev ColT := (⟨2, ![50000, 1]⟩ : Shape).Idx → EReal
abbrev RowT := (⟨2, ![1, 128]⟩ : Shape).Idx → EReal

/-- Rows off, …, off + 127 of a taller weight matrix, as a square one. -/
def rows128 (off : Nat) {R : Nat} (hR : off + 128 ≤ R) (W : (⟨2, ![R, 128]⟩ : Shape).Idx → EReal) : W2T := fun i =>
  W (ix2 ⟨off + (i 0).val, by have := idx2_lt0 i; omega⟩ (i 1))

/-- A node table times a square matrix. -/
def mm128 (A : NodeT) (W : W2T) : NodeT := fun i => ∑ k : Fin 128, A (ix2 (i 0) k) * W (ix2 k (i 1))

/-- The self-loop call: the three summands normalised by the inverse degree, then the shared tail. -/
def selfloopRows (gs efp : NodeT) (dg inv : ColT) (b1r : RowT) (W2 : W2T) (b2r : RowT) : NodeT :=
  layerOut (fun r q => ((gs (ix2 r q) + efp (ix2 r q)) + dg (ix2 r 0) * b1r (ix2 0 q)) * inv (ix2 r 0)) W2
    (fun j => b2r (ix2 0 (j 0)))

/-- The final call: three products added left to right, plus the bias row. -/
def finalRows (a b c : NodeT) (Wa Wb Wc : W2T) (bfr : RowT) : NodeT := fun i =>
  ((mm128 a Wa i + mm128 b Wb i) + mm128 c Wc i) + bfr (ix2 0 (i 1))

/-! ## The reference's layer -/

/-- Row e of the [640000, 256] table: the gathered node row beside the edge's own features. -/
def catRow (h : NodeT) (ef : EdgeT) (src : EdgeW) (e : Fin 640000) (k : Fin 256) : EReal :=
  if hk : k.val < 128 then h (ix2 (srow src e) ⟨k.val, hk⟩) else ef (ix2 e ⟨k.val - 128, by omega⟩)

/-- The per-edge message. -/
def refMsg (h : NodeT) (ef : EdgeT) (src : EdgeW) (W1 : W1T) (b1 : BiasT) (e : Fin 640000) (j : Fin 128) : EReal :=
  (∑ k : Fin 256, catRow h ef src e k * W1 (ix2 k j)) + b1 (ix1 j)

/-- The mean of the messages landing on a node. -/
def refAgg (h : NodeT) (ef : EdgeT) (src dst : EdgeW) (W1 : W1T) (b1 : BiasT) (i : Fin 50000) (j : Fin 128) : EReal :=
  Ideal.div (seg dst (fun e => refMsg h ef src W1 b1 e j) i) (degc dst i)

def refLayer (h : NodeT) (ef : EdgeT) (src dst : EdgeW) (W1 : W1T) (b1 : BiasT) (W2 : W2T) (b2 : BiasT) : NodeT :=
  layerOut (refAgg h ef src dst W1 b1) W2 b2

/-! ## The kernel's layer -/

/-- The node table projected by the upper half of W1. -/
def hproj (h : NodeT) (W1 : W1T) : NodeT := mm128 h (rows128 0 (by norm_num) W1)

/-- The edge features summed per node (once for both layers). -/
def efagg (ef : EdgeT) (dst : EdgeW) : NodeT := fun i => seg dst (fun e => ef (ix2 e (i 1))) (i 0)

/-- That table projected by the lower half of W1. -/
def efproj (ea : NodeT) (W1 : W1T) : NodeT := mm128 ea (rows128 128 (by norm_num) W1)

/-- A projected row gathered for edge e: the row the edge reads when its wrapped word is in the table, and the
    pattern the extended reals read as ⊥ when it is not. -/
def gathered (hp : NodeT) (src : EdgeW) (e : Fin 640000) (j : Fin 128) : EReal :=
  Scalar.select (inb (src (ix1 e))) (hp (ix2 (srow src e) j)) ⊥

def kerAgg (h : NodeT) (ef : EdgeT) (src dst : EdgeW) (W1 : W1T) (b1 : BiasT) (i : Fin 50000) (j : Fin 128) : EReal :=
  ((seg dst (fun e => gathered (hproj h W1) src e j) i + efproj (efagg ef dst) W1 (ix2 i j))
      + deg dst i * b1 (ix1 j)) * Ideal.div 1 (degc dst i)

def kerLayer (h : NodeT) (ef : EdgeT) (src dst : EdgeW) (W1 : W1T) (b1 : BiasT) (W2 : W2T) (b2 : BiasT) : NodeT :=
  layerOut (kerAgg h ef src dst W1 b1) W2 b2

/-! ## The final projection -/

/-- Row i of the three node tables side by side, [50000, 384]. -/
def cat3 (a b c : NodeT) (i : Fin 50000) (k : Fin 384) : EReal :=
  if h0 : k.val < 128 then a (ix2 i ⟨k.val, h0⟩)
  else if h1 : k.val < 256 then b (ix2 i ⟨k.val - 128, by omega⟩)
  else c (ix2 i ⟨k.val - 256, by omega⟩)

def refFinal (a b c : NodeT) (Wf : WfT) (bf : BiasT) : NodeT := fun i =>
  (∑ k : Fin 384, cat3 a b c (i 0) k * Wf (ix2 k (i 1))) + bf (ix1 (i 1))

def kerFinal (a b c : NodeT) (Wf : WfT) (bf : BiasT) : NodeT := fun i =>
  ((mm128 a (rows128 0 (by norm_num) Wf) i + mm128 b (rows128 128 (by norm_num) Wf) i)
      + mm128 c (rows128 256 (by norm_num) Wf) i)
    + bf (ix1 (i 1))

/-! ## The whole programs -/

def refSpec (x0 : NodeT) (ef : EdgeT) (src dst : EdgeW) (W1a : W1T) (b1a : BiasT) (W2a : W2T) (b2a : BiasT)
    (W1b : W1T) (b1b : BiasT) (W2b : W2T) (b2b : BiasT) (Wf : WfT) (bf : BiasT) : NodeT :=
  refFinal x0 (refLayer x0 ef src dst W1a b1a W2a b2a)
    (refLayer (refLayer x0 ef src dst W1a b1a W2a b2a) ef src dst W1b b1b W2b b2b) Wf bf

def kerSpec (x0 : NodeT) (ef : EdgeT) (src dst : EdgeW) (W1a : W1T) (b1a : BiasT) (W2a : W2T) (b2a : BiasT)
    (W1b : W1T) (b1b : BiasT) (W2b : W2T) (b2b : BiasT) (Wf : WfT) (bf : BiasT) : NodeT :=
  kerFinal x0 (kerLayer x0 ef src dst W1a b1a W2a b2a)
    (kerLayer (kerLayer x0 ef src dst W1a b1a W2a b2a) ef src dst W1b b1b W2b b2b) Wf bf

end GraphConv

end
-- ==== Proof.Algebra.lean ====
/-
  The kernel's arrangement of a graph layer equals the reference's, over the extended reals, when the edge
  features, the first weight matrices and the first biases are real numbers and every source word is a valid
  (possibly negative, NumPy-style) row index.

  Three facts carry it.  The wrapped source word of every edge is a row of the table, so the kernel's gather reads
  the projected row and never the filler.  Per layer, the sum over the edges landing on a node of the per-edge
  message  cat(h[s e], ef[e]) · W1 + b1  is the sum of three sums: the gathered rows of h · W1[0:128] (no
  finiteness needed: addition of extended reals is commutative and associative), (Σ_e ef[e]) · W1[128:256]
  (here a real factor is taken out of a finite sum of reals, which is where the edge features and W1 must be
  real), and (number of edges) · b1 (b1 real); and dividing by the real number max n 1 is multiplying by its
  reciprocal, for every extended real.  The final projection only regroups a sum over 384 columns into three
  sums over 128.
-/
import proofs.«408989_j23862838297343_2_alg».proof.Proof.Spec

noncomputable section

namespace GraphConv

open Idealize.ShloMosaic Idealize.ShloMosaic.ValueIdx

/-! ## Finite sums -/

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a + b consecutive indices is the sum over the first a plus the sum over the last b. -/
theorem sum_fin_add (a b : ℕ) (f : Fin (a + b) → EReal) :
    ∑ k : Fin (a + b), f k
      = (∑ k : Fin a, f ⟨k.val, by omega⟩) + ∑ k : Fin b, f ⟨a + k.val, by omega⟩ :=
  Fin.sum_univ_add f

/-- A sum over 256 indices in two halves. -/
theorem sum_256 (f : Fin 256 → EReal) :
    ∑ k : Fin 256, f k
      = (∑ k : Fin 128, f ⟨k.val, by omega⟩) + ∑ k : Fin 128, f ⟨128 + k.val, by omega⟩ :=
  sum_fin_add 128 128 f

/-- A sum over 384 indices in three thirds, added left to right. -/
theorem sum_384 (f : Fin 384 → EReal) :
    ∑ k : Fin 384, f k
      = ((∑ k : Fin 128, f ⟨k.val, by omega⟩) + ∑ k : Fin 128, f ⟨128 + k.val, by omega⟩)
        + ∑ k : Fin 128, f ⟨256 + k.val, by omega⟩ := by
  rw [sum_fin_add 256 128 f, sum_fin_add 128 128 (fun k => f ⟨k.val, by omega⟩)]

/-! ## The row-by-row products at an index -/

theorem mm128_apply (A : NodeT) (W : W2T) (r : Fin 50000) (q : Fin 128) :
    mm128 A W (ix2 r q) = ∑ k : Fin 128, A (ix2 r k) * W (ix2 k q) := rfl

theorem rows128_apply (off : Nat) {R : Nat} (hR : off + 128 ≤ R) (W : (⟨2, ![R, 128]⟩ : Shape).Idx → EReal)
    (k q : Fin 128) : rows128 off hR W (ix2 k q) = W (ix2 ⟨off + k.val, by omega⟩ q) := rfl

/-! ## The wrapped source word -/

/-- A source word that is a valid NumPy-style row index, negative ones counted from the end, wraps to a row
    of the table: adding the table's height to a negative word does not leave 32 bits. -/
theorem wrapw_range (s : BitVec 32) (h : -50000 ≤ s.toInt ∧ s.toInt < 50000) :
    0 ≤ (wrapw s).toInt ∧ (wrapw s).toInt ≤ 49999 := by
  by_cases hs : s.toInt < 0
  · have hlt : s.slt 0#32 = true := by rw [BitVec.slt]; simpa using hs
    have hw : wrapw s = s + 50000#32 := by
      unfold wrapw IntOp.cmpi IntOp.addi Scalar.select
      simp [hlt]
    have h5 : (50000#32 : BitVec 32).toInt = 50000 := by decide
    have hb : (s.toInt + 50000).bmod (2 ^ 32) = s.toInt + 50000 :=
      Int.bmod_eq_of_le (by omega) (by omega)
    rw [hw, BitVec.toInt_add, h5, hb]
    omega
  · have hlt : s.slt 0#32 = false := by rw [BitVec.slt]; simpa using hs
    have hw : wrapw s = s := by
      unfold wrapw IntOp.cmpi IntOp.addi Scalar.select
      simp [hlt]
    rw [hw]
    omega

/-- So the kernel's range bit is set on every edge. -/
theorem inb_eq_one (s : BitVec 32) (h : -50000 ≤ s.toInt ∧ s.toInt < 50000) : inb s = 1#1 := by
  obtain ⟨h0, h1⟩ := wrapw_range s h
  have a : (0#32).sle (wrapw s) = true := by rw [BitVec.sle]; simpa using h0
  have h4 : (49999#32 : BitVec 32).toInt = 49999 := by decide
  have b : (wrapw s).sle 49999#32 = true := by rw [BitVec.sle, h4]; simpa using h1
  unfold inb IntOp.andi IntOp.cmpi
  simp only [a, b]
  decide

/-- And the gathered value is the projected row the edge reads. -/
theorem gathered_eq (hp : NodeT) (src : EdgeW) (e : Fin 640000) (j : Fin 128)
    (h : -50000 ≤ (src (ix1 e)).toInt ∧ (src (ix1 e)).toInt < 50000) :
    gathered hp src e j = hp (ix2 (srow src e) j) := by
  unfold gathered
  rw [inb_eq_one _ h, select_one]

/-! ## One layer

  S is the set of edges landing on node i, n its size. -/

/-- A real factor distributes over a finite sum of reals, inside the extended reals. -/
theorem sum_mul_coe {ι : Type} (S : Finset ι) (f : ι → ℝ) (w : ℝ) :
    (∑ e ∈ S, (f e : EReal)) * (w : EReal) = ∑ e ∈ S, (f e : EReal) * (w : EReal) := by
  rw [← coe_sum, ← EReal.coe_mul, Finset.sum_mul, coe_sum]
  exact Finset.sum_congr rfl (fun e _ => EReal.coe_mul _ _)

/-- Summing real edge features over S and then projecting is projecting each edge and then summing. -/
theorem sum_proj_swap {ι : Type} (S : Finset ι) (f : ι → Fin 128 → ℝ) (w : Fin 128 → ℝ) :
    ∑ k : Fin 128, (∑ e ∈ S, (f e k : EReal)) * (w k : EReal)
      = ∑ e ∈ S, ∑ k : Fin 128, (f e k : EReal) * (w k : EReal) := by
  rw [Finset.sum_comm]
  exact Finset.sum_congr rfl (fun k _ => sum_mul_coe S (fun e => f e k) (w k))

/-- A real constant summed over S is n times the constant. -/
theorem sum_const_coe {ι : Type} (S : Finset ι) (r : ℝ) :
    ∑ _e ∈ S, (r : EReal) = ((S.card : ℝ) : EReal) * (r : EReal) := by
  rw [← coe_sum, Finset.sum_const, nsmul_eq_mul, EReal.coe_mul]

/-- The degree is the real number n. -/
theorem deg_eq (dst : EdgeW) (i : Fin 50000) :
    deg dst i = (((Finset.univ.filter (fun e => tgt dst e = some i)).card : ℝ) : EReal) := by
  unfold deg seg
  rw [← EReal.coe_one, ← coe_sum, Finset.sum_const, nsmul_eq_mul, mul_one]

/-- The clamped degree is the real number max n 1. -/
theorem degc_eq (dst : EdgeW) (i : Fin 50000) :
    degc dst i = ((max ((Finset.univ.filter (fun e => tgt dst e = some i)).card : ℝ) 1 : ℝ) : EReal) := by
  unfold degc
  rw [deg_eq, ← EReal.coe_one]
  exact (EReal.coe_strictMono.monotone.map_max).symm

theorem catRow_lo (h : NodeT) (ef : EdgeT) (src : EdgeW) (e : Fin 640000) (k : Fin 128) :
    catRow h ef src e ⟨k.val, by omega⟩ = h (ix2 (srow src e) k) := by
  unfold catRow
  rw [dif_pos (show (⟨k.val, by omega⟩ : Fin 256).val < 128 from k.isLt)]

theorem catRow_hi (h : NodeT) (ef : EdgeT) (src : EdgeW) (e : Fin 640000) (k : Fin 128) :
    catRow h ef src e ⟨128 + k.val, by omega⟩ = ef (ix2 e k) := by
  unfold catRow
  rw [dif_neg (show ¬ (⟨128 + k.val, by omega⟩ : Fin 256).val < 128 from by simp)]
  congr 2
  exact Fin.ext (by simp)

theorem hproj_apply (h : NodeT) (W1 : W1T) (r : Fin 50000) (j : Fin 128) :
    hproj h W1 (ix2 r j) = ∑ k : Fin 128, h (ix2 r k) * W1 (ix2 ⟨k.val, by omega⟩ j) := by
  unfold hproj
  rw [mm128_apply]
  refine Finset.sum_congr rfl (fun k _ => ?_)
  rw [rows128_apply]
  congr 3
  exact Fin.ext (Nat.zero_add _)

theorem efagg_apply (ef : EdgeT) (dst : EdgeW) (i : Fin 50000) (k : Fin 128) :
    efagg ef dst (ix2 i k) = ∑ e ∈ Finset.univ.filter (fun e => tgt dst e = some i), ef (ix2 e k) := rfl

/-- The message of one edge in its two halves. -/
theorem refMsg_split (h : NodeT) (ef : EdgeT) (src : EdgeW) (W1 : W1T) (b1 : BiasT) (e : Fin 640000) (j : Fin 128) :
    refMsg h ef src W1 b1 e j
      = ((∑ k : Fin 128, h (ix2 (srow src e) k) * W1 (ix2 ⟨k.val, by omega⟩ j))
          + ∑ k : Fin 128, ef (ix2 e k) * W1 (ix2 ⟨128 + k.val, by omega⟩ j)) + b1 (ix1 j) := by
  unfold refMsg
  rw [sum_256]
  simp only [catRow_lo, catRow_hi]

/-- The kernel's three sums are the reference's one sum of messages, term by term. -/
theorem kerNum_eq_refNum (h : NodeT) (ef : EdgeT) (src dst : EdgeW) (W1 : W1T) (b1 : BiasT)
    (hef : ∀ i, ∃ r : ℝ, ef i = (r : EReal)) (hW1 : ∀ i, ∃ r : ℝ, W1 i = (r : EReal))
    (hb1 : ∀ i, ∃ r : ℝ, b1 i = (r : EReal))
    (hsrc : ∀ e : Fin 640000, -50000 ≤ (src (ix1 e)).toInt ∧ (src (ix1 e)).toInt < 50000)
    (i : Fin 50000) (j : Fin 128) :
    (seg dst (fun e => gathered (hproj h W1) src e j) i + efproj (efagg ef dst) W1 (ix2 i j))
        + deg dst i * b1 (ix1 j)
      = seg dst (fun e => refMsg h ef src W1 b1 e j) i := by
  choose fe hfe using hef
  choose fw hfw using hW1
  choose fb hfb using hb1
  -- the gathered projected rows
  have hA : seg dst (fun e => gathered (hproj h W1) src e j) i
      = ∑ e ∈ Finset.univ.filter (fun e => tgt dst e = some i),
          ∑ k : Fin 128, h (ix2 (srow src e) k) * W1 (ix2 ⟨k.val, by omega⟩ j) := by
    unfold seg
    exact Finset.sum_congr rfl (fun e _ =>
      (gathered_eq (hproj h W1) src e j (hsrc e)).trans (hproj_apply h W1 (srow src e) j))
  -- the projected sum of edge features
  have hB : efproj (efagg ef dst) W1 (ix2 i j)
      = ∑ e ∈ Finset.univ.filter (fun e => tgt dst e = some i),
          ∑ k : Fin 128, ef (ix2 e k) * W1 (ix2 ⟨128 + k.val, by omega⟩ j) := by
    unfold efproj
    rw [mm128_apply]
    simp only [rows128_apply, efagg_apply, hfe, hfw]
    exact sum_proj_swap _ (fun e k => fe (ix2 e k)) (fun k => fw (ix2 ⟨128 + k.val, by omega⟩ j))
  -- n times the bias
  have hC : deg dst i * b1 (ix1 j)
      = ∑ _e ∈ Finset.univ.filter (fun e => tgt dst e = some i), b1 (ix1 j) := by
    rw [deg_eq, hfb, sum_const_coe]
  rw [hA, hB, hC]
  unfold seg
  simp only [refMsg_split]
  rw [Finset.sum_add_distrib, Finset.sum_add_distrib]

/-- The two aggregates agree: both are the common numerator times the reciprocal of max n 1. -/
theorem kerAgg_eq_refAgg (h : NodeT) (ef : EdgeT) (src dst : EdgeW) (W1 : W1T) (b1 : BiasT)
    (hef : ∀ i, ∃ r : ℝ, ef i = (r : EReal)) (hW1 : ∀ i, ∃ r : ℝ, W1 i = (r : EReal))
    (hb1 : ∀ i, ∃ r : ℝ, b1 i = (r : EReal))
    (hsrc : ∀ e : Fin 640000, -50000 ≤ (src (ix1 e)).toInt ∧ (src (ix1 e)).toInt < 50000)
    (i : Fin 50000) (j : Fin 128) :
    kerAgg h ef src dst W1 b1 i j = refAgg h ef src dst W1 b1 i j := by
  have hd : max ((Finset.univ.filter (fun e => tgt dst e = some i)).card : ℝ) 1 ≠ 0 :=
    ne_of_gt (lt_of_lt_of_le one_pos (le_max_right _ _))
  unfold kerAgg refAgg
  rw [kerNum_eq_refNum h ef src dst W1 b1 hef hW1 hb1 hsrc i j, degc_eq, Ideal.div_coe hd, Ideal.div_coe hd,
    one_mul]

theorem kerLayer_eq_refLayer (h : NodeT) (ef : EdgeT) (src dst : EdgeW) (W1 : W1T) (b1 : BiasT) (W2 : W2T) (b2 : BiasT)
    (hef : ∀ i, ∃ r : ℝ, ef i = (r : EReal)) (hW1 : ∀ i, ∃ r : ℝ, W1 i = (r : EReal))
    (hb1 : ∀ i, ∃ r : ℝ, b1 i = (r : EReal))
    (hsrc : ∀ e : Fin 640000, -50000 ≤ (src (ix1 e)).toInt ∧ (src (ix1 e)).toInt < 50000) :
    kerLayer h ef src dst W1 b1 W2 b2 = refLayer h ef src dst W1 b1 W2 b2 := by
  have hagg : kerAgg h ef src dst W1 b1 = refAgg h ef src dst W1 b1 :=
    funext fun i => funext fun j => kerAgg_eq_refAgg h ef src dst W1 b1 hef hW1 hb1 hsrc i j
  unfold kerLayer refLayer
  rw [hagg]

/-! ## The final projection -/

theorem cat3_lo (a b c : NodeT) (r : Fin 50000) (k : Fin 128) :
    cat3 a b c r ⟨k.val, by omega⟩ = a (ix2 r k) := by
  unfold cat3
  rw [dif_pos (show (⟨k.val, by omega⟩ : Fin 384).val < 128 from k.isLt)]

theorem cat3_mid (a b c : NodeT) (r : Fin 50000) (k : Fin 128) :
    cat3 a b c r ⟨128 + k.val, by omega⟩ = b (ix2 r k) := by
  unfold cat3
  rw [dif_neg (show ¬ (⟨128 + k.val, by omega⟩ : Fin 384).val < 128 from by simp),
    dif_pos (show (⟨128 + k.val, by omega⟩ : Fin 384).val < 256 from by have := k.isLt; simp; omega)]
  congr 2
  exact Fin.ext (by simp)

theorem cat3_hi (a b c : NodeT) (r : Fin 50000) (k : Fin 128) :
    cat3 a b c r ⟨256 + k.val, by omega⟩ = c (ix2 r k) := by
  unfold cat3
  rw [dif_neg (show ¬ (⟨256 + k.val, by omega⟩ : Fin 384).val < 128 from by simp; omega),
    dif_neg (show ¬ (⟨256 + k.val, by omega⟩ : Fin 384).val < 256 from by simp)]
  congr 2
  exact Fin.ext (by simp)

/-- The final projection: the kernel's three products are the three thirds of the reference's one. -/
theorem kerFinal_eq_refFinal (a b c : NodeT) (Wf : WfT) (bf : BiasT) :
    kerFinal a b c Wf bf = refFinal a b c Wf bf := by
  funext i
  obtain ⟨r, q, rfl⟩ : ∃ (r : Fin 50000) (q : Fin 128), i = ix2 r q := ⟨i 0, i 1, eq_ix2 i⟩
  unfold kerFinal refFinal
  rw [sum_384, mm128_apply, mm128_apply, mm128_apply]
  simp only [rows128_apply, cat3_lo, cat3_mid, cat3_hi]
  congr 3

/-! ## The whole programs -/

/-- Under the source-range hypothesis the kernel's and the reference's results are one function. -/
theorem kerSpec_eq_refSpec (x0 : NodeT) (ef : EdgeT) (src dst : EdgeW) (W1a : W1T) (b1a : BiasT) (W2a : W2T) (b2a : BiasT)
    (W1b : W1T) (b1b : BiasT) (W2b : W2T) (b2b : BiasT) (Wf : WfT) (bf : BiasT)
    (hef : ∀ i, ∃ r : ℝ, ef i = (r : EReal))
    (hW1a : ∀ i, ∃ r : ℝ, W1a i = (r : EReal)) (hb1a : ∀ i, ∃ r : ℝ, b1a i = (r : EReal))
    (hW1b : ∀ i, ∃ r : ℝ, W1b i = (r : EReal)) (hb1b : ∀ i, ∃ r : ℝ, b1b i = (r : EReal))
    (hsrc : ∀ e : Fin 640000, -50000 ≤ (src (ix1 e)).toInt ∧ (src (ix1 e)).toInt < 50000) :
    kerSpec x0 ef src dst W1a b1a W2a b2a W1b b1b W2b b2b Wf bf
      = refSpec x0 ef src dst W1a b1a W2a b2a W1b b1b W2b b2b Wf bf := by
  unfold kerSpec refSpec
  rw [kerLayer_eq_refLayer x0 ef src dst W1a b1a W2a b2a hef hW1a hb1a hsrc,
    kerLayer_eq_refLayer _ ef src dst W1b b1b W2b b2b hef hW1b hb1b hsrc]
  exact kerFinal_eq_refFinal _ _ _ Wf bf

end GraphConv

end
-- ==== Proof.Pre.lean ====
/-
  What the precondition says, read off its printed form: the edge features, both first weight matrices and both
  first biases are real numbers, and every source word, read signed, lies in [-50000, 50000).
-/
import proofs.«408989_j23862838297343_2_alg».proof.Pre_finite_inputs
import proofs.«408989_j23862838297343_2_alg».proof.Proof.Spec
import Idealize.ShloMosaic.Lib.ReduceAll
import Idealize.ShloMosaic.Lib.StableHlo.Predicate

noncomputable section

namespace GraphConv

open Idealize.ShloMosaic Idealize.ShloMosaic.ValueIdx

/-! ## One test at a time

The precondition is a conjunction of one-bit scalars. Each conjunct is "every entry of a table passes a test",
folded by `and` over all axes into a rank-0 bit. A rank-0 shape has one index, so a fold that came out 1 had a 1 at
every entry; what is left is to read the test at one entry. -/

/-- A rank-0 shape has exactly one index. -/
instance subsingleton_scalar_idx : Subsingleton Cert.Pre_finite_inputs.S_.Idx :=
  ⟨fun _ _ => funext fun d => d.elim0⟩

/-- The f32 pattern with all exponent bits set and no fraction bit is +∞. -/
theorem inf_bits : Ideal.ofBits .f32 0x7F800000#32 = (⊤ : EReal) := by
  simp [Ideal.ofBits, Ideal.ieee]

/-- On the extended reals |a| = max a (-a) is +∞ at both infinities, so |a| < +∞ leaves only the reals. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- `all(|x| < +∞)` that came out true: every entry of x is a real number. -/
theorem real_of_all {s : Shape} {axes : List (Fin s.rank)} (hr : s.ReducesTo axes Cert.Pre_finite_inputs.S_)
    (hu : 0 < Cert.Pre_finite_inputs.S_.numel)
    (hb : Cert.Pre_finite_inputs.S_.BroadcastsInDim s (![] : Fin 0 → Fin s.rank))
    (x : s.Idx → EReal) (init : IVec Cert.Pre_finite_inputs.S_ 1)
    (e : Host.reduce IntOp.andi
        (cmpf (F := Ideal) (φ := .f32) .olt (Host.absf (F := Ideal) (φ := .f32) x)
          (broadcastInDim s ![] hb (constant (F := Ideal) Cert.Pre_finite_inputs.S_ .f32 0x7F800000#32)))
        init hr hu ix0 = 1#1)
    (i : s.Idx) : ∃ r : ℝ, x i = (r : EReal) := by
  have h1 := Host.reduce_andi_all _ init hr hu ix0 e i
  refine real_of_abs_lt_top (x i) ?_
  rw [← inf_bits]
  exact h1

/-- `all(x ≥ c)` over words read signed. -/
theorem sge_of_all {s : Shape} {axes : List (Fin s.rank)} (hr : s.ReducesTo axes Cert.Pre_finite_inputs.S_)
    (hu : 0 < Cert.Pre_finite_inputs.S_.numel)
    (hb : Cert.Pre_finite_inputs.S_.BroadcastsInDim s (![] : Fin 0 → Fin s.rank))
    (x : IVec s 32) (c : BitVec 32) (init : IVec Cert.Pre_finite_inputs.S_ 1)
    (e : Host.reduce IntOp.andi
        (cmpi .sge x (broadcastInDim s ![] hb (constantI Cert.Pre_finite_inputs.S_ 32 c))) init hr hu ix0 = 1#1)
    (i : s.Idx) : c.toInt ≤ (x i).toInt :=
  IntOp.cmpi_sge.1 (Host.reduce_andi_all _ init hr hu ix0 e i)

/-- `all(x < c)` over words read signed. -/
theorem slt_of_all {s : Shape} {axes : List (Fin s.rank)} (hr : s.ReducesTo axes Cert.Pre_finite_inputs.S_)
    (hu : 0 < Cert.Pre_finite_inputs.S_.numel)
    (hb : Cert.Pre_finite_inputs.S_.BroadcastsInDim s (![] : Fin 0 → Fin s.rank))
    (x : IVec s 32) (c : BitVec 32) (init : IVec Cert.Pre_finite_inputs.S_ 1)
    (e : Host.reduce IntOp.andi
        (cmpi .slt x (broadcastInDim s ![] hb (constantI Cert.Pre_finite_inputs.S_ 32 c))) init hr hu ix0 = 1#1)
    (i : s.Idx) : (x i).toInt < c.toInt :=
  IntOp.cmpi_slt.1 (Host.reduce_andi_all _ init hr hu ix0 e i)

/-- The two bounds as signed numbers. -/
theorem toInt_lo : (4294917296#32 : BitVec 32).toInt = -50000 := by decide
theorem toInt_hi : (50000#32 : BitVec 32).toInt = 50000 := by decide

/-! ## The assembly -/

theorem of_pre [Cert.Pre_finite_inputs.Facts]
    (a0 : NodeT) (a1 : EdgeT) (a2 a3 : EdgeW) (a4 : W1T) (a5 : BiasT) (a6 : W2T) (a7 : BiasT) (a8 : W1T) (a9 : BiasT)
    (a10 : W2T) (a11 : BiasT) (a12 : WfT) (a13 : BiasT)
    (h : Cert.Pre_finite_inputs.fn (F := Ideal) a0 a1 a2 a3 a4 a5 a6 a7 a8 a9 a10 a11 a12 a13 = fun _ => 1#1) :
    (∀ i, ∃ r : ℝ, a1 i = (r : EReal)) ∧ (∀ i, ∃ r : ℝ, a4 i = (r : EReal)) ∧ (∀ i, ∃ r : ℝ, a5 i = (r : EReal))
    ∧ (∀ i, ∃ r : ℝ, a8 i = (r : EReal)) ∧ (∀ i, ∃ r : ℝ, a9 i = (r : EReal))
    ∧ (∀ e : Fin 640000, -50000 ≤ (a2 (ix1 e)).toInt ∧ (a2 (ix1 e)).toInt < 50000) := by
  -- the one bit of the result, as the conjunction of its fourteen tests
  have h0 := congrFun h ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨⟨⟨_, t1⟩, t4⟩, t5⟩, _⟩, _⟩, t8⟩, t9⟩, _⟩, _⟩, _⟩, _⟩, tlo⟩, thi⟩ := h0
  refine ⟨real_of_all _ _ _ a1 _ t1, real_of_all _ _ _ a4 _ t4, real_of_all _ _ _ a5 _ t5,
    real_of_all _ _ _ a8 _ t8, real_of_all _ _ _ a9 _ t9, fun e => ⟨?_, ?_⟩⟩
  · rw [← toInt_lo]; exact sge_of_all _ _ _ a2 _ _ tlo (ix1 e)
  · rw [← toInt_hi]; exact slt_of_all _ _ _ a2 _ _ thi (ix1 e)

end GraphConv

end
-- ==== Proof.KArgs.lean ====
/-
  The kernel program's fourteen argument arrays, as launched, at their literal table types, and the two hidden
  node tables (the first and second layer's outputs) as the functions of them the kernel computes.
-/
import proofs.«408989_j23862838297343_2_alg».proof.Proof.Gen.KernelIdeal.Frame
import proofs.«408989_j23862838297343_2_alg».proof.Proof.Spec

noncomputable section

namespace Cert.KernelIdeal.KVal

open Idealize.ShloMosaic Idealize.ShloMosaic.TcCoe Idealize.SL.Sem Cert.KernelIdeal GraphConv

variable (m : (ℓ : Loc nD τ sig) → Buf (Elt Ideal) ℓ)

abbrev aX0 (c : Dev nD) : NodeT := m ((c : Thread nD τ).loc main_arg0)
abbrev aEf (c : Dev nD) : EdgeT := m ((c : Thread nD τ).loc main_arg1)
abbrev aSrc (c : Dev nD) : EdgeW := m ((c : Thread nD τ).loc main_arg2)
abbrev aDst (c : Dev nD) : EdgeW := m ((c : Thread nD τ).loc main_arg3)
abbrev aW1a (c : Dev nD) : W1T := m ((c : Thread nD τ).loc main_arg4)
abbrev ab1a (c : Dev nD) : BiasT := m ((c : Thread nD τ).loc main_arg5)
abbrev aW2a (c : Dev nD) : W2T := m ((c : Thread nD τ).loc main_arg6)
abbrev ab2a (c : Dev nD) : BiasT := m ((c : Thread nD τ).loc main_arg7)
abbrev aW1b (c : Dev nD) : W1T := m ((c : Thread nD τ).loc main_arg8)
abbrev ab1b (c : Dev nD) : BiasT := m ((c : Thread nD τ).loc main_arg9)
abbrev aW2b (c : Dev nD) : W2T := m ((c : Thread nD τ).loc main_arg10)
abbrev ab2b (c : Dev nD) : BiasT := m ((c : Thread nD τ).loc main_arg11)
abbrev aWf (c : Dev nD) : WfT := m ((c : Thread nD τ).loc main_arg12)
abbrev abf (c : Dev nD) : BiasT := m ((c : Thread nD τ).loc main_arg13)

/-- The first layer's output table, and the second's. -/
def aH1 (c : Dev nD) : NodeT :=
  kerLayer (aX0 m c) (aEf m c) (aSrc m c) (aDst m c) (aW1a m c) (ab1a m c) (aW2a m c) (ab2a m c)
def aH2 (c : Dev nD) : NodeT :=
  kerLayer (aH1 m c) (aEf m c) (aSrc m c) (aDst m c) (aW1b m c) (ab1b m c) (aW2b m c) (ab2b m c)

/-- The per-node sums of the edge features, the in-degrees as a vector, and the inverse clamped degrees. -/
def aEfAgg (c : Dev nD) : NodeT := efagg (aEf m c) (aDst m c)
def aDeg (c : Dev nD) : (⟨1, ![50000]⟩ : Shape).Idx → EReal := fun i => deg (aDst m c) (i 0)
def aInv (c : Dev nD) : (⟨1, ![50000]⟩ : Shape).Idx → EReal := fun i => Ideal.div 1 (degc (aDst m c) (i 0))

end Cert.KernelIdeal.KVal

end
-- ==== Proof.KRegMM.lean ====
/-
  The three matrix-product calls, each as one function of the whole tables it finds at entry: ten row blocks of
  5000 rows tile the 50000 rows, every block is "block rows times the square matrix", so the array the call leaves
  is "table times matrix" (two such products in a projection call; three added left to right plus a bias row in
  the final call).
-/
import proofs.«408989_j23862838297343_2_alg».proof.Proof.Gen.KernelIdeal.Frame
import proofs.«408989_j23862838297343_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen GraphConv

/-! ## A row block times a square matrix, at an index

The one contraction every call uses: a [5000, 128] block against a [128, 128] matrix, the block's axis 1 against the
matrix's axis 0. Its operand indices at output index (r, q) and contraction index k are (r, k) and (k, q). -/

theorem blkDot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blkDot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blkDot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blkDot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, q) of "block times matrix" into a zero accumulator is the sum over k of x[r, k] · w[k, q]. -/
theorem blockTimes_apply (x : FVec Ideal S5000x128 .f32) (w : FVec Ideal S128x128 .f32) (r : Fin 5000) (q : Fin 128) :
    matmul dot_S5000x128_S128x128_S5000x128_1_0_0_1_n_n none x w (constant (F := Ideal) S5000x128 .f32 0x00000000#32) (ix2 r q)
      = ∑ k : Fin 128, x (ix2 r k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact blkDot_lhs_0 _ _
    | ⟨1, _⟩ => exact (blkDot_lhs_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (blkDot_rhs_0 _ _).trans hk
    | ⟨1, _⟩ => exact blkDot_rhs_1 _ _)
  rw [el, er]

/-- The four payloads of the two projection calls are that product (their shape casts are between equal shapes). -/
theorem k0_pay1_apply (x : Vec Ideal S5000x128 .f32) (w : Vec Ideal S128x128 .f32) (r : Fin 5000) (q : Fin 128) :
    k0_pay1 x w (ix2 r q) = ∑ k : Fin 128, x (ix2 r k) * w (ix2 k q) := by
  unfold k0_pay1
  simp only [shapeCast_self]
  exact blockTimes_apply x w r q
theorem k0_pay2_apply (x : Vec Ideal S5000x128 .f32) (w : Vec Ideal S128x128 .f32) (r : Fin 5000) (q : Fin 128) :
    k0_pay2 x w (ix2 r q) = ∑ k : Fin 128, x (ix2 r k) * w (ix2 k q) := by
  unfold k0_pay2
  simp only [shapeCast_self]
  exact blockTimes_apply x w r q
theorem k2_pay1_apply (x : Vec Ideal S5000x128 .f32) (w : Vec Ideal S128x128 .f32) (r : Fin 5000) (q : Fin 128) :
    k2_pay1 x w (ix2 r q) = ∑ k : Fin 128, x (ix2 r k) * w (ix2 k q) := by
  unfold k2_pay1
  simp only [shapeCast_self]
  exact blockTimes_apply x w r q
theorem k2_pay2_apply (x : Vec Ideal S5000x128 .f32) (w : Vec Ideal S128x128 .f32) (r : Fin 5000) (q : Fin 128) :
    k2_pay2 x w (ix2 r q) = ∑ k : Fin 128, x (ix2 r k) * w (ix2 k q) := by
  unfold k2_pay2
  simp only [shapeCast_self]
  exact blockTimes_apply x w r q

/-! ## From row blocks to the table -/

theorem zeros2 : (![0, 0] : Fin 2 → Nat) = fun _ => 0 := funext fun a => by fin_cases a <;> rfl

/-- "x holds rows 5000·t … 5000·t + 4999 of the table A." -/
def IsRowBlock (A : NodeT) (t : Nat) (x : Vec Ideal S5000x128 .f32) : Prop :=
  ∀ (r : Fin 5000) (k : Fin 128) (a : Fin 50000), a.val = t * 5000 + r.val → x (ix2 r k) = A (ix2 a k)

/-- Entry j of a row block times the matrix is the entry of "table times matrix" in row 5000·t + j₀, column j₁. -/
theorem blockTimes_eq_mm128 (A : NodeT) (W : W2T) (t : Nat) (x : Vec Ideal S5000x128 .f32) (hx : IsRowBlock A t x)
    (j : S5000x128.Idx) (i : S50000x128.Idx) (h0 : (i 0).val = t * 5000 + (j 0).val) (h1 : (i 1).val = (j 1).val) :
    ∑ k : Fin 128, x (ix2 ⟨(j 0).val, idx2_lt0 j⟩ k) * W (ix2 k ⟨(j 1).val, idx2_lt1 j⟩) = mm128 A W i := by
  obtain ⟨a, b, rfl⟩ : ∃ (a : Fin 50000) (b : Fin 128), i = ix2 a b := ⟨i 0, i 1, eq_ix2 i⟩
  unfold mm128
  refine Finset.sum_congr rfl fun k _ => ?_
  rw [hx ⟨(j 0).val, idx2_lt0 j⟩ k a h0]
  have hb : (⟨(j 1).val, idx2_lt1 j⟩ : Fin 128) = b := Fin.ext h1.symm
  rw [hb]

/-! ## The final call's payload: three such products added left to right, plus a broadcast bias row -/

theorem k4_pay1_apply (xa : Vec Ideal S5000x128 .f32) (wa : Vec Ideal S128x128 .f32) (xb : Vec Ideal S5000x128 .f32)
    (wb : Vec Ideal S128x128 .f32) (xc : Vec Ideal S5000x128 .f32) (wc : Vec Ideal S128x128 .f32) (b : Vec Ideal S1x128 .f32)
    (r : Fin 5000) (q : Fin 128) :
    k4_pay1 xa wa xb wb xc wc b (ix2 r q)
      = ((∑ k : Fin 128, xa (ix2 r k) * wa (ix2 k q) + ∑ k : Fin 128, xb (ix2 r k) * wb (ix2 k q))
          + ∑ k : Fin 128, xc (ix2 r k) * wc (ix2 k q)) + b (ix2 (0 : Fin 1) q) := by
  unfold k4_pay1
  simp only [shapeCast_self, addf_apply]
  rw [blockTimes_apply xa wa r q, blockTimes_apply xb wb r q, blockTimes_apply xc wc r q]
  rw [broadcastTo_1b_ab_apply b broadcasts_S1x128_S5000x128 r q]

/-- Entry j of the final call's block payload is the entry of the final table in row 5000·t + j₀, column j₁. -/
theorem blockFinal_eq (A B C : NodeT) (Wa Wb Wc : W2T) (bf : RowT) (t : Nat) (xa xb xc : Vec Ideal S5000x128 .f32)
    (ha : IsRowBlock A t xa) (hb : IsRowBlock B t xb) (hc : IsRowBlock C t xc)
    (j : S5000x128.Idx) (i : S50000x128.Idx) (h0 : (i 0).val = t * 5000 + (j 0).val) (h1 : (i 1).val = (j 1).val) :
    ((∑ k : Fin 128, xa (ix2 ⟨(j 0).val, idx2_lt0 j⟩ k) * Wa (ix2 k ⟨(j 1).val, idx2_lt1 j⟩)
        + ∑ k : Fin 128, xb (ix2 ⟨(j 0).val, idx2_lt0 j⟩ k) * Wb (ix2 k ⟨(j 1).val, idx2_lt1 j⟩))
        + ∑ k : Fin 128, xc (ix2 ⟨(j 0).val, idx2_lt0 j⟩ k) * Wc (ix2 k ⟨(j 1).val, idx2_lt1 j⟩))
        + bf (ix2 (0 : Fin 1) ⟨(j 1).val, idx2_lt1 j⟩)
      = finalRows A B C Wa Wb Wc bf i := by
  rw [blockTimes_eq_mm128 A Wa t xa ha j i h0 h1, blockTimes_eq_mm128 B Wb t xb hb j i h0 h1,
    blockTimes_eq_mm128 C Wc t xc hc j i h0 h1]
  obtain ⟨a, b, rfl⟩ : ∃ (a : Fin 50000) (b : Fin 128), i = ix2 a b := ⟨i 0, i 1, eq_ix2 i⟩
  unfold finalRows
  have hq : (⟨(j 1).val, idx2_lt1 j⟩ : Fin 128) = b := Fin.ext h1.symm
  rw [hq]
variable (V : (c : Dev nD) → (b : Ref sig .tc) → Buf (Elt Ideal) ((c : Thread nD τ).loc b))

/-! ### The first projection call -/

/-- The tables the call finds at entry, at their literal types. -/
abbrev p0A (c : Dev nD) : NodeT := V c (Pipeline.arrRef spec0 0)
abbrev p0B (c : Dev nD) : NodeT := V c (Pipeline.arrRef spec0 1)
abbrev p0Wa (c : Dev nD) : W2T := V c (Pipeline.arrRef spec0 2)
abbrev p0Wb (c : Dev nD) : W2T := V c (Pipeline.arrRef spec0 3)

/-- The printed index maps, decided over the grid: a row-blocked window's block index is (t, 0), a matrix window's (0, 0). -/
theorem p0_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The two table windows' blocks at point t are rows 5000·t … of their tables. -/
theorem p0_blk0 (c : Dev nD) (t : Fin cfg0.N) : IsRowBlock (p0A V c) t.val (iblk0 V c 0 t) := by
  intro r k a ha
  obtain ⟨e00, e01, -⟩ := p0_index t
  show V c (Pipeline.arrRef spec0 0) (((cfg0.win 0).blk t).view.emb (ix2 r k)) = V c (Pipeline.arrRef spec0 0) (ix2 a k)
  refine congrArg _ (funext fun d => Fin.ext ?_)
  match d with
  | ⟨0, _⟩ => show win0_0.index t (0 : Fin 2) * 5000 + 1 * r.val = a.val; rw [e00, ha]; omega
  | ⟨1, _⟩ => show win0_0.index t (1 : Fin 2) * 128 + 1 * k.val = k.val; rw [e01]; omega
theorem p0_blk1 (c : Dev nD) (t : Fin cfg0.N) : IsRowBlock (p0B V c) t.val (iblk0 V c 1 t) := by
  intro r k a ha
  obtain ⟨-, -, e10, e11, -⟩ := p0_index t
  show V c (Pipeline.arrRef spec0 1) (((cfg0.win 1).blk t).view.emb (ix2 r k)) = V c (Pipeline.arrRef spec0 1) (ix2 a k)
  refine congrArg _ (funext fun d => Fin.ext ?_)
  match d with
  | ⟨0, _⟩ => show win0_1.index t (0 : Fin 2) * 5000 + 1 * r.val = a.val; rw [e10, ha]; omega
  | ⟨1, _⟩ => show win0_1.index t (1 : Fin 2) * 128 + 1 * k.val = k.val; rw [e11]; omega

/-- The two matrix windows' blocks at every point are the whole matrices. -/
theorem p0_blk2 (c : Dev nD) (t : Fin cfg0.N) (y : S128x128.Idx) : (iblk0 V c 2 t : Vec Ideal S128x128 .f32) y = p0Wa V c y := by
  obtain ⟨-, -, -, -, e20, e21, -⟩ := p0_index t
  show V c (Pipeline.arrRef spec0 2) (((cfg0.win 2).blk t).view.emb y) = V c (Pipeline.arrRef spec0 2) y
  refine congrArg _ (funext fun d => Fin.ext ?_)
  match d with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega
theorem p0_blk3 (c : Dev nD) (t : Fin cfg0.N) (y : S128x128.Idx) : (iblk0 V c 3 t : Vec Ideal S128x128 .f32) y = p0Wb V c y := by
  obtain ⟨-, -, -, -, -, -, e30, e31, -⟩ := p0_index t
  show V c (Pipeline.arrRef spec0 3) (((cfg0.win 3).blk t).view.emb y) = V c (Pipeline.arrRef spec0 3) y
  refine congrArg _ (funext fun d => Fin.ext ?_)
  match d with
  | ⟨0, _⟩ => show win0_3.index t (0 : Fin 2) * 128 + 1 * (y 0).val = (y 0).val; rw [e30]; omega
  | ⟨1, _⟩ => show win0_3.index t (1 : Fin 2) * 128 + 1 * (y 1).val = (y 1).val; rw [e31]; omega

/-- What point t writes back through the first output window is block t of "first table times first matrix". -/
theorem p0_flushed4 (c : Dev nD) (t : Fin cfg0.N) :
    (dat0 V c).flushed 4 t = ((cfg0.win 4).blk t).view.read (Elt Ideal) (mm128 (p0A V c) (p0Wa V c)) := by
  show (cfg0.win 4).cut (grid0.coords t) ((dat0 V c).after 4 t) = _
  rw [after0_4]
  unfold out0_4
  rw [View.canon_unit_zero zeros2]
  simp only [View.ld_unit_zero (S := S5000x128) zeros2, View.ld_unit_zero (S := S128x128) zeros2]
  obtain ⟨-, -, -, -, -, -, -, -, e40, e41, -⟩ := p0_index t
  funext j
  show k0_pay1 (iblk0 V c 0 t) (iblk0 V c 2 t) j = mm128 (p0A V c) (p0Wa V c) (((cfg0.win 4).blk t).view.emb j)
  have hj : (j : S5000x128.Idx) = ix2 ⟨(j 0).val, idx2_lt0 (n0 := 5000) (n1 := 128) j⟩ ⟨(j 1).val, idx2_lt1 (n0 := 5000) (n1 := 128) j⟩ := eq_ix2 (n0 := 5000) (n1 := 128) j
  refine (congrArg (k0_pay1 (iblk0 V c 0 t) (iblk0 V c 2 t)) hj).trans ?_
  refine (k0_pay1_apply (iblk0 V c 0 t) (iblk0 V c 2 t) _ _).trans ?_
  simp only [p0_blk2 V c t]
  refine blockTimes_eq_mm128 (p0A V c) (p0Wa V c) t.val (iblk0 V c 0 t) (p0_blk0 V c t) j _ ?_ ?_
  · show win0_4.index t (0 : Fin 2) * 5000 + 1 * (j 0).val = t.val * 5000 + (j 0).val; rw [e40]; omega
  · show win0_4.index t (1 : Fin 2) * 128 + 1 * (j 1).val = (j 1).val; rw [e41]; omega

/-- Through the second output window: block t of "second table times second matrix". -/
theorem p0_flushed5 (c : Dev nD) (t : Fin cfg0.N) :
    (dat0 V c).flushed 5 t = ((cfg0.win 5).blk t).view.read (Elt Ideal) (mm128 (p0B V c) (p0Wb V c)) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S128x128) zeros2]
  obtain ⟨-, -, -, -, -, -, -, -, -, -, e50, e51⟩ := p0_index t
  funext j
  show k0_pay2 (iblk0 V c 1 t) (iblk0 V c 3 t) j = mm128 (p0B V c) (p0Wb V c) (((cfg0.win 5).blk t).view.emb j)
  have hj : (j : S5000x128.Idx) = ix2 ⟨(j 0).val, idx2_lt0 (n0 := 5000) (n1 := 128) j⟩ ⟨(j 1).val, idx2_lt1 (n0 := 5000) (n1 := 128) j⟩ := eq_ix2 (n0 := 5000) (n1 := 128) j
  refine (congrArg (k0_pay2 (iblk0 V c 1 t) (iblk0 V c 3 t)) hj).trans ?_
  refine (k0_pay2_apply (iblk0 V c 1 t) (iblk0 V c 3 t) _ _).trans ?_
  simp only [p0_blk3 V c t]
  refine blockTimes_eq_mm128 (p0B V c) (p0Wb V c) t.val (iblk0 V c 1 t) (p0_blk1 V c t) j _ ?_ ?_
  · show win0_5.index t (0 : Fin 2) * 5000 + 1 * (j 0).val = t.val * 5000 + (j 0).val; rw [e50]; omega
  · show win0_5.index t (1 : Fin 2) * 128 + 1 * (j 1).val = (j 1).val; rw [e51]; omega

/-- An index of an output table is in point t's block iff each coordinate is in the block's range on its axis. -/
theorem p0_mem4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v13_0).slice (win0_4.rect t)).set ↔ _
  rw [View.set_slice_whole, Rect.mem_set_unit]
  exact Iff.rfl
theorem p0_mem5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v13_1).slice (win0_5.rect t)).set ↔ _
  rw [View.set_slice_whole, Rect.mem_set_unit]
  exact Iff.rfl

/-- Row r of an output table is in the block of point r / 5000. -/
theorem p0_cover4 (i : S50000x128.Idx) : ∃ t : Fin cfg0.N, (cfg0.win 4).flush t = true ∧ i ∈ ((cfg0.win 4).blk t).view.set := by
  have hi0 : (i 0).val < 50000 := idx2_lt0 i
  have hi1 : (i 1).val < 128 := idx2_lt1 i
  have hlt : (i 0).val / 5000 < cfg0.N := by show _ < grid0.N; rw [N_0]; omega
  obtain ⟨-, -, -, -, -, -, -, -, e40, e41, -⟩ := p0_index ⟨(i 0).val / 5000, hlt⟩
  refine ⟨⟨(i 0).val / 5000, hlt⟩, flush0_4 _, ?_⟩
  rw [p0_mem4]
  intro a
  match a with
  | ⟨0, _⟩ => show win0_4.index ⟨(i 0).val / 5000, hlt⟩ (0 : Fin 2) * 5000 ≤ (i 0).val ∧ (i 0).val < win0_4.index ⟨(i 0).val / 5000, hlt⟩ (0 : Fin 2) * 5000 + 5000; rw [e40]; show (i 0).val / 5000 * 5000 ≤ (i 0).val ∧ (i 0).val < (i 0).val / 5000 * 5000 + 5000; omega
  | ⟨1, _⟩ => show win0_4.index ⟨(i 0).val / 5000, hlt⟩ (1 : Fin 2) * 128 ≤ (i 1).val ∧ (i 1).val < win0_4.index ⟨(i 0).val / 5000, hlt⟩ (1 : Fin 2) * 128 + 128; rw [e41]; omega
theorem p0_cover5 (i : S50000x128.Idx) : ∃ t : Fin cfg0.N, (cfg0.win 5).flush t = true ∧ i ∈ ((cfg0.win 5).blk t).view.set := by
  have hi0 : (i 0).val < 50000 := idx2_lt0 i
  have hi1 : (i 1).val < 128 := idx2_lt1 i
  have hlt : (i 0).val / 5000 < cfg0.N := by show _ < grid0.N; rw [N_0]; omega
  obtain ⟨-, -, -, -, -, -, -, -, -, -, e50, e51⟩ := p0_index ⟨(i 0).val / 5000, hlt⟩
  refine ⟨⟨(i 0).val / 5000, hlt⟩, flush0_5 _, ?_⟩
  rw [p0_mem5]
  intro a
  match a with
  | ⟨0, _⟩ => show win0_5.index ⟨(i 0).val / 5000, hlt⟩ (0 : Fin 2) * 5000 ≤ (i 0).val ∧ (i 0).val < win0_5.index ⟨(i 0).val / 5000, hlt⟩ (0 : Fin 2) * 5000 + 5000; rw [e50]; show (i 0).val / 5000 * 5000 ≤ (i 0).val ∧ (i 0).val < (i 0).val / 5000 * 5000 + 5000; omega
  | ⟨1, _⟩ => show win0_5.index ⟨(i 0).val / 5000, hlt⟩ (1 : Fin 2) * 128 ≤ (i 1).val ∧ (i 1).val < win0_5.index ⟨(i 0).val / 5000, hlt⟩ (1 : Fin 2) * 128 + 128; rw [e51]; omega

/-- First projection call, first output: the node table times the upper square of the weights. -/
theorem reg0_out4 (c : Dev nD) :
    (dat0 V c).arrAt 4 cfg0.N = mm128 (V c (Pipeline.arrRef spec0 0)) (V c (Pipeline.arrRef spec0 2)) :=
  (dat0 V c).arrAt_eq_of_cover 4 (mm128 (p0A V c) (p0Wa V c)) (fun t _ => p0_flushed4 V c t) p0_cover4

/-- First projection call, second output: the summed edge features times the lower square. -/
theorem reg0_out5 (c : Dev nD) :
    (dat0 V c).arrAt 5 cfg0.N = mm128 (V c (Pipeline.arrRef spec0 1)) (V c (Pipeline.arrRef spec0 3)) :=
  (dat0 V c).arrAt_eq_of_cover 5 (mm128 (p0B V c) (p0Wb V c)) (fun t _ => p0_flushed5 V c t) p0_cover5

/-! ### The second projection call -/

/-- The tables the call finds at entry, at their literal types. -/
abbrev p2A (c : Dev nD) : NodeT := V c (Pipeline.arrRef spec2 0)
abbrev p2B (c : Dev nD) : NodeT := V c (Pipeline.arrRef spec2 1)
abbrev p2Wa (c : Dev nD) : W2T := V c (Pipeline.arrRef spec2 2)
abbrev p2Wb (c : Dev nD) : W2T := V c (Pipeline.arrRef spec2 3)

/-- The printed index maps, decided over the grid: a row-blocked window's block index is (t, 0), a matrix window's (0, 0). -/
theorem p2_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The two table windows' blocks at point t are rows 5000·t … of their tables. -/
theorem p2_blk0 (c : Dev nD) (t : Fin cfg2.N) : IsRowBlock (p2A V c) t.val (iblk2 V c 0 t) := by
  intro r k a ha
  obtain ⟨e00, e01, -⟩ := p2_index t
  show V c (Pipeline.arrRef spec2 0) (((cfg2.win 0).blk t).view.emb (ix2 r k)) = V c (Pipeline.arrRef spec2 0) (ix2 a k)
  refine congrArg _ (funext fun d => Fin.ext ?_)
  match d with
  | ⟨0, _⟩ => show win2_0.index t (0 : Fin 2) * 5000 + 1 * r.val = a.val; rw [e00, ha]; omega
  | ⟨1, _⟩ => show win2_0.index t (1 : Fin 2) * 128 + 1 * k.val = k.val; rw [e01]; omega
theorem p2_blk1 (c : Dev nD) (t : Fin cfg2.N) : IsRowBlock (p2B V c) t.val (iblk2 V c 1 t) := by
  intro r k a ha
  obtain ⟨-, -, e10, e11, -⟩ := p2_index t
  show V c (Pipeline.arrRef spec2 1) (((cfg2.win 1).blk t).view.emb (ix2 r k)) = V c (Pipeline.arrRef spec2 1) (ix2 a k)
  refine congrArg _ (funext fun d => Fin.ext ?_)
  match d with
  | ⟨0, _⟩ => show win2_1.index t (0 : Fin 2) * 5000 + 1 * r.val = a.val; rw [e10, ha]; omega
  | ⟨1, _⟩ => show win2_1.index t (1 : Fin 2) * 128 + 1 * k.val = k.val; rw [e11]; omega

/-- The two matrix windows' blocks at every point are the whole matrices. -/
theorem p2_blk2 (c : Dev nD) (t : Fin cfg2.N) (y : S128x128.Idx) : (iblk2 V c 2 t : Vec Ideal S128x128 .f32) y = p2Wa V c y := by
  obtain ⟨-, -, -, -, e20, e21, -⟩ := p2_index t
  show V c (Pipeline.arrRef spec2 2) (((cfg2.win 2).blk t).view.emb y) = V c (Pipeline.arrRef spec2 2) y
  refine congrArg _ (funext fun d => Fin.ext ?_)
  match d with
  | ⟨0, _⟩ => show win2_2.index t (0 : Fin 2) * 128 + 1 * (y 0).val = (y 0).val; rw [e20]; omega
  | ⟨1, _⟩ => show win2_2.index t (1 : Fin 2) * 128 + 1 * (y 1).val = (y 1).val; rw [e21]; omega
theorem p2_blk3 (c : Dev nD) (t : Fin cfg2.N) (y : S128x128.Idx) : (iblk2 V c 3 t : Vec Ideal S128x128 .f32) y = p2Wb V c y := by
  obtain ⟨-, -, -, -, -, -, e30, e31, -⟩ := p2_index t
  show V c (Pipeline.arrRef spec2 3) (((cfg2.win 3).blk t).view.emb y) = V c (Pipeline.arrRef spec2 3) y
  refine congrArg _ (funext fun d => Fin.ext ?_)
  match d with
  | ⟨0, _⟩ => show win2_3.index t (0 : Fin 2) * 128 + 1 * (y 0).val = (y 0).val; rw [e30]; omega
  | ⟨1, _⟩ => show win2_3.index t (1 : Fin 2) * 128 + 1 * (y 1).val = (y 1).val; rw [e31]; omega

/-- What point t writes back through the first output window is block t of "first table times first matrix". -/
theorem p2_flushed4 (c : Dev nD) (t : Fin cfg2.N) :
    (dat2 V c).flushed 4 t = ((cfg2.win 4).blk t).view.read (Elt Ideal) (mm128 (p2A V c) (p2Wa V c)) := by
  show (cfg2.win 4).cut (grid2.coords t) ((dat2 V c).after 4 t) = _
  rw [after2_4]
  unfold out2_4
  rw [View.canon_unit_zero zeros2]
  simp only [View.ld_unit_zero (S := S5000x128) zeros2, View.ld_unit_zero (S := S128x128) zeros2]
  obtain ⟨-, -, -, -, -, -, -, -, e40, e41, -⟩ := p2_index t
  funext j
  show k2_pay1 (iblk2 V c 0 t) (iblk2 V c 2 t) j = mm128 (p2A V c) (p2Wa V c) (((cfg2.win 4).blk t).view.emb j)
  have hj : (j : S5000x128.Idx) = ix2 ⟨(j 0).val, idx2_lt0 (n0 := 5000) (n1 := 128) j⟩ ⟨(j 1).val, idx2_lt1 (n0 := 5000) (n1 := 128) j⟩ := eq_ix2 (n0 := 5000) (n1 := 128) j
  refine (congrArg (k2_pay1 (iblk2 V c 0 t) (iblk2 V c 2 t)) hj).trans ?_
  refine (k2_pay1_apply (iblk2 V c 0 t) (iblk2 V c 2 t) _ _).trans ?_
  simp only [p2_blk2 V c t]
  refine blockTimes_eq_mm128 (p2A V c) (p2Wa V c) t.val (iblk2 V c 0 t) (p2_blk0 V c t) j _ ?_ ?_
  · show win2_4.index t (0 : Fin 2) * 5000 + 1 * (j 0).val = t.val * 5000 + (j 0).val; rw [e40]; omega
  · show win2_4.index t (1 : Fin 2) * 128 + 1 * (j 1).val = (j 1).val; rw [e41]; omega

/-- Through the second output window: block t of "second table times second matrix". -/
theorem p2_flushed5 (c : Dev nD) (t : Fin cfg2.N) :
    (dat2 V c).flushed 5 t = ((cfg2.win 5).blk t).view.read (Elt Ideal) (mm128 (p2B V c) (p2Wb V c)) := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S128x128) zeros2]
  obtain ⟨-, -, -, -, -, -, -, -, -, -, e50, e51⟩ := p2_index t
  funext j
  show k2_pay2 (iblk2 V c 1 t) (iblk2 V c 3 t) j = mm128 (p2B V c) (p2Wb V c) (((cfg2.win 5).blk t).view.emb j)
  have hj : (j : S5000x128.Idx) = ix2 ⟨(j 0).val, idx2_lt0 (n0 := 5000) (n1 := 128) j⟩ ⟨(j 1).val, idx2_lt1 (n0 := 5000) (n1 := 128) j⟩ := eq_ix2 (n0 := 5000) (n1 := 128) j
  refine (congrArg (k2_pay2 (iblk2 V c 1 t) (iblk2 V c 3 t)) hj).trans ?_
  refine (k2_pay2_apply (iblk2 V c 1 t) (iblk2 V c 3 t) _ _).trans ?_
  simp only [p2_blk3 V c t]
  refine blockTimes_eq_mm128 (p2B V c) (p2Wb V c) t.val (iblk2 V c 1 t) (p2_blk1 V c t) j _ ?_ ?_
  · show win2_5.index t (0 : Fin 2) * 5000 + 1 * (j 0).val = t.val * 5000 + (j 0).val; rw [e50]; omega
  · show win2_5.index t (1 : Fin 2) * 128 + 1 * (j 1).val = (j 1).val; rw [e51]; omega

/-- An index of an output table is in point t's block iff each coordinate is in the block's range on its axis. -/
theorem p2_mem4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v25_0).slice (win2_4.rect t)).set ↔ _
  rw [View.set_slice_whole, Rect.mem_set_unit]
  exact Iff.rfl
theorem p2_mem5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v25_1).slice (win2_5.rect t)).set ↔ _
  rw [View.set_slice_whole, Rect.mem_set_unit]
  exact Iff.rfl

/-- Row r of an output table is in the block of point r / 5000. -/
theorem p2_cover4 (i : S50000x128.Idx) : ∃ t : Fin cfg2.N, (cfg2.win 4).flush t = true ∧ i ∈ ((cfg2.win 4).blk t).view.set := by
  have hi0 : (i 0).val < 50000 := idx2_lt0 i
  have hi1 : (i 1).val < 128 := idx2_lt1 i
  have hlt : (i 0).val / 5000 < cfg2.N := by show _ < grid2.N; rw [N_2]; omega
  obtain ⟨-, -, -, -, -, -, -, -, e40, e41, -⟩ := p2_index ⟨(i 0).val / 5000, hlt⟩
  refine ⟨⟨(i 0).val / 5000, hlt⟩, flush2_4 _, ?_⟩
  rw [p2_mem4]
  intro a
  match a with
  | ⟨0, _⟩ => show win2_4.index ⟨(i 0).val / 5000, hlt⟩ (0 : Fin 2) * 5000 ≤ (i 0).val ∧ (i 0).val < win2_4.index ⟨(i 0).val / 5000, hlt⟩ (0 : Fin 2) * 5000 + 5000; rw [e40]; show (i 0).val / 5000 * 5000 ≤ (i 0).val ∧ (i 0).val < (i 0).val / 5000 * 5000 + 5000; omega
  | ⟨1, _⟩ => show win2_4.index ⟨(i 0).val / 5000, hlt⟩ (1 : Fin 2) * 128 ≤ (i 1).val ∧ (i 1).val < win2_4.index ⟨(i 0).val / 5000, hlt⟩ (1 : Fin 2) * 128 + 128; rw [e41]; omega
theorem p2_cover5 (i : S50000x128.Idx) : ∃ t : Fin cfg2.N, (cfg2.win 5).flush t = true ∧ i ∈ ((cfg2.win 5).blk t).view.set := by
  have hi0 : (i 0).val < 50000 := idx2_lt0 i
  have hi1 : (i 1).val < 128 := idx2_lt1 i
  have hlt : (i 0).val / 5000 < cfg2.N := by show _ < grid2.N; rw [N_2]; omega
  obtain ⟨-, -, -, -, -, -, -, -, -, -, e50, e51⟩ := p2_index ⟨(i 0).val / 5000, hlt⟩
  refine ⟨⟨(i 0).val / 5000, hlt⟩, flush2_5 _, ?_⟩
  rw [p2_mem5]
  intro a
  match a with
  | ⟨0, _⟩ => show win2_5.index ⟨(i 0).val / 5000, hlt⟩ (0 : Fin 2) * 5000 ≤ (i 0).val ∧ (i 0).val < win2_5.index ⟨(i 0).val / 5000, hlt⟩ (0 : Fin 2) * 5000 + 5000; rw [e50]; show (i 0).val / 5000 * 5000 ≤ (i 0).val ∧ (i 0).val < (i 0).val / 5000 * 5000 + 5000; omega
  | ⟨1, _⟩ => show win2_5.index ⟨(i 0).val / 5000, hlt⟩ (1 : Fin 2) * 128 ≤ (i 1).val ∧ (i 1).val < win2_5.index ⟨(i 0).val / 5000, hlt⟩ (1 : Fin 2) * 128 + 128; rw [e51]; omega

/-- Second projection call: the same two products. -/
theorem reg2_out4 (c : Dev nD) :
    (dat2 V c).arrAt 4 cfg2.N = mm128 (V c (Pipeline.arrRef spec2 0)) (V c (Pipeline.arrRef spec2 2)) :=
  (dat2 V c).arrAt_eq_of_cover 4 (mm128 (p2A V c) (p2Wa V c)) (fun t _ => p2_flushed4 V c t) p2_cover4

theorem reg2_out5 (c : Dev nD) :
    (dat2 V c).arrAt 5 cfg2.N = mm128 (V c (Pipeline.arrRef spec2 1)) (V c (Pipeline.arrRef spec2 3)) :=
  (dat2 V c).arrAt_eq_of_cover 5 (mm128 (p2B V c) (p2Wb V c)) (fun t _ => p2_flushed5 V c t) p2_cover5

/-! ### The final call -/

/-- The tables the final call finds at entry, at their literal types. -/
abbrev p4A (c : Dev nD) : NodeT := V c (Pipeline.arrRef spec4 0)
abbrev p4B (c : Dev nD) : NodeT := V c (Pipeline.arrRef spec4 1)
abbrev p4C (c : Dev nD) : NodeT := V c (Pipeline.arrRef spec4 2)
abbrev p4Wa (c : Dev nD) : W2T := V c (Pipeline.arrRef spec4 3)
abbrev p4Wb (c : Dev nD) : W2T := V c (Pipeline.arrRef spec4 4)
abbrev p4Wc (c : Dev nD) : W2T := V c (Pipeline.arrRef spec4 5)
abbrev p4bias (c : Dev nD) : RowT := V c (Pipeline.arrRef spec4 6)

/-- The printed index maps, decided over the grid: a row-blocked window's block index is (t, 0), a matrix or row window's (0, 0). -/
theorem p4_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- The three table windows' blocks at point t are rows 5000·t … of their tables. -/
theorem p4_blk0 (c : Dev nD) (t : Fin cfg4.N) : IsRowBlock (p4A V c) t.val (iblk4 V c 0 t) := by
  intro r k a ha
  obtain ⟨e00, e01, -⟩ := p4_index t
  show V c (Pipeline.arrRef spec4 0) (((cfg4.win 0).blk t).view.emb (ix2 r k)) = V c (Pipeline.arrRef spec4 0) (ix2 a k)
  refine congrArg _ (funext fun d => Fin.ext ?_)
  match d with
  | ⟨0, _⟩ => show win4_0.index t (0 : Fin 2) * 5000 + 1 * r.val = a.val; rw [e00, ha]; omega
  | ⟨1, _⟩ => show win4_0.index t (1 : Fin 2) * 128 + 1 * k.val = k.val; rw [e01]; omega
theorem p4_blk1 (c : Dev nD) (t : Fin cfg4.N) : IsRowBlock (p4B V c) t.val (iblk4 V c 1 t) := by
  intro r k a ha
  obtain ⟨-, -, e10, e11, -⟩ := p4_index t
  show V c (Pipeline.arrRef spec4 1) (((cfg4.win 1).blk t).view.emb (ix2 r k)) = V c (Pipeline.arrRef spec4 1) (ix2 a k)
  refine congrArg _ (funext fun d => Fin.ext ?_)
  match d with
  | ⟨0, _⟩ => show win4_1.index t (0 : Fin 2) * 5000 + 1 * r.val = a.val; rw [e10, ha]; omega
  | ⟨1, _⟩ => show win4_1.index t (1 : Fin 2) * 128 + 1 * k.val = k.val; rw [e11]; omega
theorem p4_blk2 (c : Dev nD) (t : Fin cfg4.N) : IsRowBlock (p4C V c) t.val (iblk4 V c 2 t) := by
  intro r k a ha
  obtain ⟨-, -, -, -, e20, e21, -⟩ := p4_index t
  show V c (Pipeline.arrRef spec4 2) (((cfg4.win 2).blk t).view.emb (ix2 r k)) = V c (Pipeline.arrRef spec4 2) (ix2 a k)
  refine congrArg _ (funext fun d => Fin.ext ?_)
  match d with
  | ⟨0, _⟩ => show win4_2.index t (0 : Fin 2) * 5000 + 1 * r.val = a.val; rw [e20, ha]; omega
  | ⟨1, _⟩ => show win4_2.index t (1 : Fin 2) * 128 + 1 * k.val = k.val; rw [e21]; omega

/-- The three matrix windows' blocks at every point are the whole matrices, the bias window's the whole row. -/
theorem p4_blk3 (c : Dev nD) (t : Fin cfg4.N) (y : S128x128.Idx) : (iblk4 V c 3 t : Vec Ideal S128x128 .f32) y = p4Wa V c y := by
  obtain ⟨-, -, -, -, -, -, e30, e31, -⟩ := p4_index t
  show V c (Pipeline.arrRef spec4 3) (((cfg4.win 3).blk t).view.emb y) = V c (Pipeline.arrRef spec4 3) y
  refine congrArg _ (funext fun d => Fin.ext ?_)
  match d with
  | ⟨0, _⟩ => show win4_3.index t (0 : Fin 2) * 128 + 1 * (y 0).val = (y 0).val; rw [e30]; omega
  | ⟨1, _⟩ => show win4_3.index t (1 : Fin 2) * 128 + 1 * (y 1).val = (y 1).val; rw [e31]; omega
theorem p4_blk4 (c : Dev nD) (t : Fin cfg4.N) (y : S128x128.Idx) : (iblk4 V c 4 t : Vec Ideal S128x128 .f32) y = p4Wb V c y := by
  obtain ⟨-, -, -, -, -, -, -, -, e40, e41, -⟩ := p4_index t
  show V c (Pipeline.arrRef spec4 4) (((cfg4.win 4).blk t).view.emb y) = V c (Pipeline.arrRef spec4 4) y
  refine congrArg _ (funext fun d => Fin.ext ?_)
  match d with
  | ⟨0, _⟩ => show win4_4.index t (0 : Fin 2) * 128 + 1 * (y 0).val = (y 0).val; rw [e40]; omega
  | ⟨1, _⟩ => show win4_4.index t (1 : Fin 2) * 128 + 1 * (y 1).val = (y 1).val; rw [e41]; omega
theorem p4_blk5 (c : Dev nD) (t : Fin cfg4.N) (y : S128x128.Idx) : (iblk4 V c 5 t : Vec Ideal S128x128 .f32) y = p4Wc V c y := by
  obtain ⟨-, -, -, -, -, -, -, -, -, -, e50, e51, -⟩ := p4_index t
  show V c (Pipeline.arrRef spec4 5) (((cfg4.win 5).blk t).view.emb y) = V c (Pipeline.arrRef spec4 5) y
  refine congrArg _ (funext fun d => Fin.ext ?_)
  match d with
  | ⟨0, _⟩ => show win4_5.index t (0 : Fin 2) * 128 + 1 * (y 0).val = (y 0).val; rw [e50]; omega
  | ⟨1, _⟩ => show win4_5.index t (1 : Fin 2) * 128 + 1 * (y 1).val = (y 1).val; rw [e51]; omega
theorem p4_blk6 (c : Dev nD) (t : Fin cfg4.N) (y : S1x128.Idx) : (iblk4 V c 6 t : Vec Ideal S1x128 .f32) y = p4bias V c y := by
  obtain ⟨-, -, -, -, -, -, -, -, -, -, -, -, e60, e61, -⟩ := p4_index t
  show V c (Pipeline.arrRef spec4 6) (((cfg4.win 6).blk t).view.emb y) = V c (Pipeline.arrRef spec4 6) y
  refine congrArg _ (funext fun d => Fin.ext ?_)
  match d with
  | ⟨0, _⟩ => show win4_6.index t (0 : Fin 2) * 1 + 1 * (y 0).val = (y 0).val; rw [e60]; omega
  | ⟨1, _⟩ => show win4_6.index t (1 : Fin 2) * 128 + 1 * (y 1).val = (y 1).val; rw [e61]; omega

/-- What point t writes back through the output window is block t of the final table. -/
theorem p4_flushed7 (c : Dev nD) (t : Fin cfg4.N) :
    (dat4 V c).flushed 7 t = ((cfg4.win 7).blk t).view.read (Elt Ideal)
      (finalRows (p4A V c) (p4B V c) (p4C V c) (p4Wa V c) (p4Wb V c) (p4Wc V c) (p4bias V c)) := by
  show (cfg4.win 7).cut (grid4.coords t) ((dat4 V c).after 7 t) = _
  rw [after4_7]
  unfold out4_7
  rw [View.canon_unit_zero zeros2]
  simp only [View.ld_unit_zero (S := S5000x128) zeros2, View.ld_unit_zero (S := S128x128) zeros2, View.ld_unit_zero (S := S1x128) zeros2]
  obtain ⟨-, -, -, -, -, -, -, -, -, -, -, -, -, -, e70, e71⟩ := p4_index t
  funext j
  show k4_pay1 (iblk4 V c 0 t) (iblk4 V c 3 t) (iblk4 V c 1 t) (iblk4 V c 4 t) (iblk4 V c 2 t) (iblk4 V c 5 t) (iblk4 V c 6 t) j
    = finalRows (p4A V c) (p4B V c) (p4C V c) (p4Wa V c) (p4Wb V c) (p4Wc V c) (p4bias V c) (((cfg4.win 7).blk t).view.emb j)
  have hj : (j : S5000x128.Idx) = ix2 ⟨(j 0).val, idx2_lt0 (n0 := 5000) (n1 := 128) j⟩ ⟨(j 1).val, idx2_lt1 (n0 := 5000) (n1 := 128) j⟩ := eq_ix2 (n0 := 5000) (n1 := 128) j
  refine (congrArg (k4_pay1 (iblk4 V c 0 t) (iblk4 V c 3 t) (iblk4 V c 1 t) (iblk4 V c 4 t) (iblk4 V c 2 t) (iblk4 V c 5 t) (iblk4 V c 6 t)) hj).trans ?_
  refine (k4_pay1_apply (iblk4 V c 0 t) (iblk4 V c 3 t) (iblk4 V c 1 t) (iblk4 V c 4 t) (iblk4 V c 2 t) (iblk4 V c 5 t) (iblk4 V c 6 t) _ _).trans ?_
  simp only [p4_blk3 V c t, p4_blk4 V c t, p4_blk5 V c t, p4_blk6 V c t]
  refine blockFinal_eq (p4A V c) (p4B V c) (p4C V c) (p4Wa V c) (p4Wb V c) (p4Wc V c) (p4bias V c) t.val
    (iblk4 V c 0 t) (iblk4 V c 1 t) (iblk4 V c 2 t) (p4_blk0 V c t) (p4_blk1 V c t) (p4_blk2 V c t) j _ ?_ ?_
  · show win4_7.index t (0 : Fin 2) * 5000 + 1 * (j 0).val = t.val * 5000 + (j 0).val; rw [e70]; omega
  · show win4_7.index t (1 : Fin 2) * 128 + 1 * (j 1).val = (j 1).val; rw [e71]; omega

/-- An index of the output table is in point t's block iff each coordinate is in the block's range on its axis. -/
theorem p4_mem7 (t : Fin cfg4.N) (i : S50000x128.Idx) :
    i ∈ ((cfg4.win 7).blk t).view.set ↔ ∀ a : Fin 2, win4_7.index t a * S5000x128.size a ≤ (i a).val ∧ (i a).val < win4_7.index t a * S5000x128.size a + S5000x128.size a := by
  show i ∈ ((View.whole main_v39).slice (win4_7.rect t)).set ↔ _
  rw [View.set_slice_whole, Rect.mem_set_unit]
  exact Iff.rfl

/-- Row r of the output table is in the block of point r / 5000. -/
theorem p4_cover7 (i : S50000x128.Idx) : ∃ t : Fin cfg4.N, (cfg4.win 7).flush t = true ∧ i ∈ ((cfg4.win 7).blk t).view.set := by
  have hi0 : (i 0).val < 50000 := idx2_lt0 i
  have hi1 : (i 1).val < 128 := idx2_lt1 i
  have hlt : (i 0).val / 5000 < cfg4.N := by show _ < grid4.N; rw [N_4]; omega
  obtain ⟨-, -, -, -, -, -, -, -, -, -, -, -, -, -, e70, e71⟩ := p4_index ⟨(i 0).val / 5000, hlt⟩
  refine ⟨⟨(i 0).val / 5000, hlt⟩, flush4_7 _, ?_⟩
  rw [p4_mem7]
  intro a
  match a with
  | ⟨0, _⟩ => show win4_7.index ⟨(i 0).val / 5000, hlt⟩ (0 : Fin 2) * 5000 ≤ (i 0).val ∧ (i 0).val < win4_7.index ⟨(i 0).val / 5000, hlt⟩ (0 : Fin 2) * 5000 + 5000; rw [e70]; show (i 0).val / 5000 * 5000 ≤ (i 0).val ∧ (i 0).val < (i 0).val / 5000 * 5000 + 5000; omega
  | ⟨1, _⟩ => show win4_7.index ⟨(i 0).val / 5000, hlt⟩ (1 : Fin 2) * 128 ≤ (i 1).val ∧ (i 1).val < win4_7.index ⟨(i 0).val / 5000, hlt⟩ (1 : Fin 2) * 128 + 128; rw [e71]; omega

/-- The final call: three products added left to right, plus the bias row. -/
theorem reg4_out7 (c : Dev nD) :
    (dat4 V c).arrAt 7 cfg4.N = finalRows (V c (Pipeline.arrRef spec4 0)) (V c (Pipeline.arrRef spec4 1))
      (V c (Pipeline.arrRef spec4 2)) (V c (Pipeline.arrRef spec4 3)) (V c (Pipeline.arrRef spec4 4))
      (V c (Pipeline.arrRef spec4 5)) (V c (Pipeline.arrRef spec4 6)) :=
  (dat4 V c).arrAt_eq_of_cover 7 (finalRows (p4A V c) (p4B V c) (p4C V c) (p4Wa V c) (p4Wb V c) (p4Wc V c) (p4bias V c))
    (fun t _ => p4_flushed7 V c t) p4_cover7

end Cert.KernelIdeal.KVal

end
-- ==== Proof.ScatterGather.lean ====
/-
  The host's accumulating scatter and its row gather, read at an index, for the shapes of this graph: updates
  [640000, 128] (or [640000]) added into a table [50000, 128] (or [50000]) at rows named by a column of edge words,
  and rows of a table [50000, 128] gathered at a column of edge words.
-/
import proofs.«408989_j23862838297343_2_alg».proof.Proof.Spec
import Idealize.ShloMosaic.PureOps
import Idealize.ShloMosaic.PureOps.Ideal

noncomputable section

namespace GraphConv

open Idealize.ShloMosaic Idealize.ShloMosaic.ValueIdx

namespace SG

/-- The column of edge words read at (e, 0) is the word of edge e. -/
theorem bcast_col (hb : (⟨1, ![640000]⟩ : Shape).BroadcastsInDim ⟨2, ![640000, 1]⟩ ![0]) (w : EdgeW)
    (k : (⟨2, ![640000, 1]⟩ : Shape).Idx) :
    broadcastInDim ⟨2, ![640000, 1]⟩ ![0] hb w k = w (ix1 ⟨(k 0).val, idx2_lt0 k⟩) := by
  unfold broadcastInDim
  refine congrArg w (funext fun a => ?_)
  match a with
  | ⟨0, _⟩ => rfl

/-- A rank-2 index determines its two coordinates. -/
theorem ix2_inj {n0 n1 : Nat} {a a' : Fin n0} {b b' : Fin n1} (h : ix2 a b = ix2 a' b') : a = a' ∧ b = b' :=
  ⟨congrFun h 0, congrFun h 1⟩

section Rows

/-! ## The scatter of rows

The dimension numbers say: the update's axis 1 is its window axis and goes to the table's axis 1; the table's axis 0 is
inserted and is the one the index word names; the index column's axis 1 holds the (one-word) index vector. So update
entry (e, q) starts at row (word of edge e, read signed), column 0, and its window coordinate is (0, q). -/

variable (wf : ScatterDims.WF ⟨2, ![50000, 128]⟩ ⟨2, ![640000, 1]⟩ ⟨2, ![640000, 128]⟩ [1] [0] [0] 1)

/-- The row scatter's dimension numbers. -/
abbrev dRows : ScatterDims ⟨2, ![50000, 128]⟩ ⟨2, ![640000, 1]⟩ ⟨2, ![640000, 128]⟩ := ⟨[1], [0], [0], 1, wf⟩

/-- On the table's axis 0 the start of update entry (e, q) is the index column's word at (e, 0), read signed. -/
theorem rows_start0 {w : Nat} (idx : IVec ⟨2, ![640000, 1]⟩ w) (e : Fin 640000) (q : Fin 128) :
    (dRows wf).start (ix2 e q) idx 0 = (idx (ix2 e 0)).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- On the table's axis 1, which the index names no word for, the start is 0. -/
theorem rows_start1 {w : Nat} (idx : IVec ⟨2, ![640000, 1]⟩ w) (e : Fin 640000) (q : Fin 128) :
    (dRows wf).start (ix2 e q) idx 1 = 0 := by
  unfold ScatterDims.start
  rw [dif_neg (show (1 : Fin 2) ∉ [(0 : Fin 2)] by decide)]

/-- The window coordinate on the inserted axis 0 is 0. -/
theorem rows_window0 (e : Fin 640000) (q : Fin 128) : (dRows wf).window (ix2 e q) 0 = 0 := by
  unfold ScatterDims.window
  rw [dif_neg (show (0 : Fin 2) ∉ Shape.kept (s := ⟨2, ![50000, 128]⟩) [0] by decide)]

/-- The window coordinate on axis 1 is the update entry's column. -/
theorem rows_window1 (e : Fin 640000) (q : Fin 128) : (dRows wf).window (ix2 e q) 1 = q.val := by
  unfold ScatterDims.window
  rw [dif_pos (show (1 : Fin 2) ∈ Shape.kept (s := ⟨2, ![50000, 128]⟩) [0] by decide)]
  rfl

/-- Where an update row's entry lands: entry q of the row the edge's word names, when the word is a row. -/
theorem rows_resultIdx (hb : (⟨1, ![640000]⟩ : Shape).BroadcastsInDim ⟨2, ![640000, 1]⟩ ![0]) (dst : EdgeW)
    (e : Fin 640000) (q : Fin 128) :
    (dRows wf).resultIdx? (ix2 e q) (broadcastInDim ⟨2, ![640000, 1]⟩ ![0] hb dst)
      = (tgt dst e).map (fun n => ix2 n q) := by
  have hs0 : (dRows wf).start (ix2 e q) (broadcastInDim ⟨2, ![640000, 1]⟩ ![0] hb dst) 0 = (dst (ix1 e)).toInt := by
    rw [rows_start0, bcast_col]
  have hs1 := rows_start1 wf (broadcastInDim ⟨2, ![640000, 1]⟩ ![0] hb dst) e q
  have hw0 := rows_window0 wf e q
  have hw1 := rows_window1 wf e q
  unfold ScatterDims.resultIdx? tgt
  by_cases h : 0 ≤ (dst (ix1 e)).toInt ∧ (dst (ix1 e)).toInt < 50000
  · have hall : ∀ a : Fin 2, 0 ≤ (dRows wf).start (ix2 e q) (broadcastInDim ⟨2, ![640000, 1]⟩ ![0] hb dst) a
          + ((dRows wf).window (ix2 e q) a : Int) ∧
        (dRows wf).start (ix2 e q) (broadcastInDim ⟨2, ![640000, 1]⟩ ![0] hb dst) a
          + ((dRows wf).window (ix2 e q) a : Int) < ((⟨2, ![50000, 128]⟩ : Shape).size a : Int) := by
      refine Fin.forall_fin_two.mpr ⟨?_, ?_⟩
      · rw [hs0, hw0]
        show _ ∧ _ < ((50000 : Nat) : Int)
        have := h.1; have := h.2
        constructor <;> omega
      · rw [hs1, hw1]
        show _ ∧ _ < ((128 : Nat) : Int)
        have := q.isLt
        constructor <;> omega
    rw [dif_pos hall, dif_pos h]
    simp only [Option.map_some]
    congr 1
    funext a
    refine Fin.ext ?_
    revert a
    refine Fin.forall_fin_two.mpr ⟨?_, ?_⟩
    · show ((dRows wf).start (ix2 e q) (broadcastInDim ⟨2, ![640000, 1]⟩ ![0] hb dst) 0
          + ((dRows wf).window (ix2 e q) 0 : Int)).toNat = _
      rw [hs0, hw0]; simp
    · show ((dRows wf).start (ix2 e q) (broadcastInDim ⟨2, ![640000, 1]⟩ ![0] hb dst) 1
          + ((dRows wf).window (ix2 e q) 1 : Int)).toNat = _
      rw [hs1, hw1]; simp
  · rw [dif_neg h, dif_neg]
    · rfl
    · intro hall
      have h0 := hall 0
      rw [hs0, hw0] at h0
      apply h
      have h01 := h0.1; have h02 : _ < ((50000 : Nat) : Int) := h0.2
      constructor <;> omega

end Rows

/-! ## The scatter of scalars

The same with no window axis: update entry e starts at (word of edge e, read signed) and has no window coordinate. -/

/-- A rank-1 index set is its coordinate's range, so a sum over it is the sum over the coordinate. -/
theorem sum_idx1 {M : Type*} [AddCommMonoid M] {n : Nat} (f : (⟨1, ![n]⟩ : Shape).Idx → M) :
    ∑ k, f k = ∑ a : Fin n, f (ix1 a) := by
  let E : (⟨1, ![n]⟩ : Shape).Idx ≃ Fin n :=
    { toFun := fun k => k 0, invFun := fun a => ix1 a, left_inv := fun k => (eq_ix1 k).symm, right_inv := fun _ => rfl }
  rw [← Equiv.sum_comp E.symm f]
  rfl

/-- A rank-1 index determines its coordinate. -/
theorem ix1_inj {n : Nat} {a a' : Fin n} (h : ix1 a = ix1 a') : a = a' := congrFun h 0

section Vec

variable (wf : ScatterDims.WF ⟨1, ![50000]⟩ ⟨2, ![640000, 1]⟩ ⟨1, ![640000]⟩ [] [0] [0] 1)

/-- The scalar scatter's dimension numbers. -/
abbrev dVec : ScatterDims ⟨1, ![50000]⟩ ⟨2, ![640000, 1]⟩ ⟨1, ![640000]⟩ := ⟨[], [0], [0], 1, wf⟩

/-- The start of update entry e is the index column's word at (e, 0), read signed. -/
theorem vec_start0 {w : Nat} (idx : IVec ⟨2, ![640000, 1]⟩ w) (e : Fin 640000) :
    (dVec wf).start (ix1 e) idx 0 = (idx (ix2 e 0)).toInt := by
  unfold ScatterDims.start
  rw [dif_pos (show (0 : Fin 1) ∈ [(0 : Fin 1)] from List.mem_singleton.mpr rfl)]
  congr 2
  funext b
  refine Fin.ext ?_
  match b with
  | ⟨0, _⟩ => rfl
  | ⟨1, _⟩ => rfl

/-- The table's one axis is inserted: the window coordinate is 0. -/
theorem vec_window0 (e : Fin 640000) : (dVec wf).window (ix1 e) 0 = 0 := by
  unfold ScatterDims.window
  rw [dif_neg (show (0 : Fin 1) ∉ Shape.kept (s := ⟨1, ![50000]⟩) [0] by decide)]

/-- Where a scalar update lands: the entry the edge's word names, when the word is a row. -/
theorem vec_resultIdx (hb : (⟨1, ![640000]⟩ : Shape).BroadcastsInDim ⟨2, ![640000, 1]⟩ ![0]) (dst : EdgeW)
    (e : Fin 640000) :
    (dVec wf).resultIdx? (ix1 e) (broadcastInDim ⟨2, ![640000, 1]⟩ ![0] hb dst) = (tgt dst e).map (fun n => ix1 n) := by
  have hs0 : (dVec wf).start (ix1 e) (broadcastInDim ⟨2, ![640000, 1]⟩ ![0] hb dst) 0 = (dst (ix1 e)).toInt := by
    rw [vec_start0, bcast_col]
  have hw0 := vec_window0 wf e
  unfold ScatterDims.resultIdx? tgt
  by_cases h : 0 ≤ (dst (ix1 e)).toInt ∧ (dst (ix1 e)).toInt < 50000
  · have hall : ∀ a : Fin 1, 0 ≤ (dVec wf).start (ix1 e) (broadcastInDim ⟨2, ![640000, 1]⟩ ![0] hb dst) a
          + ((dVec wf).window (ix1 e) a : Int) ∧
        (dVec wf).start (ix1 e) (broadcastInDim ⟨2, ![640000, 1]⟩ ![0] hb dst) a
          + ((dVec wf).window (ix1 e) a : Int) < ((⟨1, ![50000]⟩ : Shape).size a : Int) := by
      refine Fin.forall_fin_one.mpr ?_
      rw [hs0, hw0]
      show _ ∧ _ < ((50000 : Nat) : Int)
      have := h.1; have := h.2
      constructor <;> omega
    rw [dif_pos hall, dif_pos h]
    simp only [Option.map_some]
    congr 1
    funext a
    refine Fin.ext ?_
    revert a
    refine Fin.forall_fin_one.mpr ?_
    show ((dVec wf).start (ix1 e) (broadcastInDim ⟨2, ![640000, 1]⟩ ![0] hb dst) 0
        + ((dVec wf).window (ix1 e) 0 : Int)).toNat = _
    rw [hs0, hw0]; simp
  · rw [dif_neg h, dif_neg]
    · rfl
    · intro hall
      have h0 := hall 0
      rw [hs0, hw0] at h0
      apply h
      have h01 := h0.1; have h02 : _ < ((50000 : Nat) : Int) := h0.2
      constructor <;> omega

end Vec

/-! ## The gather of rows

The table's axis 0 is collapsed and is the one the index word names, with slice size 1: the start there is the word read
signed and clamped into [0, 50000 − 1]; the table's axis 1 is kept whole (slice size 128, start 0) and is read at the
result's column. There are no batching axes. -/

section Gather

variable (wf : GatherDims.WF ⟨2, ![50000, 128]⟩ ⟨2, ![640000, 1]⟩ ⟨2, ![640000, 128]⟩ [1] [0] [] [0] [] 1 ![1, 128])

/-- The row gather's dimension numbers. -/
abbrev gRows : GatherDims ⟨2, ![50000, 128]⟩ ⟨2, ![640000, 1]⟩ ⟨2, ![640000, 128]⟩ :=
  ⟨[1], [0], [], [], [0], 1, ![1, 128], wf⟩

/-- On axis 0 the start for result entry (e, q) is the index column's word at (e, 0), read signed and clamped. -/
theorem gRows_start0 {w : Nat} (idx : IVec ⟨2, ![640000, 1]⟩ w) (e : Fin 640000) (q : Fin 128) :
    (gRows wf).start (ix2 e q) idx 0 = min (idx (ix2 e 0)).toInt.toNat 49999 := by
  unfold GatherDims.start
  rw [dif_pos (show (0 : Fin 2) ∈ [(0 : Fin 2)] from List.mem_singleton.mpr rfl)]
  have hsi : (gRows wf).siIdx (ix2 e q) ⟨List.idxOf (0 : Fin 2) [(0 : Fin 2)],
      List.idxOf_lt_length_iff.2 (List.mem_singleton.mpr rfl)⟩ = ix2 e 0 := by
    funext b
    refine Fin.ext ?_
    match b with
    | ⟨0, _⟩ => rfl
    | ⟨1, _⟩ => rfl
  rw [hsi]
  rfl

/-- On axis 1 the start is 0. -/
theorem gRows_start1 {w : Nat} (idx : IVec ⟨2, ![640000, 1]⟩ w) (e : Fin 640000) (q : Fin 128) :
    (gRows wf).start (ix2 e q) idx 1 = 0 := by
  unfold GatherDims.start
  rw [dif_neg (show (1 : Fin 2) ∉ [(0 : Fin 2)] by decide)]

/-- The offset coordinate on the collapsed axis 0 is 0. -/
theorem gRows_off0 (e : Fin 640000) (q : Fin 128) : (gRows wf).offCoord (ix2 e q) 0 = 0 :=
  GatherDims.offCoord_eq_zero _ _ _ (show (0 : Fin 2) ∉ Shape.kept (s := ⟨2, ![50000, 128]⟩) ([0] ++ []) by decide)

/-- The offset coordinate on axis 1 is the result entry's column. -/
theorem gRows_off1 (e : Fin 640000) (q : Fin 128) : (gRows wf).offCoord (ix2 e q) 1 = q.val := by
  unfold GatherDims.offCoord
  rw [dif_pos (show (1 : Fin 2) ∈ Shape.kept (s := ⟨2, ![50000, 128]⟩) ([0] ++ []) by decide)]
  rfl

end Gather

end SG

open SG

/-- The accumulating scatter of rows: entry (i, j) of the table plus the sum of entry j of the update rows whose edge
    lands on node i. -/
theorem scatterAdd_rows
    (d : ScatterDims ⟨2, ![50000, 128]⟩ ⟨2, ![640000, 1]⟩ ⟨2, ![640000, 128]⟩)
    (h1 : d.updateWindowDims = [1]) (h2 : d.insertedWindowDims = [0]) (h3 : d.scatterDimsToOperandDims = [0])
    (h4 : d.indexVectorDim = 1)
    (hb : (⟨1, ![640000]⟩ : Shape).BroadcastsInDim ⟨2, ![640000, 1]⟩ ![0])
    (x : NodeT) (dst : EdgeW) (u : EdgeT) (i : Fin 50000) (j : Fin 128) :
    Host.scatterAdd (F := Ideal) (φ := .f32) d x (broadcastInDim ⟨2, ![640000, 1]⟩ ![0] hb dst) u (ix2 i j)
      = x (ix2 i j) + seg dst (fun e => u (ix2 e j)) i := by
  obtain ⟨uw, iw, sd, iv, wf⟩ := d
  simp only at h1 h2 h3 h4
  subst h1 h2 h3 h4
  unfold Host.scatterAdd
  rw [Ideal.hostScatterAdd_def]
  unfold Ideal.hostScatterAdd
  beta_reduce
  refine congrArg (fun z => x (ix2 i j) + z) ?_
  rw [Finset.sum_filter, sum_idx2, seg, Finset.sum_filter]
  refine Finset.sum_congr rfl fun e _ => ?_
  have hr : ∀ q : Fin 128, (dRows wf).resultIdx? (ix2 e q) (broadcastInDim ⟨2, ![640000, 1]⟩ ![0] hb dst)
      = (tgt dst e).map (fun n => ix2 n q) := fun q => rows_resultIdx wf hb dst e q
  simp only [hr]
  by_cases ht : tgt dst e = some i
  · rw [if_pos ht, ht]
    simp only [Option.map_some]
    rw [Finset.sum_eq_single j]
    · rw [if_pos rfl]
    · intro q _ hq
      rw [if_neg]
      intro h
      exact hq (ix2_inj (Option.some.inj h)).2
    · intro h; exact absurd (Finset.mem_univ j) h
  · rw [if_neg ht]
    refine Finset.sum_eq_zero fun q _ => ?_
    rw [if_neg]
    intro h
    apply ht
    cases htt : tgt dst e with
    | none => rw [htt] at h; simp at h
    | some n =>
      rw [htt] at h
      simp only [Option.map_some] at h
      rw [(ix2_inj (Option.some.inj h)).1]

/-- The accumulating scatter of scalars. -/
theorem scatterAdd_vec
    (d : ScatterDims ⟨1, ![50000]⟩ ⟨2, ![640000, 1]⟩ ⟨1, ![640000]⟩)
    (h1 : d.updateWindowDims = []) (h2 : d.insertedWindowDims = [0]) (h3 : d.scatterDimsToOperandDims = [0])
    (h4 : d.indexVectorDim = 1)
    (hb : (⟨1, ![640000]⟩ : Shape).BroadcastsInDim ⟨2, ![640000, 1]⟩ ![0])
    (x : (⟨1, ![50000]⟩ : Shape).Idx → EReal) (dst : EdgeW) (u : (⟨1, ![640000]⟩ : Shape).Idx → EReal) (i : Fin 50000) :
    Host.scatterAdd (F := Ideal) (φ := .f32) d x (broadcastInDim ⟨2, ![640000, 1]⟩ ![0] hb dst) u (ix1 i)
      = x (ix1 i) + seg dst (fun e => u (ix1 e)) i := by
  obtain ⟨uw, iw, sd, iv, wf⟩ := d
  simp only at h1 h2 h3 h4
  subst h1 h2 h3 h4
  unfold Host.scatterAdd
  rw [Ideal.hostScatterAdd_def]
  unfold Ideal.hostScatterAdd
  beta_reduce
  refine congrArg (fun z => x (ix1 i) + z) ?_
  rw [Finset.sum_filter, sum_idx1, seg, Finset.sum_filter]
  refine Finset.sum_congr rfl fun e _ => ?_
  have hr : (dVec wf).resultIdx? (ix1 e) (broadcastInDim ⟨2, ![640000, 1]⟩ ![0] hb dst)
      = (tgt dst e).map (fun n => ix1 n) := vec_resultIdx wf hb dst e
  simp only [hr]
  refine if_congr ?_ rfl rfl
  cases htt : tgt dst e with
  | none => simp
  | some n =>
    simp only [Option.map_some]
    constructor
    · intro h; rw [ix1_inj (Option.some.inj h)]
    · intro h; rw [Option.some.inj h]

/-- The gather of rows: row e of the result is the table's row at edge e's word, read signed and clamped into the
    table. -/
theorem gather_rows {α : Type}
    (g : GatherDims ⟨2, ![50000, 128]⟩ ⟨2, ![640000, 1]⟩ ⟨2, ![640000, 128]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, 128])
    (hb : (⟨1, ![640000]⟩ : Shape).BroadcastsInDim ⟨2, ![640000, 1]⟩ ![0])
    (x : (⟨2, ![50000, 128]⟩ : Shape).Idx → α) (w : EdgeW) (e : Fin 640000) (j : Fin 128) :
    Host.gather g x (broadcastInDim ⟨2, ![640000, 1]⟩ ![0] hb w) (ix2 e j)
      = x (ix2 ⟨min (w (ix1 e)).toInt.toNat 49999, by omega⟩ j) := by
  obtain ⟨od, cd, ob, sb, sm, iv, ss, wf⟩ := g
  simp only at h1 h2 h3 h4 h5 h6 h7
  subst h1 h2 h3 h4 h5 h6 h7
  unfold Host.gather
  refine congrArg x (funext fun a => Fin.ext ?_)
  revert a
  refine Fin.forall_fin_two.mpr ⟨?_, ?_⟩
  · show (gRows wf).start (ix2 e j) (broadcastInDim ⟨2, ![640000, 1]⟩ ![0] hb w) 0 + (gRows wf).batchCoord (ix2 e j) 0
        + (gRows wf).offCoord (ix2 e j) 0 = min (w (ix1 e)).toInt.toNat 49999
    rw [gRows_start0, GatherDims.batchCoord_eq_zero _ _ _ List.not_mem_nil, gRows_off0, bcast_col]
    rfl
  · show (gRows wf).start (ix2 e j) (broadcastInDim ⟨2, ![640000, 1]⟩ ![0] hb w) 1 + (gRows wf).batchCoord (ix2 e j) 1
        + (gRows wf).offCoord (ix2 e j) 1 = j.val
    rw [gRows_start1, GatherDims.batchCoord_eq_zero _ _ _ List.not_mem_nil, gRows_off1]
    omega

end GraphConv

end
-- ==== Proof.KStage0.lean ====
/-
  The buffers after the first host stretch and the first projection call: the in-degrees and their clamped
  inverses, the per-node sums of the edge features, the two projected tables, the arguments as launched.

  The host stretch scatters ones (and the edge feature rows) by destination word into zeros, which is the per-node
  sum over the edges landing on each node; clamps the degree below by one and inverts it; and cuts the first layer's
  weights into their upper and lower square. The projection call then multiplies the node table by the upper square
  and the summed edge features by the lower one, and writes nothing else.
-/
import proofs.«408989_j23862838297343_2_alg».proof.Proof.KArgs
import proofs.«408989_j23862838297343_2_alg».proof.Proof.KRegMM
import proofs.«408989_j23862838297343_2_alg».proof.Proof.ScatterGather
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen GraphConv
variable (m : (ℓ : Loc nD τ sig) → Buf (Elt Ideal) ℓ) (ρ : Dev nD → PrngReg)

/-! ## Two facts about words and slices -/

/-- The word of the float 1.0 is the extended real 1. -/
theorem one_word : Ideal.ofBits .f32 0x3F800000#32 = 1 := by
  simp [Ideal.ofBits, Ideal.ieee, -EReal.coe_mul]; norm_num

/-- A unit-stride slice of 128 whole rows of a taller matrix, starting at row off, is those rows as a square matrix. -/
theorem slice_rows {R : Nat} (off : Nat) (hR : off + 128 ≤ R)
    (h : (⟨2, ![R, 128]⟩ : Shape).Slices ![off, 0] ⟨2, ![128, 128]⟩) (W : (⟨2, ![R, 128]⟩ : Shape).Idx → EReal) :
    extractStridedSlice ⟨2, ![128, 128]⟩ ![off, 0] W h = rows128 off hR W := by
  funext j
  obtain ⟨p, q, rfl⟩ : ∃ (p q : Fin 128), j = ix2 p q := ⟨j 0, j 1, eq_ix2 j⟩
  refine extractStridedSlice_apply ![off, 0] W h (ix2 p q) (ix2 ⟨off + p.val, by omega⟩ q) (fun a => ?_)
  match a with
  | ⟨0, _⟩ => rfl
  | ⟨1, _⟩ => show q.val = 0 + q.val; omega

/-! ## Buffers a stretch of host operations does not write -/

/-- Closes "no operation of the stretch writes this buffer": the stretch's result buffers, one by one, differ from it. -/
local macro "not_written" ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A buffer the first host stretch does not write still holds its launch contents at the first call's entry. -/
theorem W1_keep (c : Dev nD) (b : Ref sig .tc)
    (h : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ h

/-- A scalar constant broadcast to any shape reads, everywhere, the extended real its word encodes. -/
theorem bcast_const {t : Shape} (dims : Fin S_.rank → Fin t.rank) (h : S_.BroadcastsInDim t dims) (b : BitVec 32)
    (j : t.Idx) : broadcastInDim t dims h (constant (F := Ideal) S_ .f32 b) j = Ideal.ofBits .f32 b := rfl

/-- The host's quotient at an index is the quotient of the elements. -/
theorem hostDivf_apply {s : Shape} (a b : FVec Ideal s .f32) (i : s.Idx) :
    Host.divf a b i = Ideal.div (a i) (b i) := rfl

/-! ## The first host stretch: degrees, inverse clamped degrees, summed edge features, the two weight squares -/

/-- Ones scattered by destination into a zero vector: entry i counts the edges landing on node i. -/
theorem deg_term (c : Dev nD) :
    Host.scatterAdd (F := Ideal) (φ := .f32) scatter_S50000_S640000x1_S640000_n_0_0_1
        (broadcastInDim S50000 ![] bcast_S_S50000 (constant (F := Ideal) S_ .f32 0x00000000#32))
        (broadcastInDim S640000x1 ![0] bcast_S640000_S640000x1_0 (aDst m c))
        (broadcastInDim S640000 ![] bcast_S_S640000 (constant (F := Ideal) S_ .f32 0x3F800000#32))
      = aDeg m c := by
  funext i
  obtain ⟨r, rfl⟩ : ∃ r : Fin 50000, i = ix1 r := ⟨i 0, eq_ix1 i⟩
  refine (scatterAdd_vec scatter_S50000_S640000x1_S640000_n_0_0_1 rfl rfl rfl rfl bcast_S640000_S640000x1_0
    _ (aDst m c) _ r).trans ?_
  simp only [bcast_const, Ideal.ofBits_zero_f32, one_word, zero_add]
  rfl

/-- Edge feature rows scattered by destination into a zero table: row i is the sum of the rows of the edges landing
    on node i. -/
theorem efagg_term (c : Dev nD) :
    Host.scatterAdd (F := Ideal) (φ := .f32) scatter_S50000x128_S640000x1_S640000x128_1_0_0_1
        (broadcastInDim S50000x128 ![] bcast_S_S50000x128 (constant (F := Ideal) S_ .f32 0x00000000#32))
        (broadcastInDim S640000x1 ![0] bcast_S640000_S640000x1_0 (aDst m c))
        (aEf m c)
      = aEfAgg m c := by
  funext i
  obtain ⟨r, q, rfl⟩ : ∃ (r : Fin 50000) (q : Fin 128), i = ix2 r q := ⟨i 0, i 1, eq_ix2 i⟩
  refine (scatterAdd_rows scatter_S50000x128_S640000x1_S640000x128_1_0_0_1 rfl rfl rfl rfl bcast_S640000_S640000x1_0
    _ (aDst m c) (aEf m c) r q).trans ?_
  simp only [bcast_const, Ideal.ofBits_zero_f32, zero_add]
  rfl

theorem W1_v3 (c : Dev nD) : W1 m ρ c (Proc.devRef .tc main_v3) = aDeg m c := by
  show StableHlo.after hostOps0 (W0 m ρ c) (Proc.devRef .tc main_v3) = _
  after_results
  exact deg_term m c

/-- One over the degree raised to at least one. -/
theorem W1_v7 (c : Dev nD) : W1 m ρ c (Proc.devRef .tc main_v7) = aInv m c := by
  show StableHlo.after hostOps0 (W0 m ρ c) (Proc.devRef .tc main_v7) = _
  after_results
  refine (congrArg (fun d => Host.divf (F := Ideal) (φ := .f32)
    (broadcastInDim S50000 ![] bcast_S_S50000 (constant (F := Ideal) S_ .f32 0x3F800000#32))
    (maximumf d (broadcastInDim S50000 ![] bcast_S_S50000 (constant (F := Ideal) S_ .f32 0x3F800000#32))))
    (deg_term m c)).trans ?_
  funext i
  rw [hostDivf_apply, maximumf_apply, bcast_const, one_word]
  rfl

theorem W1_v10 (c : Dev nD) : W1 m ρ c (Proc.devRef .tc main_v10) = aEfAgg m c := by
  show StableHlo.after hostOps0 (W0 m ρ c) (Proc.devRef .tc main_v10) = _
  after_results
  exact efagg_term m c

/-- The upper and the lower square of the first layer's weights. -/
theorem W1_v11 (c : Dev nD) :
    (W1 m ρ c (Proc.devRef .tc main_v11) : W2T) = rows128 0 (by norm_num) (aW1a m c) := by
  show StableHlo.after hostOps0 (W0 m ρ c) (Proc.devRef .tc main_v11) = _
  after_results
  exact slice_rows 0 (by norm_num) slices_S256x128_S128x128_0_0 (aW1a m c)
theorem W1_v12 (c : Dev nD) :
    (W1 m ρ c (Proc.devRef .tc main_v12) : W2T) = rows128 128 (by norm_num) (aW1a m c) := by
  show StableHlo.after hostOps0 (W0 m ρ c) (Proc.devRef .tc main_v12) = _
  after_results
  exact slice_rows 128 (by norm_num) slices_S256x128_S128x128_128_0 (aW1a m c)

/-! ## After the first projection call -/

theorem W2_v3 (c : Dev nD) : W2 m ρ c (Proc.devRef .tc main_v3) = aDeg m c :=
  (W2_of_ne m ρ c main_v3 (by decide)).trans (W1_v3 m ρ c)
theorem W2_v7 (c : Dev nD) : W2 m ρ c (Proc.devRef .tc main_v7) = aInv m c :=
  (W2_of_ne m ρ c main_v7 (by decide)).trans (W1_v7 m ρ c)
/-- The summed edge features are the call's second operand: it reads them and leaves them as entered. -/
theorem W2_v10 (c : Dev nD) : W2 m ρ c (Proc.devRef .tc main_v10) = aEfAgg m c :=
  ((W2_arr m ρ c 1).trans (((dat0 (V1 m ρ) c).arrAt_in 1 rfl _).trans (A_eq0 (V1 m ρ) c 1))).trans (W1_v10 m ρ c)
/-- The node table projected by the upper half of the first layer's weights. -/
theorem W2_v13_0 (c : Dev nD) : W2 m ρ c (Proc.devRef .tc main_v13_0) = hproj (aX0 m c) (aW1a m c) :=
  ((W2_arr m ρ c 4).trans (reg0_out4 (V1 m ρ) c)).trans
    (congrArg₂ mm128 (W1_keep m ρ c main_arg0 (by not_written hostOps0)) (W1_v11 m ρ c))
/-- The summed edge features projected by the lower half. -/
theorem W2_v13_1 (c : Dev nD) : W2 m ρ c (Proc.devRef .tc main_v13_1) = efproj (aEfAgg m c) (aW1a m c) :=
  ((W2_arr m ρ c 5).trans (reg0_out5 (V1 m ρ) c)).trans
    (congrArg₂ mm128 (W1_v10 m ρ c) (W1_v12 m ρ c))

/-! ## The arguments stay as launched: the stretch writes none of them, and the call only reads the node table -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans
    (W1_keep m ρ c main_arg0 (by not_written hostOps0))
theorem W2_arg1 (c : Dev nD) : W2 m ρ c (Proc.devRef .tc main_arg1) = m ((c : Thread nD τ).loc main_arg1) :=
  (W2_of_ne m ρ c main_arg1 (by decide)).trans (W1_keep m ρ c main_arg1 (by not_written hostOps0))
theorem W2_arg2 (c : Dev nD) : W2 m ρ c (Proc.devRef .tc main_arg2) = m ((c : Thread nD τ).loc main_arg2) :=
  (W2_of_ne m ρ c main_arg2 (by decide)).trans (W1_keep m ρ c main_arg2 (by not_written hostOps0))
theorem W2_arg3 (c : Dev nD) : W2 m ρ c (Proc.devRef .tc main_arg3) = m ((c : Thread nD τ).loc main_arg3) :=
  (W2_of_ne m ρ c main_arg3 (by decide)).trans (W1_keep m ρ c main_arg3 (by not_written hostOps0))
theorem W2_arg4 (c : Dev nD) : W2 m ρ c (Proc.devRef .tc main_arg4) = m ((c : Thread nD τ).loc main_arg4) :=
  (W2_of_ne m ρ c main_arg4 (by decide)).trans (W1_keep m ρ c main_arg4 (by not_written hostOps0))
theorem W2_arg5 (c : Dev nD) : W2 m ρ c (Proc.devRef .tc main_arg5) = m ((c : Thread nD τ).loc main_arg5) :=
  (W2_of_ne m ρ c main_arg5 (by decide)).trans (W1_keep m ρ c main_arg5 (by not_written hostOps0))
theorem W2_arg6 (c : Dev nD) : W2 m ρ c (Proc.devRef .tc main_arg6) = m ((c : Thread nD τ).loc main_arg6) :=
  (W2_of_ne m ρ c main_arg6 (by decide)).trans (W1_keep m ρ c main_arg6 (by not_written hostOps0))
theorem W2_arg7 (c : Dev nD) : W2 m ρ c (Proc.devRef .tc main_arg7) = m ((c : Thread nD τ).loc main_arg7) :=
  (W2_of_ne m ρ c main_arg7 (by decide)).trans (W1_keep m ρ c main_arg7 (by not_written hostOps0))
theorem W2_arg8 (c : Dev nD) : W2 m ρ c (Proc.devRef .tc main_arg8) = m ((c : Thread nD τ).loc main_arg8) :=
  (W2_of_ne m ρ c main_arg8 (by decide)).trans (W1_keep m ρ c main_arg8 (by not_written hostOps0))
theorem W2_arg9 (c : Dev nD) : W2 m ρ c (Proc.devRef .tc main_arg9) = m ((c : Thread nD τ).loc main_arg9) :=
  (W2_of_ne m ρ c main_arg9 (by decide)).trans (W1_keep m ρ c main_arg9 (by not_written hostOps0))
theorem W2_arg10 (c : Dev nD) : W2 m ρ c (Proc.devRef .tc main_arg10) = m ((c : Thread nD τ).loc main_arg10) :=
  (W2_of_ne m ρ c main_arg10 (by decide)).trans (W1_keep m ρ c main_arg10 (by not_written hostOps0))
theorem W2_arg11 (c : Dev nD) : W2 m ρ c (Proc.devRef .tc main_arg11) = m ((c : Thread nD τ).loc main_arg11) :=
  (W2_of_ne m ρ c main_arg11 (by decide)).trans (W1_keep m ρ c main_arg11 (by not_written hostOps0))
theorem W2_arg12 (c : Dev nD) : W2 m ρ c (Proc.devRef .tc main_arg12) = m ((c : Thread nD τ).loc main_arg12) :=
  (W2_of_ne m ρ c main_arg12 (by decide)).trans (W1_keep m ρ c main_arg12 (by not_written hostOps0))
theorem W2_arg13 (c : Dev nD) : W2 m ρ c (Proc.devRef .tc main_arg13) = m ((c : Thread nD τ).loc main_arg13) :=
  (W2_of_ne m ρ c main_arg13 (by decide)).trans (W1_keep m ρ c main_arg13 (by not_written hostOps0))

end Cert.KernelIdeal.KVal

end
-- ==== Proof.KRegSL.lean ====
/-
  The two self-loop calls, each as one function of the whole tables it finds at entry: row by row, the three
  summands normalised by the inverse degree, then a + (a · W2 + b2), rectified.
-/
import proofs.«408989_j23862838297343_2_alg».proof.Proof.Gen.KernelIdeal.Frame
import proofs.«408989_j23862838297343_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.KVal.SelfLoop

open Idealize.ShloMosaic Idealize.ShloMosaic.TcCoe Idealize.ShloMosaic.ValueIdx Idealize.SL.Sem Cert.KernelIdeal Cert.KernelIdeal.Gen GraphConv

/-! ## One element of the result, for a table of any height

The same row-by-row function describes a block of 5000 rows and the whole table of 50000 rows. -/

/-- Row r, column q of the normalised sum: the gathered sum plus the projected edge sum plus degree times the first
    bias, all times the inverse degree. -/
def agg {n : ℕ} (gs efp : (⟨2, ![n, 128]⟩ : Shape).Idx → EReal) (dg inv : (⟨2, ![n, 1]⟩ : Shape).Idx → EReal)
    (b1r : RowT) (r : Fin n) (q : Fin 128) : EReal :=
  ((gs (ix2 r q) + efp (ix2 r q)) + dg (ix2 r 0) * b1r (ix2 0 q)) * inv (ix2 r 0)

/-- The shared tail at one element: a + (a · W2 + b2), rectified. -/
def tail {n : ℕ} (a : Fin n → Fin 128 → EReal) (W2 : W2T) (b2r : RowT) (r : Fin n) (q : Fin 128) : EReal :=
  lrelu (a r q + ((∑ k : Fin 128, a r k * W2 (ix2 k q)) + b2r (ix2 0 q)))

/-- The whole-table function at an element is that tail of that sum. -/
theorem selfloopRows_apply (gs efp : NodeT) (dg inv : ColT) (b1r : RowT) (W2 : W2T) (b2r : RowT)
    (r : Fin 50000) (q : Fin 128) :
    selfloopRows gs efp dg inv b1r W2 b2r (ix2 r q) = tail (agg gs efp dg inv b1r) W2 b2r r q := rfl

/-! ## The body's operations read at an element -/

/-- A column [a, 1] laid along b columns reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left index keeps the output's row … -/
theorem mm_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and runs along the contracted column; -/
theorem mm_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right index runs along the contracted row … -/
theorem mm_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
theorem mm_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Block rows times the square matrix, accumulated into zeros, at (r, q): the sum over k of a(r, k) · w(k, q). -/
theorem mm_apply (a : FVec Ideal S5000x128 .f32) (w : FVec Ideal S128x128 .f32) (r : Fin 5000) (q : Fin 128) :
    matmul dot_S5000x128_S128x128_S5000x128_1_0_0_1_n_n none a w (constant (F := Ideal) S5000x128 .f32 0x00000000#32) (ix2 r q)
      = ∑ k : Fin 128, a (ix2 r k) * w (ix2 k q) := by
  show FloatOps.matmul dot_S5000x128_S128x128_S5000x128_1_0_0_1_n_n none a w (constant (F := Ideal) S5000x128 .f32 0x00000000#32) (ix2 r q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

/-- The vector the body multiplies by W2, read at (r, k): the normalised sum of the loaded blocks there. -/
theorem aggVec_apply (x0 x1 : FVec Ideal S5000x128 .f32) (dg inv : FVec Ideal S5000x1 .f32) (b1r : FVec Ideal S1x128 .f32)
    (r : Fin 5000) (k : Fin 128) :
    mulf (F := Ideal) (addf (addf x0 x1) (mulf (broadcastTo S5000x128 dg broadcasts_S5000x1_S5000x128)
        (broadcastTo S5000x128 b1r broadcasts_S1x128_S5000x128)))
      (broadcastTo S5000x128 inv broadcasts_S5000x1_S5000x128) (ix2 r k) = agg x0 x1 dg inv b1r r k := by
  rw [mulf_apply, addf_apply, addf_apply, mulf_apply, broadcastTo_a1_ab_apply, broadcastTo_1b_ab_apply,
    broadcastTo_a1_ab_apply]
  rfl

/-- THE BODY AT AN ELEMENT: what a self-loop call stores at row r, column q of its block is the tail of the
    normalised sum of the blocks it loaded. -/
theorem pay1_apply (x0 x1 : Vec Ideal S5000x128 .f32) (dg inv : Vec Ideal S5000x1 .f32) (b1r b2r : Vec Ideal S1x128 .f32)
    (w : Vec Ideal S128x128 .f32) (r : Fin 5000) (q : Fin 128) :
    k1_pay1 (F := Ideal) x0 x1 dg b1r inv w b2r (ix2 r q) = tail (agg x0 x1 dg inv b1r) w b2r r q := by
  have h0 : (FloatOps.ofBits (F := Ideal) FTy.f32 0x00000000#32) = (0 : EReal) := Ideal.ofBits_zero_f32
  unfold k1_pay1
  simp only [shapeCast_self]
  rw [select_apply, cmpf_apply, mulf_apply, broadcast_apply, broadcast_apply, addf_apply, addf_apply,
    broadcastTo_1b_ab_apply, mm_apply]
  simp only [aggVec_apply]
  rw [h0]
  rfl

/-! ## The tail of a row depends only on that row's entries -/

/-- Two settings of the seven tables that agree on row r of the one and row R of the other (and in the bias rows and
    the square matrix) give the same element there. -/
theorem tail_agg_congr {n m : ℕ} (x0 x1 : (⟨2, ![n, 128]⟩ : Shape).Idx → EReal) (xd xi : (⟨2, ![n, 1]⟩ : Shape).Idx → EReal)
    (xb1 : RowT) (xw : W2T) (xb2 : RowT)
    (A0 A1 : (⟨2, ![m, 128]⟩ : Shape).Idx → EReal) (Ad Ai : (⟨2, ![m, 1]⟩ : Shape).Idx → EReal)
    (Ab1 : RowT) (Aw : W2T) (Ab2 : RowT) (r : Fin n) (R : Fin m) (q : Fin 128)
    (h0 : ∀ k, x0 (ix2 r k) = A0 (ix2 R k)) (h1 : ∀ k, x1 (ix2 r k) = A1 (ix2 R k))
    (hd : xd (ix2 r 0) = Ad (ix2 R 0)) (hi : xi (ix2 r 0) = Ai (ix2 R 0))
    (hb1 : xb1 = Ab1) (hw : xw = Aw) (hb2 : xb2 = Ab2) :
    tail (agg x0 x1 xd xi xb1) xw xb2 r q = tail (agg A0 A1 Ad Ai Ab1) Aw Ab2 R q := by
  subst hb1 hw hb2
  unfold tail agg
  simp only [h0, h1, hd, hi]

theorem hz : (![0, 0] : Fin 2 → Nat) = fun _ => 0 := funext fun a => by fin_cases a <;> rfl

variable (V : (c : Dev nD) → (b : Ref sig .tc) → Buf (Elt Ideal) ((c : Thread nD τ).loc b))

/-! ## The first self-loop call: from blocks to the table -/

/-- Row r of grid point t's block is row 5000·t + r of the table. -/
def row1 (t : Fin cfg1.N) (r : Fin 5000) : Fin 50000 :=
  ⟨t.val * 5000 + r.val, by have h : t.val < grid1.N := t.isLt; rw [N_1] at h; have := r.isLt; omega⟩

/-- The index maps, decided over the ten points: the four row-blocked inputs and the output sit at block row t, the
    two bias rows and the square matrix at their one block. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- The gathered sums' block at point t, at (r, k), is the table at (5000·t + r, k). -/
theorem blk1_0 (c : Dev nD) (t : Fin cfg1.N) (r : Fin 5000) (k : Fin 128) :
    (iblk1 V c 0 t : Vec Ideal S5000x128 .f32) (ix2 r k) = (V c (Pipeline.arrRef spec1 0) : NodeT) (ix2 (row1 t r) k) := by
  obtain ⟨⟨e0, e1⟩, -⟩ := idx1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- The projected edge sums' block likewise. -/
theorem blk1_1 (c : Dev nD) (t : Fin cfg1.N) (r : Fin 5000) (k : Fin 128) :
    (iblk1 V c 1 t : Vec Ideal S5000x128 .f32) (ix2 r k) = (V c (Pipeline.arrRef spec1 1) : NodeT) (ix2 (row1 t r) k) := by
  obtain ⟨-, ⟨e0, e1⟩, -⟩ := idx1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * r.val = t.val * 5000 + r.val; rw [e0]; omega
  | ⟨1, _⟩ => show win1_1.index t (1 : Fin 2) * 128 + 1 * k.val = k.val; rw [e1]; omega

/-- The degree column's block at point t, in row r, is the column in row 5000·t + r. -/
theorem blk1_2 (c : Dev nD) (t : Fin cfg1.N) (r : Fin 5000) :
    (iblk1 V c 2 t : Vec Ideal S5000x1 .f32) (ix2 r 0) = (V c (Pipeline.arrRef spec1 2) : ColT) (ix2 (row1 t r) 0) := by
  obtain ⟨-, -, ⟨e0, e1⟩, -⟩ := idx1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 5000 + 1 * r.val = t.val * 5000 + r.val; rw [e0]; omega
  | ⟨1, _⟩ => show win1_2.index t (1 : Fin 2) * 1 + 1 * 0 = 0; rw [e1]

/-- The inverse-degree column's block likewise. -/
theorem blk1_3 (c : Dev nD) (t : Fin cfg1.N) (r : Fin 5000) :
    (iblk1 V c 3 t : Vec Ideal S5000x1 .f32) (ix2 r 0) = (V c (Pipeline.arrRef spec1 3) : ColT) (ix2 (row1 t r) 0) := by
  obtain ⟨-, -, -, ⟨e0, e1⟩, -⟩ := idx1 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 5000 + 1 * r.val = t.val * 5000 + r.val; rw [e0]; omega
  | ⟨1, _⟩ => show win1_3.index t (1 : Fin 2) * 1 + 1 * 0 = 0; rw [e1]

/-- The first bias row's one block is the whole row … -/
theorem blk1_4 (c : Dev nD) (t : Fin cfg1.N) :
    (iblk1 V c 4 t : Vec Ideal S1x128 .f32) = (V c (Pipeline.arrRef spec1 4) : RowT) := by
  obtain ⟨-, -, -, -, ⟨e0, e1⟩, -⟩ := idx1 t
  funext y
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- … the square matrix's one block the whole matrix … -/
theorem blk1_5 (c : Dev nD) (t : Fin cfg1.N) :
    (iblk1 V c 5 t : Vec Ideal S128x128 .f32) = (V c (Pipeline.arrRef spec1 5) : W2T) := by
  obtain ⟨-, -, -, -, -, ⟨e0, e1⟩, -⟩ := idx1 t
  funext y
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- … and the second bias row's the whole row. -/
theorem blk1_6 (c : Dev nD) (t : Fin cfg1.N) :
    (iblk1 V c 6 t : Vec Ideal S1x128 .f32) = (V c (Pipeline.arrRef spec1 6) : RowT) := by
  obtain ⟨-, -, -, -, -, -, ⟨e0, e1⟩, -⟩ := idx1 t
  funext y
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- The table the first self-loop call leaves, as the row-by-row function of the seven tables it finds. -/
abbrev G1 (c : Dev nD) : NodeT :=
  selfloopRows (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6))

/-- An element of the output's block at point t sits in the table at (5000·t + r, q). -/
theorem emb1_7 (t : Fin cfg1.N) (r : Fin 5000) (q : Fin 128) :
    ((cfg1.win 7).blk t).view.emb (ix2 r q : S5000x128.Idx) = (ix2 (row1 t r) q : S50000x128.Idx) := by
  obtain ⟨-, -, -, -, -, -, -, ⟨e0, e1⟩⟩ := idx1 t
  funext a
  apply Fin.ext
  match a with
  | ⟨0, _⟩ => show win1_7.index t (0 : Fin 2) * 5000 + 1 * r.val = t.val * 5000 + r.val; rw [e0]; omega
  | ⟨1, _⟩ => show win1_7.index t (1 : Fin 2) * 128 + 1 * q.val = q.val; rw [e1]; omega

/-- WHAT POINT t WRITES BACK is block t of that table. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S5000x1) hz,
    View.ld_unit_zero (S := S1x128) hz, View.ld_unit_zero (S := S128x128) hz]
  funext j
  obtain ⟨r, q, rfl⟩ : ∃ (r : Fin 5000) (q : Fin 128), j = (ix2 r q : S5000x128.Idx) := ⟨j 0, j 1, eq_ix2 j⟩
  show k1_pay1 (F := Ideal) (iblk1 V c 0 t) (iblk1 V c 1 t) (iblk1 V c 2 t) (iblk1 V c 4 t) (iblk1 V c 3 t)
      (iblk1 V c 5 t) (iblk1 V c 6 t) (ix2 r q) = G1 V c (((cfg1.win 7).blk t).view.emb (ix2 r q : S5000x128.Idx))
  rw [emb1_7 t r q]
  refine (pay1_apply (iblk1 V c 0 t) (iblk1 V c 1 t) (iblk1 V c 2 t) (iblk1 V c 3 t) (iblk1 V c 4 t) (iblk1 V c 6 t)
    (iblk1 V c 5 t) r q).trans ?_
  refine (tail_agg_congr _ _ _ _ _ _ _ _ _ _ _ _ _ _ r (row1 t r) q (blk1_0 V c t r) (blk1_1 V c t r) (blk1_2 V c t r)
    (blk1_3 V c t r) (blk1_4 V c t) (blk1_5 V c t) (blk1_6 V c t)).trans ?_
  exact (selfloopRows_apply _ _ _ _ _ _ _ (row1 t r) q).symm

/-- An index of the table is in point t's block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v22).slice (win1_7.rect t)).set ↔ _
  rw [View.set_slice_whole, Rect.mem_set_unit]
  exact Iff.rfl

/-- Every row of the table is in some point's block: row R in point R / 5000's. -/
theorem cover1 (i : S50000x128.Idx) :
    ∃ t : Fin cfg1.N, (cfg1.win 7).flush t = true ∧ i ∈ ((cfg1.win 7).blk t).view.set := by
  have h0 : (i 0).val < 50000 := idx2_lt0 i
  have h1 : (i 1).val < 128 := idx2_lt1 i
  let t : Fin cfg1.N := ⟨(i 0).val / 5000, by show (i 0).val / 5000 < grid1.N; rw [N_1]; omega⟩
  obtain ⟨-, -, -, -, -, -, -, ⟨e0, e1⟩⟩ := idx1 t
  refine ⟨t, flush1_7 t, ?_⟩
  rw [mem_blk1]
  intro a
  match a with
  | ⟨0, _⟩ =>
    show win1_7.index t (0 : Fin 2) * 5000 ≤ (i 0).val ∧ (i 0).val < win1_7.index t (0 : Fin 2) * 5000 + 5000
    rw [e0]; show (i 0).val / 5000 * 5000 ≤ (i 0).val ∧ (i 0).val < (i 0).val / 5000 * 5000 + 5000; omega
  | ⟨1, _⟩ =>
    show win1_7.index t (1 : Fin 2) * 128 ≤ (i 1).val ∧ (i 1).val < win1_7.index t (1 : Fin 2) * 128 + 128
    rw [e1]; omega

/-- The second self-loop call's body is, operation for operation, the first's, so it stores the same function of
    the blocks it loaded. -/
theorem pay3_apply (x0 x1 : Vec Ideal S5000x128 .f32) (dg inv : Vec Ideal S5000x1 .f32) (b1r b2r : Vec Ideal S1x128 .f32)
    (w : Vec Ideal S128x128 .f32) (r : Fin 5000) (q : Fin 128) :
    k3_pay1 (F := Ideal) x0 x1 dg b1r inv w b2r (ix2 r q) = tail (agg x0 x1 dg inv b1r) w b2r r q :=
  pay1_apply x0 x1 dg inv b1r b2r w r q

/-! ## The second self-loop call: from blocks to the table -/

/-- Row r of grid point t's block is row 5000·t + r of the table. -/
def row3 (t : Fin cfg3.N) (r : Fin 5000) : Fin 50000 :=
  ⟨t.val * 5000 + r.val, by have h : t.val < grid3.N := t.isLt; rw [N_3] at h; have := r.isLt; omega⟩

/-- The index maps, decided over the ten points: the four row-blocked inputs and the output sit at block row t, the
    two bias rows and the square matrix at their one block. -/
theorem idx3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

/-- The gathered sums' block at point t, at (r, k), is the table at (5000·t + r, k). -/
theorem blk3_0 (c : Dev nD) (t : Fin cfg3.N) (r : Fin 5000) (k : Fin 128) :
    (iblk3 V c 0 t : Vec Ideal S5000x128 .f32) (ix2 r k) = (V c (Pipeline.arrRef spec3 0) : NodeT) (ix2 (row3 t r) k) := by
  obtain ⟨⟨e0, e1⟩, -⟩ := idx3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * r.val = t.val * 5000 + r.val; rw [e0]; omega
  | ⟨1, _⟩ => show win3_0.index t (1 : Fin 2) * 128 + 1 * k.val = k.val; rw [e1]; omega

/-- The projected edge sums' block likewise. -/
theorem blk3_1 (c : Dev nD) (t : Fin cfg3.N) (r : Fin 5000) (k : Fin 128) :
    (iblk3 V c 1 t : Vec Ideal S5000x128 .f32) (ix2 r k) = (V c (Pipeline.arrRef spec3 1) : NodeT) (ix2 (row3 t r) k) := by
  obtain ⟨-, ⟨e0, e1⟩, -⟩ := idx3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * r.val = t.val * 5000 + r.val; rw [e0]; omega
  | ⟨1, _⟩ => show win3_1.index t (1 : Fin 2) * 128 + 1 * k.val = k.val; rw [e1]; omega

/-- The degree column's block at point t, in row r, is the column in row 5000·t + r. -/
theorem blk3_2 (c : Dev nD) (t : Fin cfg3.N) (r : Fin 5000) :
    (iblk3 V c 2 t : Vec Ideal S5000x1 .f32) (ix2 r 0) = (V c (Pipeline.arrRef spec3 2) : ColT) (ix2 (row3 t r) 0) := by
  obtain ⟨-, -, ⟨e0, e1⟩, -⟩ := idx3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 5000 + 1 * r.val = t.val * 5000 + r.val; rw [e0]; omega
  | ⟨1, _⟩ => show win3_2.index t (1 : Fin 2) * 1 + 1 * 0 = 0; rw [e1]

/-- The inverse-degree column's block likewise. -/
theorem blk3_3 (c : Dev nD) (t : Fin cfg3.N) (r : Fin 5000) :
    (iblk3 V c 3 t : Vec Ideal S5000x1 .f32) (ix2 r 0) = (V c (Pipeline.arrRef spec3 3) : ColT) (ix2 (row3 t r) 0) := by
  obtain ⟨-, -, -, ⟨e0, e1⟩, -⟩ := idx3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 5000 + 1 * r.val = t.val * 5000 + r.val; rw [e0]; omega
  | ⟨1, _⟩ => show win3_3.index t (1 : Fin 2) * 1 + 1 * 0 = 0; rw [e1]

/-- The first bias row's one block is the whole row … -/
theorem blk3_4 (c : Dev nD) (t : Fin cfg3.N) :
    (iblk3 V c 4 t : Vec Ideal S1x128 .f32) = (V c (Pipeline.arrRef spec3 4) : RowT) := by
  obtain ⟨-, -, -, -, ⟨e0, e1⟩, -⟩ := idx3 t
  funext y
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- … the square matrix's one block the whole matrix … -/
theorem blk3_5 (c : Dev nD) (t : Fin cfg3.N) :
    (iblk3 V c 5 t : Vec Ideal S128x128 .f32) = (V c (Pipeline.arrRef spec3 5) : W2T) := by
  obtain ⟨-, -, -, -, -, ⟨e0, e1⟩, -⟩ := idx3 t
  funext y
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 128 + 1 * (y 0).val = (y 0).val; rw [e0]; omega
  | ⟨1, _⟩ => show win3_5.index t (1 : Fin 2) * 128 + 1 * (y 1).val = (y 1).val; rw [e1]; omega

/-- … and the second bias row's the whole row. -/
theorem blk3_6 (c : Dev nD) (t : Fin cfg3.N) :
    (iblk3 V c 6 t : Vec Ideal S1x128 .f32) = (V c (Pipeline.arrRef spec3 6) : RowT) := by
  obtain ⟨-, -, -, -, -, -, ⟨e0, e1⟩, -⟩ := idx3 t
  funext y
  unfold iblk3
  rw [View.read_apply]
  show V c (Pipeline.arrRef spec3 6) _ = V c (Pipeline.arrRef spec3 6) _
  congr 1
  funext a
  apply Fin.ext
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

/-- The table the second self-loop call leaves, as the row-by-row function of the seven tables it finds. -/
abbrev G3 (c : Dev nD) : NodeT :=
  selfloopRows (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6))

/-- An element of the output's block at point t sits in the table at (5000·t + r, q). -/
theorem emb3_7 (t : Fin cfg3.N) (r : Fin 5000) (q : Fin 128) :
    ((cfg3.win 7).blk t).view.emb (ix2 r q : S5000x128.Idx) = (ix2 (row3 t r) q : S50000x128.Idx) := by
  obtain ⟨-, -, -, -, -, -, -, ⟨e0, e1⟩⟩ := idx3 t
  funext a
  apply Fin.ext
  match a with
  | ⟨0, _⟩ => show win3_7.index t (0 : Fin 2) * 5000 + 1 * r.val = t.val * 5000 + r.val; rw [e0]; omega
  | ⟨1, _⟩ => show win3_7.index t (1 : Fin 2) * 128 + 1 * q.val = q.val; rw [e1]; omega

/-- WHAT POINT t WRITES BACK is block t of that table. -/
theorem flushed3_eq (c : Dev nD) (t : Fin cfg3.N) :
    (dat3 V c).flushed 7 t = ((cfg3.win 7).blk t).view.read (Elt Ideal) (G3 V c) := by
  show (cfg3.win 7).cut (grid3.coords t) ((dat3 V c).after 7 t) = _
  rw [after3_7]
  unfold out3_7
  rw [View.canon_unit_zero hz]
  simp only [View.ld_unit_zero (S := S5000x128) hz, View.ld_unit_zero (S := S5000x1) hz,
    View.ld_unit_zero (S := S1x128) hz, View.ld_unit_zero (S := S128x128) hz]
  funext j
  obtain ⟨r, q, rfl⟩ : ∃ (r : Fin 5000) (q : Fin 128), j = (ix2 r q : S5000x128.Idx) := ⟨j 0, j 1, eq_ix2 j⟩
  show k3_pay1 (F := Ideal) (iblk3 V c 0 t) (iblk3 V c 1 t) (iblk3 V c 2 t) (iblk3 V c 4 t) (iblk3 V c 3 t)
      (iblk3 V c 5 t) (iblk3 V c 6 t) (ix2 r q) = G3 V c (((cfg3.win 7).blk t).view.emb (ix2 r q : S5000x128.Idx))
  rw [emb3_7 t r q]
  refine (pay3_apply (iblk3 V c 0 t) (iblk3 V c 1 t) (iblk3 V c 2 t) (iblk3 V c 3 t) (iblk3 V c 4 t) (iblk3 V c 6 t)
    (iblk3 V c 5 t) r q).trans ?_
  refine (tail_agg_congr _ _ _ _ _ _ _ _ _ _ _ _ _ _ r (row3 t r) q (blk3_0 V c t r) (blk3_1 V c t r) (blk3_2 V c t r)
    (blk3_3 V c t r) (blk3_4 V c t) (blk3_5 V c t) (blk3_6 V c t)).trans ?_
  exact (selfloopRows_apply _ _ _ _ _ _ _ (row3 t r) q).symm

/-- An index of the table is in point t's block iff each coordinate is in the block's range on its axis. -/
theorem mem_blk3 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v34).slice (win3_7.rect t)).set ↔ _
  rw [View.set_slice_whole, Rect.mem_set_unit]
  exact Iff.rfl

/-- Every row of the table is in some point's block: row R in point R / 5000's. -/
theorem cover3 (i : S50000x128.Idx) :
    ∃ t : Fin cfg3.N, (cfg3.win 7).flush t = true ∧ i ∈ ((cfg3.win 7).blk t).view.set := by
  have h0 : (i 0).val < 50000 := idx2_lt0 i
  have h1 : (i 1).val < 128 := idx2_lt1 i
  let t : Fin cfg3.N := ⟨(i 0).val / 5000, by show (i 0).val / 5000 < grid3.N; rw [N_3]; omega⟩
  obtain ⟨-, -, -, -, -, -, -, ⟨e0, e1⟩⟩ := idx3 t
  refine ⟨t, flush3_7 t, ?_⟩
  rw [mem_blk3]
  intro a
  match a with
  | ⟨0, _⟩ =>
    show win3_7.index t (0 : Fin 2) * 5000 ≤ (i 0).val ∧ (i 0).val < win3_7.index t (0 : Fin 2) * 5000 + 5000
    rw [e0]; show (i 0).val / 5000 * 5000 ≤ (i 0).val ∧ (i 0).val < (i 0).val / 5000 * 5000 + 5000; omega
  | ⟨1, _⟩ =>
    show win3_7.index t (1 : Fin 2) * 128 ≤ (i 1).val ∧ (i 1).val < win3_7.index t (1 : Fin 2) * 128 + 128
    rw [e1]; omega

end Cert.KernelIdeal.KVal.SelfLoop

namespace Cert.KernelIdeal.KVal

open Idealize.ShloMosaic Idealize.ShloMosaic.TcCoe Idealize.ShloMosaic.ValueIdx Idealize.SL.Sem Cert.KernelIdeal Cert.KernelIdeal.Gen GraphConv
variable (V : (c : Dev nD) → (b : Ref sig .tc) → Buf (Elt Ideal) ((c : Thread nD τ).loc b))

theorem reg1_out7 (c : Dev nD) :
    (dat1 V c).arrAt 7 cfg1.N = selfloopRows (V c (Pipeline.arrRef spec1 0)) (V c (Pipeline.arrRef spec1 1))
      (V c (Pipeline.arrRef spec1 2)) (V c (Pipeline.arrRef spec1 3)) (V c (Pipeline.arrRef spec1 4))
      (V c (Pipeline.arrRef spec1 5)) (V c (Pipeline.arrRef spec1 6)) :=
  (dat1 V c).arrAt_eq_of_cover 7 (SelfLoop.G1 V c) (fun t _ => SelfLoop.flushed1_eq V c t) SelfLoop.cover1

theorem reg3_out7 (c : Dev nD) :
    (dat3 V c).arrAt 7 cfg3.N = selfloopRows (V c (Pipeline.arrRef spec3 0)) (V c (Pipeline.arrRef spec3 1))
      (V c (Pipeline.arrRef spec3 2)) (V c (Pipeline.arrRef spec3 3)) (V c (Pipeline.arrRef spec3 4))
      (V c (Pipeline.arrRef spec3 5)) (V c (Pipeline.arrRef spec3 6)) :=
  (dat3 V c).arrAt_eq_of_cover 7 (SelfLoop.G3 V c) (fun t _ => SelfLoop.flushed3_eq V c t) SelfLoop.cover3

end Cert.KernelIdeal.KVal

end
-- ==== Proof.Layout.lean ====
/-
  Small facts about the tables' layouts, shared by the stages of the kernel's value: the two literal words the host
  programs use (one, and the pattern read as ⊥), a bias as a row, a vector as a column, and 128 consecutive rows of a
  taller weight matrix as a square one.
-/
import proofs.«408989_j23862838297343_2_alg».proof.Proof.Spec
import Idealize.ShloMosaic.Lib.Pipeline.Value
import Idealize.ShloMosaic.PureOps.Ideal.Laws

noncomputable section

namespace GraphConv

open Idealize.ShloMosaic Idealize.ShloMosaic.ValueIdx

/-- The word 0x3F800000 is the real number one. -/
theorem ofBits_one : Ideal.ofBits .f32 0x3F800000#32 = 1 := by
  -- sign +, exponent field 127, fraction field 0: the value is 2 ^ 23 · 2 ^ (127 - 127 - 23)
  simp [Ideal.ofBits, Ideal.ieee]
  rw [← EReal.coe_mul, ← EReal.coe_one, EReal.coe_eq_coe_iff]
  norm_num

/-- The word 0x7FC00000 (a quiet NaN pattern) reads as ⊥. -/
theorem ofBits_nan : Ideal.ofBits .f32 0x7FC00000#32 = ⊥ := by
  simp [Ideal.ofBits, Ideal.ieee]

/-- A vector of 128 entries reshaped to a row [1, 128]: entry (0, q) is entry q. -/
theorem row_of_vec {α : Type} (h : (⟨1, ![128]⟩ : Shape).ShapeCasts ⟨2, ![1, 128]⟩)
    (b : (⟨1, ![128]⟩ : Shape).Idx → α) (q : Fin 128) :
    shapeCast ⟨2, ![1, 128]⟩ b h (ix2 0 q) = b (ix1 q) := by
  -- both indices sit at row-major position q: 0 · 128 + q on the row's side
  refine shapeCast_apply b h (ix2 0 q) (ix1 q) ?_
  rw [Shape.rowMajor_val_one, Shape.rowMajor_val_two]
  show q.val = 0 * 128 + q.val
  omega

/-- A vector of 50000 entries reshaped to a column [50000, 1]: entry (r, 0) is entry r. -/
theorem col_of_vec {α : Type} (h : (⟨1, ![50000]⟩ : Shape).ShapeCasts ⟨2, ![50000, 1]⟩)
    (v : (⟨1, ![50000]⟩ : Shape).Idx → α) (r : Fin 50000) :
    shapeCast ⟨2, ![50000, 1]⟩ v h (ix2 r 0) = v (ix1 r) := by
  -- both indices sit at row-major position r: r · 1 + 0 on the column's side
  refine shapeCast_apply v h (ix2 r 0) (ix1 r) ?_
  rw [Shape.rowMajor_val_one, Shape.rowMajor_val_two]
  show r.val = r.val * 1 + 0
  omega

/-- The unit-stride slice of 128 rows at row off of a weight matrix [R, 128] is those rows as a square matrix. -/
theorem slice_eq_rows128 {R : Nat} (off : Nat) (hR : off + 128 ≤ R)
    (h : (⟨2, ![R, 128]⟩ : Shape).Slices ![off, 0] ⟨2, ![128, 128]⟩)
    (W : (⟨2, ![R, 128]⟩ : Shape).Idx → EReal) :
    extractStridedSlice ⟨2, ![128, 128]⟩ ![off, 0] W h = rows128 off hR W := by
  -- entry (p, q) of the slice is entry (off + p, 0 + q) of the matrix, which is how the square matrix is defined
  funext j
  unfold rows128
  refine extractStridedSlice_apply ![off, 0] W h j _ fun a => ?_
  match a with
  | ⟨0, _⟩ => rfl
  | ⟨1, _⟩ => show (j 1).val = 0 + (j 1).val; omega

end GraphConv

end
-- ==== Proof.KStage1.lean ====
/-
  The buffers after the first gather-and-sum stretch and the first self-loop call: the first layer's output table,
  and what later stretches still read (degrees, inverse degrees, summed edge features, arguments).

  Between the first projection call and the first self-loop call the host takes, for every edge, the row of the
  projected node table its source word names (a negative word first moved up by the table's height, the row clamped
  into the table, and ⊥ written where the moved word is no row of the table), and adds the taken rows up per
  destination node. The self-loop call then adds the projected edge-feature sums and the in-degree times the first
  bias, scales by the inverse clamped degree, and applies the shared tail: term for term the kernel's layer.
-/
import proofs.«408989_j23862838297343_2_alg».proof.Proof.KStage0
import proofs.«408989_j23862838297343_2_alg».proof.Proof.KRegSL
import proofs.«408989_j23862838297343_2_alg».proof.Proof.Layout
import Idealize.ShloMosaic.PureOps.Reduce
import Idealize.ShloMosaic.Lib.Pipeline.Value

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen GraphConv
variable (m : (ℓ : Loc nD τ sig) → Buf (Elt Ideal) ℓ) (ρ : Dev nD → PrngReg)

/-! ## The gather stretch, read at an index

The stretch moves each negative source word up by the table's height, gathers the table's rows at the moved words
(clamped into the table), and keeps a gathered row only where the moved word is a row of the table; elsewhere it writes
the pattern 0x7FC00000, which the extended reals read as ⊥. -/

/-- The source words, the negative ones moved up by the table's height. -/
def wrapVec (src : EdgeW) : EdgeW :=
  select (cmpi .slt src (broadcastInDim S640000 ![] bcast_S_S640000 (constantI S_ 32 0#32)))
    (addi src (broadcastInDim S640000 ![] bcast_S_S640000 (constantI S_ 32 50000#32))) src

/-- The same words as a column. -/
def wrapCol (src : EdgeW) : IVec S640000x1 32 :=
  broadcastInDim S640000x1 ![0] bcast_S640000_S640000x1_0 (wrapVec src)

/-- Per edge, the bit "the moved word is a row of the table": the conjunction over the column's one entry. -/
def inbVec (src : EdgeW) : IVec S640000 1 :=
  Host.reduce IntOp.andi
    (andi (cmpi .sge (wrapCol src) (broadcastInDim S640000x1 ![] bcast_S_S640000x1 (constantI S_ 32 0#32)))
      (cmpi .sle (wrapCol src) (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- The rows of a node table taken at the source words. -/
def takeRows (x : NodeT) (src : EdgeW) : EdgeT :=
  select (broadcastInDim S640000x128 ![0] bcast_S640000_S640000x128_0 (inbVec src))
    (Host.gather gather_S50000x128_S640000x1_S640000x128_1_0_n_n_0_1_1128 x (wrapCol src))
    (broadcastInDim S640000x128 ![] bcast_S_S640000x128 (constant (F := Ideal) S_ .f32 0x7FC00000#32))

theorem wrapVec_apply (src : EdgeW) (e : Fin 640000) : wrapVec src (ix1 e) = wrapw (src (ix1 e)) := rfl

theorem wrapCol_apply (src : EdgeW) (e : Fin 640000) : wrapCol src (ix2 e 0) = wrapw (src (ix1 e)) := by
  unfold wrapCol
  refine (broadcastInDim_apply _ _ _ (ix2 e 0) (ix1 e) (fun a => ?_)).trans (wrapVec_apply src e)
  match a with
  | ⟨0, _⟩ => rfl

/-- The one source index over edge e in a reduction along the column's unit axis. -/
theorem lift_col (h : S640000x1.Reduces [1] S640000) (e : Fin 640000) (k : Fin (S640000x1.size 1)) :
    h.lift (ix1 e) k = ix2 e 0 := by
  funext c
  refine Fin.ext ?_
  match c with
  | ⟨0, _⟩ => rfl
  | ⟨1, _⟩ =>
    have hk : k.val < 1 := k.isLt
    rw [Shape.Reduces.lift_val]
    show k.val = 0
    omega

theorem inbVec_apply (src : EdgeW) (e : Fin 640000) : inbVec src (ix1 e) = inb (src (ix1 e)) := by
  have hR : S640000x1.Reduces [1] S640000 := by decide
  haveI : Unique (Fin (S640000x1.size 1)) := (inferInstance : Unique (Fin 1))
  unfold inbVec
  rw [Host.reduce_eq_fold_single IntOp.andi _ _ reducesTo_S640000x1_S640000_d1 hR h_S_ (ix1 e), Finset.univ_unique,
    Finset.fold_singleton, Function.comp_apply, lift_col]
  show IntOp.andi (IntOp.andi (IntOp.cmpi .sge (wrapCol src (ix2 e 0)) 0#32)
    (IntOp.cmpi .sle (wrapCol src (ix2 e 0)) 49999#32)) 1#1 = _
  rw [wrapCol_apply]
  unfold inb
  generalize IntOp.andi (IntOp.cmpi .sge (wrapw (src (ix1 e))) 0#32) (IntOp.cmpi .sle (wrapw (src (ix1 e))) 49999#32) = b
  rcases BitVec.eq_zero_or_eq_one b with h | h <;> subst h <;> decide

/-- Entry (e, j) of the taken rows: the table's row the edge reads where its moved word is a row of the table, ⊥
    elsewhere. -/
theorem takeRows_apply (x : NodeT) (src : EdgeW) (e : Fin 640000) (j : Fin 128) :
    takeRows x src (ix2 e j) = gathered x src e j := by
  unfold takeRows gathered
  rw [select_apply]
  have h1 : broadcastInDim S640000x128 ![0] bcast_S640000_S640000x128_0 (inbVec src) (ix2 e j) = inb (src (ix1 e)) := by
    refine (broadcastInDim_apply _ _ _ (ix2 e j) (ix1 e) (fun a => ?_)).trans (inbVec_apply src e)
    match a with
    | ⟨0, _⟩ => rfl
  have h2 : Host.gather gather_S50000x128_S640000x1_S640000x128_1_0_n_n_0_1_1128 x (wrapCol src) (ix2 e j)
      = x (ix2 (srow src e) j) :=
    gather_rows gather_S50000x128_S640000x1_S640000x128_1_0_n_n_0_1_1128 rfl rfl rfl rfl rfl rfl rfl
      bcast_S640000_S640000x1_0 x (wrapVec src) e j
  have h3 : broadcastInDim S640000x128 ![] bcast_S_S640000x128 (constant (F := Ideal) S_ .f32 0x7FC00000#32) (ix2 e j)
      = (⊥ : EReal) := ofBits_nan
  rw [h1, h2, h3]

/-! ## The self-loop call's row function on the kernel's summands -/

/-- With the gathered-and-summed rows, the in-degrees and their clamped inverses as columns, and the two biases as
    rows, the self-loop call's row function is the kernel's layer. -/
theorem selfloopRows_eq_kerLayer (h : NodeT) (ef : EdgeT) (src dst : EdgeW) (W1 : W1T) (b1 : BiasT) (W2 : W2T)
    (b2 : BiasT) (gs : NodeT) (dg inv : ColT) (b1r b2r : RowT)
    (hgs : ∀ (r : Fin 50000) (q : Fin 128), gs (ix2 r q) = seg dst (fun e => gathered (hproj h W1) src e q) r)
    (hdg : ∀ r : Fin 50000, dg (ix2 r 0) = deg dst r)
    (hinv : ∀ r : Fin 50000, inv (ix2 r 0) = Ideal.div 1 (degc dst r))
    (hb1 : ∀ q : Fin 128, b1r (ix2 0 q) = b1 (ix1 q)) (hb2 : ∀ q : Fin 128, b2r (ix2 0 q) = b2 (ix1 q)) :
    selfloopRows gs (efproj (efagg ef dst) W1) dg inv b1r W2 b2r = kerLayer h ef src dst W1 b1 W2 b2 := by
  have ha : (fun (r : Fin 50000) (q : Fin 128) =>
      ((gs (ix2 r q) + efproj (efagg ef dst) W1 (ix2 r q)) + dg (ix2 r 0) * b1r (ix2 0 q)) * inv (ix2 r 0))
      = kerAgg h ef src dst W1 b1 := by
    funext r q
    unfold kerAgg
    rw [hgs, hdg, hinv, hb1]
  have hb : (fun j : (⟨1, ![128]⟩ : Shape).Idx => b2r (ix2 0 (j 0))) = b2 := by
    funext j
    exact (hb2 (j 0)).trans (congrArg b2 (eq_ix1 j).symm)
  unfold selfloopRows kerLayer
  rw [ha, hb]

/-! ## The two host stretches between the first projection call and the first self-loop call -/

/-- The buffers the gather stretch writes. -/
abbrev takeWrites : List (Ref sig .tc) :=
  [main_call0_c, main_call0_v0, main_call0_v1, main_call0_c_0, main_call0_v2, main_call0_v3, main_call0_v4,
    main_call0_v5, main_call0_c_1, main_call0_c_2, main_call0_v6, main_call0_v7, main_call0_v8, main_call0_v9,
    main_call0_v10, main_call0_v11, main_call0_c_3, main_call0_v12, main_call0_v13, main_call0_v14, main_call0_cst,
    main_call0_v15, main_v14]

/-- The buffers the summing stretch writes. -/
abbrev sumWrites : List (Ref sig .tc) :=
  [main_cst_4, main_v15, main_v16, main_v17, main_v18, main_v19, main_v20, main_v21]

theorem hostOps1_writes : (hostOps1 : List (HloOp τ sig (Elt Ideal))).Forall fun op =>
    op.writes ⊆ (takeWrites.map (Proc.devRef (τ := τ) .tc)).toFinset := by
  simp only [hostOps1, List.Forall, StableHlo.nullary_writes, StableHlo.unary_writes, StableHlo.binary_writes,
    StableHlo.ternary_writes, Finset.singleton_subset_iff]
  repeat' apply And.intro
  all_goals exact List.mem_toFinset.mpr (List.mem_map_of_mem (by decide))

theorem hostOps1_1_writes : (hostOps1_1 : List (HloOp τ sig (Elt Ideal))).Forall fun op =>
    op.writes ⊆ (sumWrites.map (Proc.devRef (τ := τ) .tc)).toFinset := by
  simp only [hostOps1_1, List.Forall, StableHlo.nullary_writes, StableHlo.unary_writes, StableHlo.ternary_writes,
    StableHlo.reshape_writes, Finset.singleton_subset_iff]
  repeat' apply And.intro
  all_goals exact List.mem_toFinset.mpr (List.mem_map_of_mem (by decide))

/-- What the gather stretch leaves in its result buffer, from any contents: the rows of the table in the projected
    table's buffer, taken at the words in the source buffer. -/
theorem take_result (U : Valuation τ sig (Elt Ideal)) :
    (StableHlo.after hostOps1 U (Proc.devRef .tc main_v14) : EdgeT)
      = takeRows (U (Proc.devRef .tc main_v13_0)) (U (Proc.devRef .tc main_arg2)) := by
  after_results_simp
  simp only [StableHlo.TRef.ofBuf, StableHlo.TRef.toBuf, cast_cast, cast_eq]
  rfl

/-- What the summing stretch leaves, from any contents: the taken rows added into a zero table at the destination
    words; the two biases as rows; the in-degrees and their inverses as columns. -/
theorem sum_result (U : Valuation τ sig (Elt Ideal)) :
    (StableHlo.after hostOps1_1 U (Proc.devRef .tc main_v17) : NodeT)
      = Host.scatterAdd (F := Ideal) (φ := .f32) scatter_S50000x128_S640000x1_S640000x128_1_0_0_1
          (broadcastInDim S50000x128 ![] bcast_S_S50000x128 (constant (F := Ideal) S_ .f32 0x00000000#32))
          (broadcastInDim S640000x1 ![0] bcast_S640000_S640000x1_0 (U (Proc.devRef .tc main_arg3)))
          (U (Proc.devRef .tc main_v14)) := by
  after_results
theorem b1row_result (U : Valuation τ sig (Elt Ideal)) :
    (StableHlo.after hostOps1_1 U (Proc.devRef .tc main_v18) : RowT)
      = shapeCast S1x128 (U (Proc.devRef .tc main_arg5)) shapeCasts_S128_S1x128 := by
  after_results
  rfl
theorem b2row_result (U : Valuation τ sig (Elt Ideal)) :
    (StableHlo.after hostOps1_1 U (Proc.devRef .tc main_v19) : RowT)
      = shapeCast S1x128 (U (Proc.devRef .tc main_arg7)) shapeCasts_S128_S1x128 := by
  after_results
  rfl
theorem degcol_result (U : Valuation τ sig (Elt Ideal)) :
    (StableHlo.after hostOps1_1 U (Proc.devRef .tc main_v20) : ColT)
      = shapeCast S50000x1 (U (Proc.devRef .tc main_v3)) shapeCasts_S50000_S50000x1 := by
  after_results
  rfl
theorem invcol_result (U : Valuation τ sig (Elt Ideal)) :
    (StableHlo.after hostOps1_1 U (Proc.devRef .tc main_v21) : ColT)
      = shapeCast S50000x1 (U (Proc.devRef .tc main_v7)) shapeCasts_S50000_S50000x1 := by
  after_results
  rfl

/-- A buffer neither stretch writes enters the self-loop call as it left the projection call. -/
theorem W4_of_kept (c : Dev nD) {r : Ref sig .tc} (h1 : r ∉ takeWrites) (h2 : r ∉ sumWrites) :
    W4 m ρ c (Proc.devRef .tc r) = W2 m ρ c (Proc.devRef .tc r) :=
  (StableHlo.after_of_writes_sub hostOps1_1 (W3 m ρ c) hostOps1_1_writes h2).trans
    (StableHlo.after_of_writes_sub hostOps1 (W2 m ρ c) hostOps1_writes h1)

/-- And leaves the self-loop call so too, unless it is one of that call's arrays. -/
theorem W5_of_kept (c : Dev nD) {r : Ref sig .tc} (h1 : r ∉ takeWrites) (h2 : r ∉ sumWrites)
    (h3 : ∀ w, Pipeline.arrRef spec1 w ≠ r) :
    W5 m ρ c (Proc.devRef .tc r) = W2 m ρ c (Proc.devRef .tc r) :=
  (W5_of_ne m ρ c r h3).trans (W4_of_kept m ρ c h1 h2)

/-- The gather stretch's result: the projected table's rows taken at the source words. -/
theorem W3_v14 (c : Dev nD) :
    (W3 m ρ c (Proc.devRef .tc main_v14) : EdgeT) = takeRows (hproj (aX0 m c) (aW1a m c)) (aSrc m c) := by
  exact (take_result (W2 m ρ c)).trans (by rw [W2_v13_0, W2_arg2])

theorem W3_arg3 (c : Dev nD) : W3 m ρ c (Proc.devRef .tc main_arg3) = aDst m c :=
  (StableHlo.after_of_writes_sub hostOps1 (W2 m ρ c) hostOps1_writes (by decide)).trans (W2_arg3 m ρ c)
theorem W3_arg5 (c : Dev nD) : W3 m ρ c (Proc.devRef .tc main_arg5) = ab1a m c :=
  (StableHlo.after_of_writes_sub hostOps1 (W2 m ρ c) hostOps1_writes (by decide)).trans (W2_arg5 m ρ c)
theorem W3_arg7 (c : Dev nD) : W3 m ρ c (Proc.devRef .tc main_arg7) = ab2a m c :=
  (StableHlo.after_of_writes_sub hostOps1 (W2 m ρ c) hostOps1_writes (by decide)).trans (W2_arg7 m ρ c)
theorem W3_v3 (c : Dev nD) : W3 m ρ c (Proc.devRef .tc main_v3) = aDeg m c :=
  (StableHlo.after_of_writes_sub hostOps1 (W2 m ρ c) hostOps1_writes (by decide)).trans (W2_v3 m ρ c)
theorem W3_v7 (c : Dev nD) : W3 m ρ c (Proc.devRef .tc main_v7) = aInv m c :=
  (StableHlo.after_of_writes_sub hostOps1 (W2 m ρ c) hostOps1_writes (by decide)).trans (W2_v7 m ρ c)

/-- The summing stretch's result: per node and column, the sum of the taken rows' entries over the edges landing
    on the node. -/
theorem W4_v17 (c : Dev nD) (r : Fin 50000) (q : Fin 128) :
    (W4 m ρ c (Proc.devRef .tc main_v17) : NodeT) (ix2 r q)
      = seg (aDst m c) (fun e => gathered (hproj (aX0 m c) (aW1a m c)) (aSrc m c) e q) r := by
  have e := sum_result (W3 m ρ c)
  rw [W3_arg3, W3_v14] at e
  rw [show (W4 m ρ c (Proc.devRef .tc main_v17) : NodeT) = _ from e]
  refine (scatterAdd_rows scatter_S50000x128_S640000x1_S640000x128_1_0_0_1 rfl rfl rfl rfl bcast_S640000_S640000x1_0
    _ (aDst m c) _ r q).trans ?_
  have hz : broadcastInDim S50000x128 ![] bcast_S_S50000x128 (constant (F := Ideal) S_ .f32 0x00000000#32) (ix2 r q)
      = (0 : EReal) := Ideal.ofBits_zero_f32
  rw [hz, zero_add]
  exact congrArg (fun u => seg (aDst m c) u r) (funext fun e => takeRows_apply _ _ e q)

/-- The two biases laid out as rows, the in-degrees and their inverses as columns. -/
theorem W4_v18 (c : Dev nD) :
    (W4 m ρ c (Proc.devRef .tc main_v18) : RowT) = shapeCast S1x128 (ab1a m c) shapeCasts_S128_S1x128 := by
  rw [← W3_arg5 m ρ c]
  exact b1row_result (W3 m ρ c)
theorem W4_v19 (c : Dev nD) :
    (W4 m ρ c (Proc.devRef .tc main_v19) : RowT) = shapeCast S1x128 (ab2a m c) shapeCasts_S128_S1x128 := by
  rw [← W3_arg7 m ρ c]
  exact b2row_result (W3 m ρ c)
theorem W4_v20 (c : Dev nD) :
    (W4 m ρ c (Proc.devRef .tc main_v20) : ColT) = shapeCast S50000x1 (aDeg m c) shapeCasts_S50000_S50000x1 := by
  rw [← W3_v3 m ρ c]
  exact degcol_result (W3 m ρ c)
theorem W4_v21 (c : Dev nD) :
    (W4 m ρ c (Proc.devRef .tc main_v21) : ColT) = shapeCast S50000x1 (aInv m c) shapeCasts_S50000_S50000x1 := by
  rw [← W3_v7 m ρ c]
  exact invcol_result (W3 m ρ c)

theorem W4_v13_1 (c : Dev nD) :
    W4 m ρ c (Proc.devRef .tc main_v13_1) = efproj (efagg (aEf m c) (aDst m c)) (aW1a m c) :=
  (W4_of_kept m ρ c (by decide) (by decide)).trans (W2_v13_1 m ρ c)
theorem W4_arg6 (c : Dev nD) : W4 m ρ c (Proc.devRef .tc main_arg6) = aW2a m c :=
  (W4_of_kept m ρ c (by decide) (by decide)).trans (W2_arg6 m ρ c)

/-! ## After the first self-loop call -/

/-- The first layer's output. -/
theorem W5_v22 (c : Dev nD) : W5 m ρ c (Proc.devRef .tc main_v22) = aH1 m c := by
  have hout : W5 m ρ c (Proc.devRef .tc main_v22)
      = selfloopRows (W4 m ρ c (Proc.devRef .tc main_v17)) (W4 m ρ c (Proc.devRef .tc main_v13_1))
          (W4 m ρ c (Proc.devRef .tc main_v20)) (W4 m ρ c (Proc.devRef .tc main_v21))
          (W4 m ρ c (Proc.devRef .tc main_v18)) (W4 m ρ c (Proc.devRef .tc main_arg6))
          (W4 m ρ c (Proc.devRef .tc main_v19)) :=
    (W5_arr m ρ c 7).trans (reg1_out7 (V4 m ρ) c)
  rw [hout, W4_v13_1, W4_v20, W4_v21, W4_v18, W4_arg6, W4_v19]
  exact selfloopRows_eq_kerLayer (aX0 m c) (aEf m c) (aSrc m c) (aDst m c) (aW1a m c) (ab1a m c) (aW2a m c) (ab2a m c)
    _ _ _ _ _ (fun r q => W4_v17 m ρ c r q) (fun r => col_of_vec _ (aDeg m c) r) (fun r => col_of_vec _ (aInv m c) r)
    (fun q => row_of_vec _ (ab1a m c) q) (fun q => row_of_vec _ (ab2a m c) q)

theorem W5_v3 (c : Dev nD) : W5 m ρ c (Proc.devRef .tc main_v3) = aDeg m c :=
  (W5_of_kept m ρ c (by decide) (by decide) (by decide)).trans (W2_v3 m ρ c)
theorem W5_v7 (c : Dev nD) : W5 m ρ c (Proc.devRef .tc main_v7) = aInv m c :=
  (W5_of_kept m ρ c (by decide) (by decide) (by decide)).trans (W2_v7 m ρ c)
theorem W5_v10 (c : Dev nD) : W5 m ρ c (Proc.devRef .tc main_v10) = aEfAgg m c :=
  (W5_of_kept m ρ c (by decide) (by decide) (by decide)).trans (W2_v10 m ρ c)
theorem W5_arg0 (c : Dev nD) : W5 m ρ c (Proc.devRef .tc main_arg0) = m ((c : Thread nD τ).loc main_arg0) :=
  (W5_of_kept m ρ c (by decide) (by decide) (by decide)).trans (W2_arg0 m ρ c)
theorem W5_arg1 (c : Dev nD) : W5 m ρ c (Proc.devRef .tc main_arg1) = m ((c : Thread nD τ).loc main_arg1) :=
  (W5_of_kept m ρ c (by decide) (by decide) (by decide)).trans (W2_arg1 m ρ c)
theorem W5_arg2 (c : Dev nD) : W5 m ρ c (Proc.devRef .tc main_arg2) = m ((c : Thread nD τ).loc main_arg2) :=
  (W5_of_kept m ρ c (by decide) (by decide) (by decide)).trans (W2_arg2 m ρ c)
theorem W5_arg3 (c : Dev nD) : W5 m ρ c (Proc.devRef .tc main_arg3) = m ((c : Thread nD τ).loc main_arg3) :=
  (W5_of_kept m ρ c (by decide) (by decide) (by decide)).trans (W2_arg3 m ρ c)
theorem W5_arg4 (c : Dev nD) : W5 m ρ c (Proc.devRef .tc main_arg4) = m ((c : Thread nD τ).loc main_arg4) :=
  (W5_of_kept m ρ c (by decide) (by decide) (by decide)).trans (W2_arg4 m ρ c)
theorem W5_arg5 (c : Dev nD) : W5 m ρ c (Proc.devRef .tc main_arg5) = m ((c : Thread nD τ).loc main_arg5) :=
  (W5_of_kept m ρ c (by decide) (by decide) (by decide)).trans (W2_arg5 m ρ c)
/-- The second weight matrix is an input array of the self-loop call, which leaves it as entered. -/
theorem W5_arg6 (c : Dev nD) : W5 m ρ c (Proc.devRef .tc main_arg6) = m ((c : Thread nD τ).loc main_arg6) :=
  ((W5_arr m ρ c 5).trans (((dat1 (V4 m ρ) c).arrAt_in 5 rfl _).trans (A_eq1 (V4 m ρ) c 5))).trans (W4_arg6 m ρ c)
theorem W5_arg7 (c : Dev nD) : W5 m ρ c (Proc.devRef .tc main_arg7) = m ((c : Thread nD τ).loc main_arg7) :=
  (W5_of_kept m ρ c (by decide) (by decide) (by decide)).trans (W2_arg7 m ρ c)
theorem W5_arg8 (c : Dev nD) : W5 m ρ c (Proc.devRef .tc main_arg8) = m ((c : Thread nD τ).loc main_arg8) :=
  (W5_of_kept m ρ c (by decide) (by decide) (by decide)).trans (W2_arg8 m ρ c)
theorem W5_arg9 (c : Dev nD) : W5 m ρ c (Proc.devRef .tc main_arg9) = m ((c : Thread nD τ).loc main_arg9) :=
  (W5_of_kept m ρ c (by decide) (by decide) (by decide)).trans (W2_arg9 m ρ c)
theorem W5_arg10 (c : Dev nD) : W5 m ρ c (Proc.devRef .tc main_arg10) = m ((c : Thread nD τ).loc main_arg10) :=
  (W5_of_kept m ρ c (by decide) (by decide) (by decide)).trans (W2_arg10 m ρ c)
theorem W5_arg11 (c : Dev nD) : W5 m ρ c (Proc.devRef .tc main_arg11) = m ((c : Thread nD τ).loc main_arg11) :=
  (W5_of_kept m ρ c (by decide) (by decide) (by decide)).trans (W2_arg11 m ρ c)
theorem W5_arg12 (c : Dev nD) : W5 m ρ c (Proc.devRef .tc main_arg12) = m ((c : Thread nD τ).loc main_arg12) :=
  (W5_of_kept m ρ c (by decide) (by decide) (by decide)).trans (W2_arg12 m ρ c)
theorem W5_arg13 (c : Dev nD) : W5 m ρ c (Proc.devRef .tc main_arg13) = m ((c : Thread nD τ).loc main_arg13) :=
  (W5_of_kept m ρ c (by decide) (by decide) (by decide)).trans (W2_arg13 m ρ c)

end Cert.KernelIdeal.KVal

end
-- ==== Proof.KStage2.lean ====
/-
  The buffers after the second slicing stretch and the second projection call.

  The stretch cuts the second layer's first weight matrix [256, 128] into its upper and lower square halves; the call
  multiplies the first layer's output by the upper half and the summed edge features by the lower half. Nothing else
  is written, so the degrees, the inverse degrees, the first layer's output and the arguments are as before.
-/
import proofs.«408989_j23862838297343_2_alg».proof.Proof.KStage1
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen GraphConv

/-- Rows off, …, off + 127 of a layer's first weight matrix, cut out as a slice, are the square half `rows128 off`. -/
theorem sliceHalf_eq_rows128 (off : Nat) (hR : off + 128 ≤ 256) (W1 : W1T)
    (h : (⟨2, ![256, 128]⟩ : Shape).Slices ![off, 0] ⟨2, ![128, 128]⟩) :
    extractStridedSlice ⟨2, ![128, 128]⟩ ![off, 0] W1 h = rows128 off hR W1 := by
  funext j
  obtain ⟨p, q, rfl⟩ : ∃ (p : Fin 128) (q : Fin 128), j = ix2 p q := ⟨j 0, j 1, eq_ix2 j⟩
  exact slice2_axis0_eq off W1 h p q

variable (m : (ℓ : Loc nD τ sig) → Buf (Elt Ideal) ℓ) (ρ : Dev nD → PrngReg)

/-! ## After the slicing stretch -/

/-- The stretch writes the two halves only: every other buffer is as the first self-loop call left it. -/
theorem W6_untouched (c : Dev nD) (b : Ref sig .tc) (h23 : b ≠ main_v23) (h24 : b ≠ main_v24) :
    W6 m ρ c (Proc.devRef .tc b) = W5 m ρ c (Proc.devRef .tc b) :=
  StableHlo.after_of_forall_not_mem (b := Proc.devRef .tc b) _ _ (List.forall_iff_forall_mem.mp (by
    simp only [hostOps2, List.Forall, StableHlo.unary_writes, Finset.mem_singleton]
    exact ⟨StableHlo.devRef_ne_of_ne h23, StableHlo.devRef_ne_of_ne h24⟩))

/-- The upper and the lower half of the second layer's first weight matrix. -/
theorem W6_v23 (c : Dev nD) :
    (W6 m ρ c (Proc.devRef .tc main_v23) : W2T) = rows128 0 (by norm_num) (aW1b m c) := by
  have e : (W6 m ρ c (Proc.devRef .tc main_v23) : W2T)
      = extractStridedSlice S128x128 ![0, 0] (W5 m ρ c (Proc.devRef .tc main_arg8)) slices_S256x128_S128x128_0_0 := by
    show StableHlo.after hostOps2 (W5 m ρ c) (Proc.devRef .tc main_v23) = _
    after_results
  rw [e, W5_arg8]
  exact sliceHalf_eq_rows128 0 _ _ _

theorem W6_v24 (c : Dev nD) :
    (W6 m ρ c (Proc.devRef .tc main_v24) : W2T) = rows128 128 (by norm_num) (aW1b m c) := by
  have e : (W6 m ρ c (Proc.devRef .tc main_v24) : W2T)
      = extractStridedSlice S128x128 ![128, 0] (W5 m ρ c (Proc.devRef .tc main_arg8)) slices_S256x128_S128x128_128_0 := by
    show StableHlo.after hostOps2 (W5 m ρ c) (Proc.devRef .tc main_v24) = _
    after_results
  rw [e, W5_arg8]
  exact sliceHalf_eq_rows128 128 _ _ _

/-! ## After the second projection call -/

/-- A buffer that is neither one of the call's six arrays nor one of the two halves is as the first self-loop call
    left it. -/
theorem W7_untouched (c : Dev nD) (b : Ref sig .tc) (hb : ∀ w, Pipeline.arrRef spec2 w ≠ b)
    (h23 : b ≠ main_v23) (h24 : b ≠ main_v24) :
    W7 m ρ c (Proc.devRef .tc b) = W5 m ρ c (Proc.devRef .tc b) :=
  (W7_of_ne m ρ c b hb).trans (W6_untouched m ρ c b h23 h24)

/-- The first layer's output times the upper half. -/
theorem W7_v25_0 (c : Dev nD) : W7 m ρ c (Proc.devRef .tc main_v25_0) = hproj (aH1 m c) (aW1b m c) := by
  have hout : W7 m ρ c (Proc.devRef .tc main_v25_0)
      = mm128 (W6 m ρ c (Proc.devRef .tc main_v22)) (W6 m ρ c (Proc.devRef .tc main_v23)) :=
    (W7_arr m ρ c 4).trans (reg2_out4 (V6 m ρ) c)
  rw [hout, W6_untouched m ρ c main_v22 (by decide) (by decide), W5_v22, W6_v23]
  rfl

/-- The summed edge features times the lower half. -/
theorem W7_v25_1 (c : Dev nD) : W7 m ρ c (Proc.devRef .tc main_v25_1) = efproj (aEfAgg m c) (aW1b m c) := by
  have hout : W7 m ρ c (Proc.devRef .tc main_v25_1)
      = mm128 (W6 m ρ c (Proc.devRef .tc main_v10)) (W6 m ρ c (Proc.devRef .tc main_v24)) :=
    (W7_arr m ρ c 5).trans (reg2_out5 (V6 m ρ) c)
  rw [hout, W6_untouched m ρ c main_v10 (by decide) (by decide), W5_v10, W6_v24]
  rfl

/-- The first layer's output is one of the call's inputs: the call leaves it as it found it. -/
theorem W7_v22 (c : Dev nD) : W7 m ρ c (Proc.devRef .tc main_v22) = aH1 m c :=
  calc W7 m ρ c (Proc.devRef .tc main_v22)
    _ = W6 m ρ c (Proc.devRef .tc main_v22) :=
        (W7_arr m ρ c 0).trans (((dat2 (V6 m ρ) c).arrAt_in 0 rfl _).trans (A_eq2 (V6 m ρ) c 0))
    _ = W5 m ρ c (Proc.devRef .tc main_v22) := W6_untouched m ρ c main_v22 (by decide) (by decide)
    _ = aH1 m c := W5_v22 m ρ c
theorem W7_v3 (c : Dev nD) : W7 m ρ c (Proc.devRef .tc main_v3) = aDeg m c :=
  (W7_untouched m ρ c main_v3 (by decide) (by decide) (by decide)).trans (W5_v3 m ρ c)
theorem W7_v7 (c : Dev nD) : W7 m ρ c (Proc.devRef .tc main_v7) = aInv m c :=
  (W7_untouched m ρ c main_v7 (by decide) (by decide) (by decide)).trans (W5_v7 m ρ c)
theorem W7_arg0 (c : Dev nD) : W7 m ρ c (Proc.devRef .tc main_arg0) = m ((c : Thread nD τ).loc main_arg0) :=
  (W7_untouched m ρ c main_arg0 (by decide) (by decide) (by decide)).trans (W5_arg0 m ρ c)
theorem W7_arg1 (c : Dev nD) : W7 m ρ c (Proc.devRef .tc main_arg1) = m ((c : Thread nD τ).loc main_arg1) :=
  (W7_untouched m ρ c main_arg1 (by decide) (by decide) (by decide)).trans (W5_arg1 m ρ c)
theorem W7_arg2 (c : Dev nD) : W7 m ρ c (Proc.devRef .tc main_arg2) = m ((c : Thread nD τ).loc main_arg2) :=
  (W7_untouched m ρ c main_arg2 (by decide) (by decide) (by decide)).trans (W5_arg2 m ρ c)
theorem W7_arg3 (c : Dev nD) : W7 m ρ c (Proc.devRef .tc main_arg3) = m ((c : Thread nD τ).loc main_arg3) :=
  (W7_untouched m ρ c main_arg3 (by decide) (by decide) (by decide)).trans (W5_arg3 m ρ c)
theorem W7_arg4 (c : Dev nD) : W7 m ρ c (Proc.devRef .tc main_arg4) = m ((c : Thread nD τ).loc main_arg4) :=
  (W7_untouched m ρ c main_arg4 (by decide) (by decide) (by decide)).trans (W5_arg4 m ρ c)
theorem W7_arg5 (c : Dev nD) : W7 m ρ c (Proc.devRef .tc main_arg5) = m ((c : Thread nD τ).loc main_arg5) :=
  (W7_untouched m ρ c main_arg5 (by decide) (by decide) (by decide)).trans (W5_arg5 m ρ c)
theorem W7_arg6 (c : Dev nD) : W7 m ρ c (Proc.devRef .tc main_arg6) = m ((c : Thread nD τ).loc main_arg6) :=
  (W7_untouched m ρ c main_arg6 (by decide) (by decide) (by decide)).trans (W5_arg6 m ρ c)
theorem W7_arg7 (c : Dev nD) : W7 m ρ c (Proc.devRef .tc main_arg7) = m ((c : Thread nD τ).loc main_arg7) :=
  (W7_untouched m ρ c main_arg7 (by decide) (by decide) (by decide)).trans (W5_arg7 m ρ c)
theorem W7_arg8 (c : Dev nD) : W7 m ρ c (Proc.devRef .tc main_arg8) = m ((c : Thread nD τ).loc main_arg8) :=
  (W7_untouched m ρ c main_arg8 (by decide) (by decide) (by decide)).trans (W5_arg8 m ρ c)
theorem W7_arg9 (c : Dev nD) : W7 m ρ c (Proc.devRef .tc main_arg9) = m ((c : Thread nD τ).loc main_arg9) :=
  (W7_untouched m ρ c main_arg9 (by decide) (by decide) (by decide)).trans (W5_arg9 m ρ c)
theorem W7_arg10 (c : Dev nD) : W7 m ρ c (Proc.devRef .tc main_arg10) = m ((c : Thread nD τ).loc main_arg10) :=
  (W7_untouched m ρ c main_arg10 (by decide) (by decide) (by decide)).trans (W5_arg10 m ρ c)
theorem W7_arg11 (c : Dev nD) : W7 m ρ c (Proc.devRef .tc main_arg11) = m ((c : Thread nD τ).loc main_arg11) :=
  (W7_untouched m ρ c main_arg11 (by decide) (by decide) (by decide)).trans (W5_arg11 m ρ c)
theorem W7_arg12 (c : Dev nD) : W7 m ρ c (Proc.devRef .tc main_arg12) = m ((c : Thread nD τ).loc main_arg12) :=
  (W7_untouched m ρ c main_arg12 (by decide) (by decide) (by decide)).trans (W5_arg12 m ρ c)
theorem W7_arg13 (c : Dev nD) : W7 m ρ c (Proc.devRef .tc main_arg13) = m ((c : Thread nD τ).loc main_arg13) :=
  (W7_untouched m ρ c main_arg13 (by decide) (by decide) (by decide)).trans (W5_arg13 m ρ c)

end Cert.KernelIdeal.KVal

end
-- ==== Proof.KStage3.lean ====
/-
  The buffers after the second gather-and-sum stretch and the second self-loop call: the second layer's output.

  The same two host stretches and the same call as in the first layer, one layer later: the host takes, for every
  edge, the row its source word names of the first layer's output projected by the upper half of the second layer's
  first weight matrix, adds the taken rows up per destination node, and the self-loop call adds the projected
  edge-feature sums and the in-degree times the bias, scales by the inverse clamped degree and applies the shared tail.
-/
import proofs.«408989_j23862838297343_2_alg».proof.Proof.KStage2

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen GraphConv
variable (m : (ℓ : Loc nD τ sig) → Buf (Elt Ideal) ℓ) (ρ : Dev nD → PrngReg)

/-! ## The two host stretches between the second projection call and the second self-loop call -/

/-- The buffers the second gather stretch writes. -/
abbrev takeWrites2 : List (Ref sig .tc) :=
  [main_call1_c, main_call1_v0, main_call1_v1, main_call1_c_0, main_call1_v2, main_call1_v3, main_call1_v4,
    main_call1_v5, main_call1_c_1, main_call1_c_2, main_call1_v6, main_call1_v7, main_call1_v8, main_call1_v9,
    main_call1_v10, main_call1_v11, main_call1_c_3, main_call1_v12, main_call1_v13, main_call1_v14, main_call1_cst,
    main_call1_v15, main_v26]

/-- The buffers the second summing stretch writes. -/
abbrev sumWrites2 : List (Ref sig .tc) :=
  [main_cst_5, main_v27, main_v28, main_v29, main_v30, main_v31, main_v32, main_v33]

theorem hostOps3_writes : (hostOps3 : List (HloOp τ sig (Elt Ideal))).Forall fun op =>
    op.writes ⊆ (takeWrites2.map (Proc.devRef (τ := τ) .tc)).toFinset := by
  simp only [hostOps3, List.Forall, StableHlo.nullary_writes, StableHlo.unary_writes, StableHlo.binary_writes,
    StableHlo.ternary_writes, Finset.singleton_subset_iff]
  repeat' apply And.intro
  all_goals exact List.mem_toFinset.mpr (List.mem_map_of_mem (by decide))

theorem hostOps3_1_writes : (hostOps3_1 : List (HloOp τ sig (Elt Ideal))).Forall fun op =>
    op.writes ⊆ (sumWrites2.map (Proc.devRef (τ := τ) .tc)).toFinset := by
  simp only [hostOps3_1, List.Forall, StableHlo.nullary_writes, StableHlo.unary_writes, StableHlo.ternary_writes,
    StableHlo.reshape_writes, Finset.singleton_subset_iff]
  repeat' apply And.intro
  all_goals exact List.mem_toFinset.mpr (List.mem_map_of_mem (by decide))

/-- What the second gather stretch leaves in its result buffer, from any contents: the rows of the table in the second
    projected table's buffer, taken at the words in the source buffer. -/
theorem take_result2 (U : Valuation τ sig (Elt Ideal)) :
    (StableHlo.after hostOps3 U (Proc.devRef .tc main_v26) : EdgeT)
      = takeRows (U (Proc.devRef .tc main_v25_0)) (U (Proc.devRef .tc main_arg2)) := by
  after_results_simp
  simp only [StableHlo.TRef.ofBuf, StableHlo.TRef.toBuf, cast_cast, cast_eq]
  rfl

/-- What the second summing stretch leaves, from any contents: the taken rows added into a zero table at the
    destination words; the second layer's two biases as rows; the in-degrees and their inverses as columns. -/
theorem sum_result2 (U : Valuation τ sig (Elt Ideal)) :
    (StableHlo.after hostOps3_1 U (Proc.devRef .tc main_v29) : NodeT)
      = Host.scatterAdd (F := Ideal) (φ := .f32) scatter_S50000x128_S640000x1_S640000x128_1_0_0_1
          (broadcastInDim S50000x128 ![] bcast_S_S50000x128 (constant (F := Ideal) S_ .f32 0x00000000#32))
          (broadcastInDim S640000x1 ![0] bcast_S640000_S640000x1_0 (U (Proc.devRef .tc main_arg3)))
          (U (Proc.devRef .tc main_v26)) := by
  after_results
theorem b1row_result2 (U : Valuation τ sig (Elt Ideal)) :
    (StableHlo.after hostOps3_1 U (Proc.devRef .tc main_v30) : RowT)
      = shapeCast S1x128 (U (Proc.devRef .tc main_arg9)) shapeCasts_S128_S1x128 := by
  after_results
  rfl
theorem b2row_result2 (U : Valuation τ sig (Elt Ideal)) :
    (StableHlo.after hostOps3_1 U (Proc.devRef .tc main_v31) : RowT)
      = shapeCast S1x128 (U (Proc.devRef .tc main_arg11)) shapeCasts_S128_S1x128 := by
  after_results
  rfl
theorem degcol_result2 (U : Valuation τ sig (Elt Ideal)) :
    (StableHlo.after hostOps3_1 U (Proc.devRef .tc main_v32) : ColT)
      = shapeCast S50000x1 (U (Proc.devRef .tc main_v3)) shapeCasts_S50000_S50000x1 := by
  after_results
  rfl
theorem invcol_result2 (U : Valuation τ sig (Elt Ideal)) :
    (StableHlo.after hostOps3_1 U (Proc.devRef .tc main_v33) : ColT)
      = shapeCast S50000x1 (U (Proc.devRef .tc main_v7)) shapeCasts_S50000_S50000x1 := by
  after_results
  rfl

/-- A buffer neither stretch writes enters the second self-loop call as it left the second projection call. -/
theorem W9_of_kept (c : Dev nD) {r : Ref sig .tc} (h1 : r ∉ takeWrites2) (h2 : r ∉ sumWrites2) :
    W9 m ρ c (Proc.devRef .tc r) = W7 m ρ c (Proc.devRef .tc r) :=
  (StableHlo.after_of_writes_sub hostOps3_1 (W8 m ρ c) hostOps3_1_writes h2).trans
    (StableHlo.after_of_writes_sub hostOps3 (W7 m ρ c) hostOps3_writes h1)

/-- And leaves the second self-loop call so too, unless it is one of that call's arrays. -/
theorem W10_of_kept (c : Dev nD) {r : Ref sig .tc} (h1 : r ∉ takeWrites2) (h2 : r ∉ sumWrites2)
    (h3 : ∀ w, Pipeline.arrRef spec3 w ≠ r) :
    W10 m ρ c (Proc.devRef .tc r) = W7 m ρ c (Proc.devRef .tc r) :=
  (W10_of_ne m ρ c r h3).trans (W9_of_kept m ρ c h1 h2)

/-- The second gather stretch's result: the second projected table's rows taken at the source words. -/
theorem W8_v26 (c : Dev nD) :
    (W8 m ρ c (Proc.devRef .tc main_v26) : EdgeT) = takeRows (hproj (aH1 m c) (aW1b m c)) (aSrc m c) :=
  (take_result2 (W7 m ρ c)).trans (by rw [W7_v25_0, W7_arg2])

theorem W8_arg3 (c : Dev nD) : W8 m ρ c (Proc.devRef .tc main_arg3) = aDst m c :=
  (StableHlo.after_of_writes_sub hostOps3 (W7 m ρ c) hostOps3_writes (by decide)).trans (W7_arg3 m ρ c)
theorem W8_arg9 (c : Dev nD) : W8 m ρ c (Proc.devRef .tc main_arg9) = ab1b m c :=
  (StableHlo.after_of_writes_sub hostOps3 (W7 m ρ c) hostOps3_writes (by decide)).trans (W7_arg9 m ρ c)
theorem W8_arg11 (c : Dev nD) : W8 m ρ c (Proc.devRef .tc main_arg11) = ab2b m c :=
  (StableHlo.after_of_writes_sub hostOps3 (W7 m ρ c) hostOps3_writes (by decide)).trans (W7_arg11 m ρ c)
theorem W8_v3 (c : Dev nD) : W8 m ρ c (Proc.devRef .tc main_v3) = aDeg m c :=
  (StableHlo.after_of_writes_sub hostOps3 (W7 m ρ c) hostOps3_writes (by decide)).trans (W7_v3 m ρ c)
theorem W8_v7 (c : Dev nD) : W8 m ρ c (Proc.devRef .tc main_v7) = aInv m c :=
  (StableHlo.after_of_writes_sub hostOps3 (W7 m ρ c) hostOps3_writes (by decide)).trans (W7_v7 m ρ c)

/-- The second summing stretch's result: per node and column, the sum of the taken rows' entries over the edges
    landing on the node. -/
theorem W9_v29 (c : Dev nD) (r : Fin 50000) (q : Fin 128) :
    (W9 m ρ c (Proc.devRef .tc main_v29) : NodeT) (ix2 r q)
      = seg (aDst m c) (fun e => gathered (hproj (aH1 m c) (aW1b m c)) (aSrc m c) e q) r := by
  have e := sum_result2 (W8 m ρ c)
  rw [W8_arg3, W8_v26] at e
  rw [show (W9 m ρ c (Proc.devRef .tc main_v29) : NodeT) = _ from e]
  refine (scatterAdd_rows scatter_S50000x128_S640000x1_S640000x128_1_0_0_1 rfl rfl rfl rfl bcast_S640000_S640000x1_0
    _ (aDst m c) _ r q).trans ?_
  have hz : broadcastInDim S50000x128 ![] bcast_S_S50000x128 (constant (F := Ideal) S_ .f32 0x00000000#32) (ix2 r q)
      = (0 : EReal) := Ideal.ofBits_zero_f32
  rw [hz, zero_add]
  exact congrArg (fun u => seg (aDst m c) u r) (funext fun e => takeRows_apply _ _ e q)

/-- The second layer's two biases laid out as rows, the in-degrees and their inverses as columns. -/
theorem W9_v30 (c : Dev nD) :
    (W9 m ρ c (Proc.devRef .tc main_v30) : RowT) = shapeCast S1x128 (ab1b m c) shapeCasts_S128_S1x128 := by
  rw [← W8_arg9 m ρ c]
  exact b1row_result2 (W8 m ρ c)
theorem W9_v31 (c : Dev nD) :
    (W9 m ρ c (Proc.devRef .tc main_v31) : RowT) = shapeCast S1x128 (ab2b m c) shapeCasts_S128_S1x128 := by
  rw [← W8_arg11 m ρ c]
  exact b2row_result2 (W8 m ρ c)
theorem W9_v32 (c : Dev nD) :
    (W9 m ρ c (Proc.devRef .tc main_v32) : ColT) = shapeCast S50000x1 (aDeg m c) shapeCasts_S50000_S50000x1 := by
  rw [← W8_v3 m ρ c]
  exact degcol_result2 (W8 m ρ c)
theorem W9_v33 (c : Dev nD) :
    (W9 m ρ c (Proc.devRef .tc main_v33) : ColT) = shapeCast S50000x1 (aInv m c) shapeCasts_S50000_S50000x1 := by
  rw [← W8_v7 m ρ c]
  exact invcol_result2 (W8 m ρ c)

theorem W9_v25_1 (c : Dev nD) :
    W9 m ρ c (Proc.devRef .tc main_v25_1) = efproj (efagg (aEf m c) (aDst m c)) (aW1b m c) :=
  (W9_of_kept m ρ c (by decide) (by decide)).trans (W7_v25_1 m ρ c)
theorem W9_arg10 (c : Dev nD) : W9 m ρ c (Proc.devRef .tc main_arg10) = aW2b m c :=
  (W9_of_kept m ρ c (by decide) (by decide)).trans (W7_arg10 m ρ c)

/-! ## After the second self-loop call -/

/-- The second layer's output. -/
theorem W10_v34 (c : Dev nD) : W10 m ρ c (Proc.devRef .tc main_v34) = aH2 m c := by
  have hout : W10 m ρ c (Proc.devRef .tc main_v34)
      = selfloopRows (W9 m ρ c (Proc.devRef .tc main_v29)) (W9 m ρ c (Proc.devRef .tc main_v25_1))
          (W9 m ρ c (Proc.devRef .tc main_v32)) (W9 m ρ c (Proc.devRef .tc main_v33))
          (W9 m ρ c (Proc.devRef .tc main_v30)) (W9 m ρ c (Proc.devRef .tc main_arg10))
          (W9 m ρ c (Proc.devRef .tc main_v31)) :=
    (W10_arr m ρ c 7).trans (reg3_out7 (V9 m ρ) c)
  rw [hout, W9_v25_1, W9_v32, W9_v33, W9_v30, W9_arg10, W9_v31]
  exact selfloopRows_eq_kerLayer (aH1 m c) (aEf m c) (aSrc m c) (aDst m c) (aW1b m c) (ab1b m c) (aW2b m c) (ab2b m c)
    _ _ _ _ _ (fun r q => W9_v29 m ρ c r q) (fun r => col_of_vec _ (aDeg m c) r) (fun r => col_of_vec _ (aInv m c) r)
    (fun q => row_of_vec _ (ab1b m c) q) (fun q => row_of_vec _ (ab2b m c) q)

/-- The first layer's output is still in its buffer. -/
theorem W10_v22 (c : Dev nD) : W10 m ρ c (Proc.devRef .tc main_v22) = aH1 m c :=
  (W10_of_kept m ρ c (by decide) (by decide) (by decide)).trans (W7_v22 m ρ c)
theorem W10_arg0 (c : Dev nD) : W10 m ρ c (Proc.devRef .tc main_arg0) = m ((c : Thread nD τ).loc main_arg0) :=
  (W10_of_kept m ρ c (by decide) (by decide) (by decide)).trans (W7_arg0 m ρ c)
theorem W10_arg1 (c : Dev nD) : W10 m ρ c (Proc.devRef .tc main_arg1) = m ((c : Thread nD τ).loc main_arg1) :=
  (W10_of_kept m ρ c (by decide) (by decide) (by decide)).trans (W7_arg1 m ρ c)
theorem W10_arg2 (c : Dev nD) : W10 m ρ c (Proc.devRef .tc main_arg2) = m ((c : Thread nD τ).loc main_arg2) :=
  (W10_of_kept m ρ c (by decide) (by decide) (by decide)).trans (W7_arg2 m ρ c)
theorem W10_arg3 (c : Dev nD) : W10 m ρ c (Proc.devRef .tc main_arg3) = m ((c : Thread nD τ).loc main_arg3) :=
  (W10_of_kept m ρ c (by decide) (by decide) (by decide)).trans (W7_arg3 m ρ c)
theorem W10_arg4 (c : Dev nD) : W10 m ρ c (Proc.devRef .tc main_arg4) = m ((c : Thread nD τ).loc main_arg4) :=
  (W10_of_kept m ρ c (by decide) (by decide) (by decide)).trans (W7_arg4 m ρ c)
theorem W10_arg5 (c : Dev nD) : W10 m ρ c (Proc.devRef .tc main_arg5) = m ((c : Thread nD τ).loc main_arg5) :=
  (W10_of_kept m ρ c (by decide) (by decide) (by decide)).trans (W7_arg5 m ρ c)
theorem W10_arg6 (c : Dev nD) : W10 m ρ c (Proc.devRef .tc main_arg6) = m ((c : Thread nD τ).loc main_arg6) :=
  (W10_of_kept m ρ c (by decide) (by decide) (by decide)).trans (W7_arg6 m ρ c)
theorem W10_arg7 (c : Dev nD) : W10 m ρ c (Proc.devRef .tc main_arg7) = m ((c : Thread nD τ).loc main_arg7) :=
  (W10_of_kept m ρ c (by decide) (by decide) (by decide)).trans (W7_arg7 m ρ c)
theorem W10_arg8 (c : Dev nD) : W10 m ρ c (Proc.devRef .tc main_arg8) = m ((c : Thread nD τ).loc main_arg8) :=
  (W10_of_kept m ρ c (by decide) (by decide) (by decide)).trans (W7_arg8 m ρ c)
theorem W10_arg9 (c : Dev nD) : W10 m ρ c (Proc.devRef .tc main_arg9) = m ((c : Thread nD τ).loc main_arg9) :=
  (W10_of_kept m ρ c (by decide) (by decide) (by decide)).trans (W7_arg9 m ρ c)
/-- The second layer's second weight matrix is an input array of the second self-loop call, which leaves it as
    entered. -/
theorem W10_arg10 (c : Dev nD) : W10 m ρ c (Proc.devRef .tc main_arg10) = m ((c : Thread nD τ).loc main_arg10) :=
  ((W10_arr m ρ c 5).trans (((dat3 (V9 m ρ) c).arrAt_in 5 rfl _).trans (A_eq3 (V9 m ρ) c 5))).trans (W9_arg10 m ρ c)
theorem W10_arg11 (c : Dev nD) : W10 m ρ c (Proc.devRef .tc main_arg11) = m ((c : Thread nD τ).loc main_arg11) :=
  (W10_of_kept m ρ c (by decide) (by decide) (by decide)).trans (W7_arg11 m ρ c)
theorem W10_arg12 (c : Dev nD) : W10 m ρ c (Proc.devRef .tc main_arg12) = m ((c : Thread nD τ).loc main_arg12) :=
  (W10_of_kept m ρ c (by decide) (by decide) (by decide)).trans (W7_arg12 m ρ c)
theorem W10_arg13 (c : Dev nD) : W10 m ρ c (Proc.devRef .tc main_arg13) = m ((c : Thread nD τ).loc main_arg13) :=
  (W10_of_kept m ρ c (by decide) (by decide) (by decide)).trans (W7_arg13 m ρ c)

end Cert.KernelIdeal.KVal

end
-- ==== Proof.KStage4.lean ====
/-
  The result buffer after the last slicing stretch and the final call: the kernel's whole function of its arguments.

  The last host stretch cuts the final weight matrix [384, 128] into its three square blocks of 128 rows and lays the
  final bias out as a row; the final call then adds the three products "node table times block" left to right and
  the bias row. With the three node tables being the input, the first layer's output and the second layer's output,
  that sum is the kernel's final projection.
-/
import proofs.«408989_j23862838297343_2_alg».proof.Proof.KStage3
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen GraphConv

/-! ## The two layout facts -/

/-- Rows off, …, off + 127 of the tall matrix, cut out as a slice, are the square block `rows128 off`. -/
theorem sliceBlock_eq_rows128 (off : Nat) (hR : off + 128 ≤ 384) (Wf : WfT)
    (h : (⟨2, ![384, 128]⟩ : Shape).Slices ![off, 0] ⟨2, ![128, 128]⟩) :
    extractStridedSlice ⟨2, ![128, 128]⟩ ![off, 0] Wf h = rows128 off hR Wf := by
  funext j
  obtain ⟨p, q, rfl⟩ : ∃ (p : Fin 128) (q : Fin 128), j = ix2 p q := ⟨j 0, j 1, eq_ix2 j⟩
  exact slice2_axis0_eq off Wf h p q

/-- The bias vector laid out as a row reads, at column q of its one row, the vector's entry q. -/
theorem biasRow_apply (bf : BiasT) (h : (⟨1, ![128]⟩ : Shape).ShapeCasts ⟨2, ![1, 128]⟩) (q : Fin 128) :
    shapeCast ⟨2, ![1, 128]⟩ bf h (ix2 (0 : Fin 1) q) = bf (ix1 q) :=
  shapeCast_a_1a_apply bf h 0 q

/-- Three products with the three square blocks of the tall matrix, plus the bias as a row: the final projection. -/
theorem finalRows_blocks (a b c : NodeT) (Wf : WfT) (bf : BiasT) (bfr : RowT)
    (hb : ∀ q : Fin 128, bfr (ix2 (0 : Fin 1) q) = bf (ix1 q)) :
    finalRows a b c (rows128 0 (by norm_num) Wf) (rows128 128 (by norm_num) Wf) (rows128 256 (by norm_num) Wf) bfr
      = kerFinal a b c Wf bf := by
  funext i
  unfold finalRows kerFinal
  rw [hb (i 1)]

variable (m : (ℓ : Loc nD τ sig) → Buf (Elt Ideal) ℓ) (ρ : Dev nD → PrngReg)

/-! ## What the final call finds in its seven input arrays -/

/-- The last host stretch writes none of the three node tables. -/
theorem W11_arg0 (c : Dev nD) : W11 m ρ c (Proc.devRef .tc main_arg0) = aX0 m c :=
  (StableHlo.after_of_forall_not_mem (b := Proc.devRef .tc main_arg0) _ _ (List.forall_iff_forall_mem.mp (by
    simp only [hostOps4, List.Forall, StableHlo.unary_writes, StableHlo.reshape_writes, Finset.mem_singleton]
    repeat' apply And.intro
    all_goals exact StableHlo.devRef_ne_of_ne (by decide)))).trans (W10_arg0 m ρ c)

theorem W11_v22 (c : Dev nD) : W11 m ρ c (Proc.devRef .tc main_v22) = aH1 m c :=
  (StableHlo.after_of_forall_not_mem (b := Proc.devRef .tc main_v22) _ _ (List.forall_iff_forall_mem.mp (by
    simp only [hostOps4, List.Forall, StableHlo.unary_writes, StableHlo.reshape_writes, Finset.mem_singleton]
    repeat' apply And.intro
    all_goals exact StableHlo.devRef_ne_of_ne (by decide)))).trans (W10_v22 m ρ c)

theorem W11_v34 (c : Dev nD) : W11 m ρ c (Proc.devRef .tc main_v34) = aH2 m c :=
  (StableHlo.after_of_forall_not_mem (b := Proc.devRef .tc main_v34) _ _ (List.forall_iff_forall_mem.mp (by
    simp only [hostOps4, List.Forall, StableHlo.unary_writes, StableHlo.reshape_writes, Finset.mem_singleton]
    repeat' apply And.intro
    all_goals exact StableHlo.devRef_ne_of_ne (by decide)))).trans (W10_v34 m ρ c)

/-- The three square blocks of the final weight matrix. -/
theorem W11_v35 (c : Dev nD) :
    (W11 m ρ c (Proc.devRef .tc main_v35) : W2T) = rows128 0 (by norm_num) (aWf m c) := by
  have e : (W11 m ρ c (Proc.devRef .tc main_v35) : W2T)
      = extractStridedSlice S128x128 ![0, 0] (W10 m ρ c (Proc.devRef .tc main_arg12)) slices_S384x128_S128x128_0_0 := by
    show StableHlo.after hostOps4 (W10 m ρ c) (Proc.devRef .tc main_v35) = _
    after_results
  rw [e, W10_arg12]
  exact sliceBlock_eq_rows128 0 _ _ _

theorem W11_v36 (c : Dev nD) :
    (W11 m ρ c (Proc.devRef .tc main_v36) : W2T) = rows128 128 (by norm_num) (aWf m c) := by
  have e : (W11 m ρ c (Proc.devRef .tc main_v36) : W2T)
      = extractStridedSlice S128x128 ![128, 0] (W10 m ρ c (Proc.devRef .tc main_arg12)) slices_S384x128_S128x128_128_0 := by
    show StableHlo.after hostOps4 (W10 m ρ c) (Proc.devRef .tc main_v36) = _
    after_results
  rw [e, W10_arg12]
  exact sliceBlock_eq_rows128 128 _ _ _

theorem W11_v37 (c : Dev nD) :
    (W11 m ρ c (Proc.devRef .tc main_v37) : W2T) = rows128 256 (by norm_num) (aWf m c) := by
  have e : (W11 m ρ c (Proc.devRef .tc main_v37) : W2T)
      = extractStridedSlice S128x128 ![256, 0] (W10 m ρ c (Proc.devRef .tc main_arg12)) slices_S384x128_S128x128_256_0 := by
    show StableHlo.after hostOps4 (W10 m ρ c) (Proc.devRef .tc main_v37) = _
    after_results
  rw [e, W10_arg12]
  exact sliceBlock_eq_rows128 256 _ _ _

/-- The final bias as a row. -/
theorem W11_v38 (c : Dev nD) :
    (W11 m ρ c (Proc.devRef .tc main_v38) : RowT) = shapeCast S1x128 (abf m c) shapeCasts_S128_S1x128 := by
  have e : (W11 m ρ c (Proc.devRef .tc main_v38) : RowT)
      = shapeCast S1x128 (W10 m ρ c (Proc.devRef .tc main_arg13)) shapeCasts_S128_S1x128 := by
    show StableHlo.after hostOps4 (W10 m ρ c) (Proc.devRef .tc main_v38) = _
    after_results
    rfl
  rw [e, W10_arg13]

/-! ## The result -/

theorem W12_v39 (c : Dev nD) : W12 m ρ c (Proc.devRef .tc main_v39)
    = kerSpec (aX0 m c) (aEf m c) (aSrc m c) (aDst m c) (aW1a m c) (ab1a m c) (aW2a m c) (ab2a m c)
        (aW1b m c) (ab1b m c) (aW2b m c) (ab2b m c) (aWf m c) (abf m c) := by
  have hout : W12 m ρ c (Proc.devRef .tc main_v39)
      = finalRows (W11 m ρ c (Proc.devRef .tc main_arg0)) (W11 m ρ c (Proc.devRef .tc main_v22))
          (W11 m ρ c (Proc.devRef .tc main_v34)) (W11 m ρ c (Proc.devRef .tc main_v35))
          (W11 m ρ c (Proc.devRef .tc main_v36)) (W11 m ρ c (Proc.devRef .tc main_v37))
          (W11 m ρ c (Proc.devRef .tc main_v38)) :=
    (W12_arr m ρ c 7).trans (reg4_out7 (V11 m ρ) c)
  rw [hout, W11_arg0, W11_v22, W11_v34, W11_v35, W11_v36, W11_v37, W11_v38]
  exact finalRows_blocks _ _ _ _ _ _ (fun q => biasRow_apply _ _ q)

end Cert.KernelIdeal.KVal

end
-- ==== Proof.RefValue.lean ====
/-
  The reference program's result, read one operation at a time, is the reference's function of its arguments.

  The degrees are a scatter of ones; a layer gathers the node table's rows at the wrapped source words, joins them
  with the edge features, multiplies by W1 and adds b1 (the per-edge message), sums the messages at their
  destinations, divides by the degree, and applies the self-loop tail with the leaky rectifier; the second layer is
  the same operations over the first layer's table; the result joins the three node tables, multiplies by Wf and
  adds bf.
-/
import proofs.«408989_j23862838297343_2_alg».proof.Proof.RunP
import proofs.«408989_j23862838297343_2_alg».proof.Proof.ReadP
import proofs.«408989_j23862838297343_2_alg».proof.Proof.Spec
import proofs.«408989_j23862838297343_2_alg».proof.Proof.ScatterGather
import Idealize.ShloMosaic.Lib.Pipeline.Value
import Idealize.ShloMosaic.Lib.ValueIdx
import Idealize.ShloMosaic.PureOps.Ideal.Laws

set_option maxRecDepth 16384

noncomputable section

namespace Cert.ReferenceIdeal.RefVal

open Idealize.ShloMosaic Idealize.ShloMosaic.ValueIdx Idealize.SL.Sem Cert.ReferenceIdeal Cert.ReferenceIdeal.Gen GraphConv

/-! ## The host's layout operations at this program's shapes -/

/-- The pattern 0x3F800000 denotes one. -/
theorem one_f32 : Ideal.ofBits .f32 0x3F800000#32 = 1 := by
  simp [Ideal.ofBits, Ideal.ieee, -EReal.coe_mul]; norm_num

/-- Two edge tables side by side: column k of row e comes from the left table below 128, else from the right. -/
theorem cat2_read (A B : EdgeT) (e : Fin 640000) (k : Fin 256) :
    concatenate S640000x256 1 [⟨S640000x128, A⟩, ⟨S640000x128, B⟩]
        concatenates_S640000x128_S640000x128_S640000x256_d1 (ix2 e k)
      = if hk : k.val < 128 then A (ix2 e ⟨k.val, hk⟩) else B (ix2 e ⟨k.val - 128, by omega⟩) := by
  by_cases hk : k.val < 128
  · rw [dif_pos hk]
    exact concatenate_pair_apply_left (t := S640000x256) (s₁ := S640000x128) (s₂ := S640000x128) 1 A B _
      (ix2 e k) rfl (ix2 e ⟨k.val, hk⟩) (fun b => by match b with | ⟨0, _⟩ => rfl | ⟨1, _⟩ => rfl)
  · rw [dif_neg hk]
    exact concatenate_pair_apply_right (t := S640000x256) (s₁ := S640000x128) (s₂ := S640000x128) 1 A B _
      (ix2 e k) rfl rfl (ix2 e ⟨k.val - 128, by omega⟩)
      (fun b hb => by match b with | ⟨0, _⟩ => rfl | ⟨1, _⟩ => exact absurd rfl hb)
      (by show (k.val - 128) + 128 = k.val; omega)

/-- Three node tables side by side: column k of row i comes from the table whose span of 128 columns holds k. -/
theorem cat3_read (a b c : NodeT) (i : Fin 50000) (k : Fin 384) :
    concatenate S50000x384 1 [⟨S50000x128, a⟩, ⟨S50000x128, b⟩, ⟨S50000x128, c⟩]
        concatenates_S50000x128_S50000x128_S50000x128_S50000x384_d1 (ix2 i k)
      = cat3 a b c i k := by
  unfold cat3
  by_cases h0 : k.val < 128
  · rw [dif_pos h0]
    exact concatenate_apply_piece (t := S50000x384) 1 _ _ (ix2 i k) 0 (by show (0 : Nat) < 3; omega) S50000x128 a rfl rfl 0 rfl
      (ix2 i ⟨k.val, h0⟩) (fun d hd => by match d with | ⟨0, _⟩ => rfl | ⟨1, _⟩ => exact absurd rfl hd)
      (by show 0 + k.val = k.val; omega)
  · rw [dif_neg h0]
    by_cases h1 : k.val < 256
    · rw [dif_pos h1]
      exact concatenate_apply_piece (t := S50000x384) 1 _ _ (ix2 i k) 1 (by show (1 : Nat) < 3; omega) S50000x128 b rfl rfl 128 rfl
        (ix2 i ⟨k.val - 128, by omega⟩) (fun d hd => by match d with | ⟨0, _⟩ => rfl | ⟨1, _⟩ => exact absurd rfl hd)
        (by show 128 + (k.val - 128) = k.val; omega)
    · rw [dif_neg h1]
      exact concatenate_apply_piece (t := S50000x384) 1 _ _ (ix2 i k) 2 (by show (2 : Nat) < 3; omega) S50000x128 c rfl rfl 256 rfl
        (ix2 i ⟨k.val - 256, by omega⟩) (fun d hd => by match d with | ⟨0, _⟩ => rfl | ⟨1, _⟩ => exact absurd rfl hd)
        (by show 256 + (k.val - 256) = k.val; omega)

/-- The row gather of this program at a column of edge words: row e is the table's row at the word read signed and
    clamped into the table. -/
theorem gather_read {α : Type} (h : S50000x128.Idx → α) (w : EdgeW) (e : Fin 640000) (j : Fin 128) :
    Host.gather gather_S50000x128_S640000x1_S640000x128_1_0_n_n_0_1_1128 h
        (broadcastInDim S640000x1 ![0] bcast_S640000_S640000x1_0 w) (ix2 e j)
      = h (ix2 ⟨min (w (ix1 e)).toInt.toNat 49999, by omega⟩ j) :=
  gather_rows _ rfl rfl rfl rfl rfl rfl rfl _ h w e j

/-- The accumulating scatter of rows of this program, started from a table of zeros. -/
theorem scatter_rows_read (z : NodeT) (hz : ∀ i, z i = 0) (dst : EdgeW) (u : EdgeT) (i : Fin 50000) (j : Fin 128) :
    Host.scatterAdd (F := Ideal) (φ := .f32) scatter_S50000x128_S640000x1_S640000x128_1_0_0_1 z
        (broadcastInDim S640000x1 ![0] bcast_S640000_S640000x1_0 dst) u (ix2 i j)
      = seg dst (fun e => u (ix2 e j)) i := by
  rw [scatterAdd_rows _ rfl rfl rfl rfl, hz, zero_add]

/-- The accumulating scatter of scalars of this program, started from a vector of zeros. -/
theorem scatter_vec_read (z : S50000.Idx → EReal) (hz : ∀ i, z i = 0) (dst : EdgeW) (u : S640000.Idx → EReal)
    (i : Fin 50000) :
    Host.scatterAdd (F := Ideal) (φ := .f32) scatter_S50000_S640000x1_S640000_n_0_0_1 z
        (broadcastInDim S640000x1 ![0] bcast_S640000_S640000x1_0 dst) u (ix1 i)
      = seg dst (fun e => u (ix1 e)) i := by
  rw [scatterAdd_vec _ rfl rfl rfl rfl, hz, zero_add]

open Cert.ReferenceIdeal.ReadP

/-! ## The degrees -/

/-- The degree scatter adds a one at each edge's destination, starting from zero. -/
theorem deg_read (dst : EdgeW) (i : Fin 50000) : val_main_v3 (F := Ideal) dst (ix1 i) = deg dst i := by
  unfold val_main_v3 val_main_v2
  rw [scatter_vec_read _ (fun i => by rw [val_main_v1_apply, val_main_cst_0_apply]; exact Ideal.ofBits_zero_f32)]
  have hone : (fun e : Fin 640000 => val_main_v0 (F := Ideal) (ix1 e)) = fun _ => 1 :=
    funext fun e => by rw [val_main_v0_apply, val_main_cst_apply]; exact one_f32
  rw [hone]
  rfl

/-- The degree raised to at least one. -/
theorem degc_read (dst : EdgeW) (i : Fin 50000) : val_main_v5 (F := Ideal) dst (ix1 i) = degc dst i := by
  rw [val_main_v5_apply, deg_read, val_main_v4_apply, val_main_cst_1_apply]
  show max (deg dst i) (Ideal.ofBits .f32 0x3F800000#32) = max (deg dst i) 1
  rw [one_f32]

/-! ## One layer, as a function of its node table -/

/-- The source words with the negative ones moved up by the table's height. -/
theorem wrap_read (src : EdgeW) : val_main_v10 (F := Ideal) src = fun i => wrapw (src i) := by
  funext i
  rw [val_main_v10_apply, val_main_v7_apply, val_main_v9_apply, val_main_v6_apply, val_main_v8_apply,
    val_main_c_apply, val_main_c_2_apply]
  rfl

/-- The gathered table: row e is the node table's row at the edge's source. -/
theorem gath_read (h : NodeT) (src : EdgeW) (e : Fin 640000) (j : Fin 128) :
    val_main_v12 (F := Ideal) h src (ix2 e j) = h (ix2 (srow src e) j) := by
  unfold val_main_v12 val_main_v11
  rw [wrap_read]
  exact gather_read h (fun i => wrapw (src i)) e j

/-- The gathered rows beside the edge features. -/
theorem cat_read (h : NodeT) (ef : EdgeT) (src : EdgeW) (e : Fin 640000) (k : Fin 256) :
    val_main_v13 (F := Ideal) h ef src (ix2 e k) = catRow h ef src e k := by
  unfold val_main_v13 catRow
  rw [cat2_read]
  by_cases hk : k.val < 128
  · rw [dif_pos hk, dif_pos hk, gath_read]
  · rw [dif_neg hk, dif_neg hk]

theorem lidx14_eq (e : Fin 640000) (j : Fin 128) (k : Fin 256) : lidx_main_v14 (ix2 e j) k = ix2 e k := by
  funext a; match a with | ⟨0, _⟩ => rfl | ⟨1, _⟩ => rfl

theorem ridx14_eq (e : Fin 640000) (j : Fin 128) (k : Fin 256) : ridx_main_v14 (ix2 e j) k = ix2 k j := by
  funext a; match a with | ⟨0, _⟩ => rfl | ⟨1, _⟩ => rfl

theorem bias16_eq (e : Fin 640000) (j : Fin 128) : idx_main_v15 (idx_main_v16 (ix2 e j)) = ix1 j := by
  funext a; match a with | ⟨0, _⟩ => rfl

/-- The per-edge message: the joined row times W1, plus the bias. -/
theorem msg_read (h : NodeT) (ef : EdgeT) (src : EdgeW) (W1 : W1T) (b1 : BiasT) (e : Fin 640000) (j : Fin 128) :
    val_main_v17 (F := Ideal) h ef src W1 b1 (ix2 e j) = refMsg h ef src W1 b1 e j := by
  rw [val_main_v17_apply, val_main_v14_apply, val_main_v16_apply, val_main_v15_apply, bias16_eq]
  unfold refMsg
  rw [Ideal.addf_def]
  congr 1
  exact Finset.sum_congr rfl fun k _ => by rw [lidx14_eq, ridx14_eq, cat_read]

/-- The messages summed at their destinations. -/
theorem sum_read (h : NodeT) (ef : EdgeT) (src dst : EdgeW) (W1 : W1T) (b1 : BiasT) (i : Fin 50000) (j : Fin 128) :
    val_main_v20 (F := Ideal) h ef src dst W1 b1 (ix2 i j) = seg dst (fun e => refMsg h ef src W1 b1 e j) i := by
  unfold val_main_v20 val_main_v19
  rw [scatter_rows_read _ (fun i => by rw [val_main_v18_apply, val_main_cst_3_apply]; exact Ideal.ofBits_zero_f32)]
  have hm : (fun e : Fin 640000 => val_main_v17 (F := Ideal) h ef src W1 b1 (ix2 e j))
      = fun e => refMsg h ef src W1 b1 e j := funext fun e => msg_read h ef src W1 b1 e j
  rw [hm]

theorem deg22_eq (i : Fin 50000) (j : Fin 128) : idx_main_v21 (idx_main_v22 (ix2 i j)) = ix1 i := by
  funext a; match a with | ⟨0, _⟩ => rfl

/-- The mean of the messages landing on a node. -/
theorem agg_read (h : NodeT) (ef : EdgeT) (src dst : EdgeW) (W1 : W1T) (b1 : BiasT) (i : Fin 50000) (j : Fin 128) :
    val_main_v23 (F := Ideal) h ef src dst W1 b1 (ix2 i j) = refAgg h ef src dst W1 b1 i j := by
  rw [val_main_v23_apply, sum_read, val_main_v22_apply, val_main_v21_apply, deg22_eq, degc_read]
  rfl

theorem lidx24_eq (i : Fin 50000) (j : Fin 128) (k : Fin 128) : lidx_main_v24 (ix2 i j) k = ix2 i k := by
  funext a; match a with | ⟨0, _⟩ => rfl | ⟨1, _⟩ => rfl

theorem ridx24_eq (i : Fin 50000) (j : Fin 128) (k : Fin 128) : ridx_main_v24 (ix2 i j) k = ix2 k j := by
  funext a; match a with | ⟨0, _⟩ => rfl | ⟨1, _⟩ => rfl

theorem bias26_eq (i : Fin 50000) (j : Fin 128) : idx_main_v25 (idx_main_v26 (ix2 i j)) = ix1 j := by
  funext a; match a with | ⟨0, _⟩ => rfl

/-- The layer: the self-loop tail and the leaky rectifier over the means. -/
theorem layer_read (h : NodeT) (ef : EdgeT) (src dst : EdgeW) (W1 : W1T) (b1 : BiasT) (W2 : W2T) (b2 : BiasT) :
    val_main_v33 (F := Ideal) h ef src dst W1 b1 W2 b2 = refLayer h ef src dst W1 b1 W2 b2 := by
  funext i
  obtain ⟨p, q, rfl⟩ : ∃ (p : Fin 50000) (q : Fin 128), i = ix2 p q := ⟨i 0, i 1, eq_ix2 i⟩
  rw [val_main_v33_apply, val_main_v30_apply, val_main_v32_apply, val_main_v28_apply, val_main_v27_apply,
    val_main_v24_apply, val_main_v26_apply, val_main_v25_apply, val_main_v29_apply, val_main_v31_apply,
    val_main_cst_4_apply, val_main_cst_5_apply, bias26_eq]
  simp only [lidx24_eq, ridx24_eq, agg_read, Ideal.ofBits_def, Ideal.ofBits_zero_f32]
  rfl

/-! ## The second layer is the first layer's operations over the first layer's table -/

theorem layer2_eq (x0 : NodeT) (x1 : EdgeT) (x2 x3 : EdgeW) (x4 : W1T) (x5 : BiasT) (x6 : W2T) (x7 : BiasT)
    (x8 : W1T) (x9 : BiasT) (x10 : W2T) (x11 : BiasT) :
    val_main_v61 (F := Ideal) x0 x1 x2 x3 x4 x5 x6 x7 x8 x9 x10 x11
      = val_main_v33 (F := Ideal) (val_main_v33 (F := Ideal) x0 x1 x2 x3 x4 x5 x6 x7) x1 x2 x3 x8 x9 x10 x11 := rfl

/-! ## The final projection -/

theorem lidx63_eq (i : Fin 50000) (j : Fin 128) (k : Fin 384) : lidx_main_v63 (ix2 i j) k = ix2 i k := by
  funext a; match a with | ⟨0, _⟩ => rfl | ⟨1, _⟩ => rfl

theorem ridx63_eq (i : Fin 50000) (j : Fin 128) (k : Fin 384) : ridx_main_v63 (ix2 i j) k = ix2 k j := by
  funext a; match a with | ⟨0, _⟩ => rfl | ⟨1, _⟩ => rfl

theorem bias65_eq (i : Fin 50000) (j : Fin 128) : idx_main_v64 (idx_main_v65 (ix2 i j)) = ix1 j := by
  funext a; match a with | ⟨0, _⟩ => rfl

/-- The input table and the two layers' tables side by side, times Wf, plus the bias. -/
theorem final_read (x0 : NodeT) (x1 : EdgeT) (x2 x3 : EdgeW) (x4 : W1T) (x5 : BiasT) (x6 : W2T) (x7 : BiasT)
    (x8 : W1T) (x9 : BiasT) (x10 : W2T) (x11 : BiasT) (x12 : WfT) (x13 : BiasT) :
    val_main_v66 (F := Ideal) x0 x1 x2 x3 x4 x5 x6 x7 x8 x9 x10 x11 x12 x13
      = refFinal x0 (val_main_v33 (F := Ideal) x0 x1 x2 x3 x4 x5 x6 x7)
          (val_main_v61 (F := Ideal) x0 x1 x2 x3 x4 x5 x6 x7 x8 x9 x10 x11) x12 x13 := by
  funext i
  obtain ⟨p, q, rfl⟩ : ∃ (p : Fin 50000) (q : Fin 128), i = ix2 p q := ⟨i 0, i 1, eq_ix2 i⟩
  rw [val_main_v66_apply, val_main_v63_apply, val_main_v65_apply, val_main_v64_apply, bias65_eq, Ideal.addf_def]
  show _ = (∑ k : Fin 384, cat3 _ _ _ p k * x12 (ix2 k q)) + x13 (ix1 q)
  congr 1
  refine Finset.sum_congr rfl fun k _ => ?_
  rw [lidx63_eq, ridx63_eq]
  unfold val_main_v62
  rw [cat3_read]

/-- The last operation's value is the reference's function of the fourteen arguments. -/
theorem value_eq (x0 : NodeT) (x1 : EdgeT) (x2 x3 : EdgeW) (x4 : W1T) (x5 : BiasT) (x6 : W2T) (x7 : BiasT)
    (x8 : W1T) (x9 : BiasT) (x10 : W2T) (x11 : BiasT) (x12 : WfT) (x13 : BiasT) :
    val_main_v66 (F := Ideal) x0 x1 x2 x3 x4 x5 x6 x7 x8 x9 x10 x11 x12 x13
      = refSpec x0 x1 x2 x3 x4 x5 x6 x7 x8 x9 x10 x11 x12 x13 := by
  rw [final_read, layer2_eq, layer_read, layer_read]
  rfl

/-- The reference program's result is the reference's function of its fourteen arguments. -/
theorem ref_value (m : (ℓ : Loc nD τ sig) → Buf (Elt Ideal) ℓ) (c : Dev nD) :
    Cert.ReferenceIdeal.ValueP.res_main_v66 m c
      = refSpec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  rw [ReadP.val_main_v66_eq]
  exact value_eq _ _ _ _ _ _ _ _ _ _ _ _ _ _

end Cert.ReferenceIdeal.RefVal

end
-- ==== Proof.lean ====
/-
  The certificate of the graph-convolution kernel against its jnp reference, over the extended reals.

  Frames: the word-level kernel's and the idealized kernel's are the generated frame certificates of their five
  pallas_calls; the reference's is its run (the generated run module, its result goal read in three stretches) with the result dropped. The ideal pass rewrote nothing, so
  `preserves` is trivial.

  Values: the idealized kernel's run leaves in its result buffer the kernel's function `GraphConv.kerSpec` of the
  argument arrays (the launch over @main's segments, then each buffer read stage by stage: KRun, KStage0 … KStage4);
  the reference's run leaves `GraphConv.refSpec` of them (RefValue). The two are one function when the edge features
  and the first layers' weights and biases are real and every source word is a row index in [-50000, 50000)
  (Algebra), which is what the precondition says (Pre): a segment sum is linear, so summing the projected rows, the
  projected sum of the edge features and (number of edges) · b1 is summing the per-edge messages; dividing by the
  clamped degree is multiplying by its inverse; and a product with three matrices side by side is the sum of the
  three products.
-/
import proofs.«408989_j23862838297343_2_alg».proof.Defs
import proofs.«408989_j23862838297343_2_alg».proof.Proof.Gen.Kernel
import proofs.«408989_j23862838297343_2_alg».proof.Proof.Gen.Kernel.Frame
import proofs.«408989_j23862838297343_2_alg».proof.Proof.Gen.KernelIdeal
import proofs.«408989_j23862838297343_2_alg».proof.Proof.Gen.KernelIdeal.Frame
import proofs.«408989_j23862838297343_2_alg».proof.Proof.Gen.ReferenceIdeal
import proofs.«408989_j23862838297343_2_alg».proof.Proof.Gen.Pre_finite_inputs
import proofs.«408989_j23862838297343_2_alg».proof.Proof.Spec
import proofs.«408989_j23862838297343_2_alg».proof.Proof.Algebra
import proofs.«408989_j23862838297343_2_alg».proof.Proof.Pre
import proofs.«408989_j23862838297343_2_alg».proof.Proof.KRun
import proofs.«408989_j23862838297343_2_alg».proof.Proof.RunP
import proofs.«408989_j23862838297343_2_alg».proof.Proof.KStage4
import proofs.«408989_j23862838297343_2_alg».proof.Proof.RefValue
import Idealize.ShloMosaic.Adequacy
import Idealize.ShloMosaic.Init

noncomputable section

namespace Cert.Proof

open Idealize.ShloMosaic Idealize.ShloMosaic.TcCoe Idealize.SL.Sem GraphConv

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the kernel's function of the arguments in the result buffer: the kernel's by its stages, the
    reference's because, on arguments that agree and satisfy the precondition, its function is the kernel's. -/
theorem algebraic : Cert.algebraic_KernelIdeal_ReferenceIdeal := by
  intro m ρ m' ρ' hpre hagree
  refine ⟨fun c => kerSpec (Cert.KernelIdeal.KVal.aX0 m c) (Cert.KernelIdeal.KVal.aEf m c) (Cert.KernelIdeal.KVal.aSrc m c)
    (Cert.KernelIdeal.KVal.aDst m c) (Cert.KernelIdeal.KVal.aW1a m c) (Cert.KernelIdeal.KVal.ab1a m c)
    (Cert.KernelIdeal.KVal.aW2a m c) (Cert.KernelIdeal.KVal.ab2a m c) (Cert.KernelIdeal.KVal.aW1b m c)
    (Cert.KernelIdeal.KVal.ab1b m c) (Cert.KernelIdeal.KVal.aW2b m c) (Cert.KernelIdeal.KVal.ab2b m c)
    (Cert.KernelIdeal.KVal.aWf m c) (Cert.KernelIdeal.KVal.abf m c), ?_, ?_⟩
  · exact (θ_run (Cert.KernelIdeal.defs (F := Ideal)) _ _).mono
      (fun r h c => ⟨(h c).1.trans (Cert.KernelIdeal.KVal.W12_v39 m ρ c), (h c).2⟩)
      (Cert.KernelIdeal.KVal.run_value (F := Ideal) m ρ)
  · refine (θ_run (Cert.ReferenceIdeal.defs (F := Ideal)) _ _).mono (fun r h c => ⟨(h c).1.trans ?_, (h c).2⟩)
      (Cert.ReferenceIdeal.ValueP.run (F := Ideal) m' ρ')
    rw [Cert.ReferenceIdeal.RefVal.ref_value m' c]
    obtain ⟨e0, e1, e2, e3, e4, e5, e6, e7, e8, e9, e10, e11, e12, e13⟩ := hagree c
    rw [e0, e1, e2, e3, e4, e5, e6, e7, e8, e9, e10, e11, e12, e13]
    obtain ⟨h1, h4, h5, h8, h9, hs⟩ := GraphConv.of_pre _ _ _ _ _ _ _ _ _ _ _ _ _ _ (hpre c)
    exact (kerSpec_eq_refSpec _ _ _ _ _ _ _ _ _ _ _ _ _ _ h1 h4 h5 h8 h9 hs).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
